-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32000x4096 : Shape := ⟨2, ![32000, 4096]⟩
abbrev S8x1024x4096 : Shape := ⟨3, ![8, 1024, 4096]⟩
abbrev S8x1024 : Shape := ⟨2, ![8, 1024]⟩
abbrev S32000 : Shape := ⟨1, ![32000]⟩
abbrev S_ : Shape := ⟨0, ![]⟩

class Facts : Prop where
  bcast_S_S32000x4096 : S_.BroadcastsInDim S32000x4096 (![] : Fin 0 → Fin S32000x4096.rank)
  reducesTo_S32000x4096_S_d0_1 : S32000x4096.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S32000 : S_.BroadcastsInDim S32000 (![] : Fin 0 → Fin S32000.rank)
  reducesTo_S32000_S_d0 : S32000.ReducesTo [0] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg2 : IVec S8x1024 32) (main_v13 : IVec S_ 1) (main_v15 : IVec S8x1024 1) (main_c_5 : IVec S_ 32) : IVec S_ 1 :=
  let main_v16 : IVec S8x1024 32 := broadcastInDim S8x1024 ![] bcast_S_S8x1024 main_c_5
  let main_v17 : IVec S8x1024 1 := cmpi .sge main_arg2 main_v16
  let main_c_6 : IVec S_ 32 := constantI S_ 32 32000#32
  let main_v18 : IVec S8x1024 32 := broadcastInDim S8x1024 ![] bcast_S_S8x1024 main_c_6
  let main_v19 : IVec S8x1024 1 := cmpi .slt main_arg2 main_v18
  let main_v20 : IVec S8x1024 1 := andi main_v17 main_v19
  let main_v21 : IVec S8x1024 1 := ori main_v15 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v13 main_v22
  main_v23

def fn {F : FTy → Type} [FloatOps F] (main_arg0 : FVec F S32000x4096 .f32) (main_arg1 : FVec F S8x1024x4096 .f32) (main_arg2 : IVec S8x1024 32) (main_arg3 : FVec F S32000 .f32) : IVec S_ 1 :=
  let main_v0 : FVec F S32000x4096 .f32 := Host.absf main_arg0
  let main_cst : FVec F S_ .f32 := constant S_ .f32 0x7F800000#32
  let main_v1 : FVec F S32000x4096 .f32 := broadcastInDim S32000x4096 ![] bcast_S_S32000x4096 main_cst
  let main_v2 : IVec S32000x4096 1 := cmpf .olt main_v0 main_v1
  let main_c : IVec S_ 1 := constantI S_ 1 1#1
  let main_v3 : IVec S_ 1 := (fun x v => Host.reduce IntOp.andi x v reducesTo_S32000x4096_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S32000 .f32 := Host.absf main_arg3
  let main_cst_2 : FVec F S_ .f32 := constant S_ .f32 0x7F800000#32
  let main_v10 : FVec F S32000 .f32 := broadcastInDim S32000 ![] bcast_S_S32000 main_cst_2
  let main_v11 : IVec S32000 1 := cmpf .olt main_v9 main_v10
  let main_c_3 : IVec S_ 1 := constantI S_ 1 1#1
  let main_v12 : IVec S_ 1 := (fun x v => Host.reduce IntOp.andi x v reducesTo_S32000_S_d0 h_S_) main_v11 main_c_3
  let main_v13 : IVec S_ 1 := andi main_v8 main_v12
  let main_c_4 : IVec S_ 32 := constantI S_ 32 4294967196#32
  let main_v14 : IVec S8x1024 32 := broadcastInDim S8x1024 ![] bcast_S_S8x1024 main_c_4
  let main_v15 : IVec S8x1024 1 := cmpi .eq main_arg2 main_v14
  let main_c_5 : IVec S_ 32 := constantI S_ 32 0#32
  fn_part1 (F := F) main_arg2 main_v13 main_v15 main_c_5
-- ==== Kernel.lean ====
abbrev S32000x4096 : Shape := ⟨2, ![32000, 4096]⟩
abbrev S8x1024x4096 : Shape := ⟨3, ![8, 1024, 4096]⟩
abbrev S8x1024 : Shape := ⟨2, ![8, 1024]⟩
abbrev S32000 : Shape := ⟨1, ![32000]⟩
abbrev S8192x4096 : Shape := ⟨2, ![8192, 4096]⟩
abbrev S1x32000 : Shape := ⟨2, ![1, 32000]⟩
abbrev S8192x1 : Shape := ⟨2, ![8192, 1]⟩
abbrev S512x4096 : Shape := ⟨2, ![512, 4096]⟩
abbrev S1280x4096 : Shape := ⟨2, ![1280, 4096]⟩
abbrev S1x1280 : Shape := ⟨2, ![1, 1280]⟩
abbrev S512x1 : Shape := ⟨2, ![512, 1]⟩
abbrev S512x1280 : Shape := ⟨2, ![512, 1280]⟩
abbrev S512 : Shape := ⟨1, ![512]⟩
abbrev S_ : Shape := ⟨0, ![]⟩
abbrev S8 : Shape := ⟨1, ![8]⟩
abbrev S4 : Shape := ⟨1, ![4]⟩
abbrev S4x1024 : Shape := ⟨2, ![4, 1024]⟩

abbrev nBuf : Space → Nat
  | .hbm => 82
  | .vmem => 13
  | .smem => 0
  | _ => 0

abbrev bufTy : (tb : Table) → Fin (tcTables nBuf tb) → BufTy
  | .hbm, ⟨0, _⟩ => ⟨S32000x4096, .f32⟩
  | .hbm, ⟨1, _⟩ => ⟨S8x1024x4096, .f32⟩
  | .hbm, ⟨2, _⟩ => ⟨S8x1024, .i32⟩
  | .hbm, ⟨3, _⟩ => ⟨S32000, .f32⟩
  | .hbm, ⟨4, _⟩ => ⟨S8192x4096, .f32⟩
  | .hbm, ⟨5, _⟩ => ⟨S8192x4096, .bf16⟩
  | .hbm, ⟨6, _⟩ => ⟨S32000x4096, .bf16⟩
  | .hbm, ⟨7, _⟩ => ⟨S1x32000, .f32⟩
  | .hbm, ⟨8, _⟩ => ⟨S8192x1, .i32⟩
  | .hbm, ⟨9, _⟩ => ⟨S8192x1, .f32⟩
  | .hbm, ⟨10, _⟩ => ⟨S8x1024, .f32⟩
  | .hbm, ⟨11, _⟩ => ⟨S_, .i32⟩
  | .hbm, ⟨12, _⟩ => ⟨S8x1024, .i32⟩
  | .hbm, ⟨13, _⟩ => ⟨S8x1024, .i1⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8, .f32⟩
  | .hbm, ⟨18, _⟩ => ⟨S4, .f32⟩
  | .hbm, ⟨19, _⟩ => ⟨S4, .f32⟩
  | .hbm, ⟨20, _⟩ => ⟨S4x1024, .i1⟩
  | .hbm, ⟨21, _⟩ => ⟨S4x1024, .i32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S4x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .i1⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4, .i1⟩
  | .hbm, ⟨62, _⟩ => ⟨S4, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S1280x4096, .bf16⟩
  | .local _ .vmem, ⟨3, _⟩ => ⟨S1280x4096, .bf16⟩
  | .local _ .vmem, ⟨4, _⟩ => ⟨S1x1280, .f32⟩
  | .local _ .vmem, ⟨5, _⟩ => ⟨S1x1280, .f32⟩
  | .local _ .vmem, ⟨6, _⟩ => ⟨S512x1, .i32⟩
  | .local _ .vmem, ⟨7, _⟩ => ⟨S512x1, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | _, _ => ⟨S32000x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call1_v0 : Ref sig .tc := ⟨.hbm, 55, rfl⟩
abbrev main_call1_call0_cst : Ref sig .tc := ⟨.hbm, 56, rfl⟩
abbrev main_call1_call0_v0 : Ref sig .tc := ⟨.hbm, 57, rfl⟩
abbrev main_call1_call0_v1 : Ref sig .tc := ⟨.hbm, 58, rfl⟩
abbrev main_call1_call0_v2 : Ref sig .tc := ⟨.hbm, 59, rfl⟩
abbrev main_call1_call0_v3 : Ref sig .tc := ⟨.hbm, 60, rfl⟩
abbrev main_call1_call0_v4 : Ref sig .tc := ⟨.hbm, 61, rfl⟩
abbrev main_call1_call0_v5 : Ref sig .tc := ⟨.hbm, 62, rfl⟩
abbrev main_call1_call0_v6 : Ref sig .tc := ⟨.hbm, 63, rfl⟩
abbrev main_call1_call0_v7 : Ref sig .tc := ⟨.hbm, 64, rfl⟩
abbrev main_call1_call0_v8 : Ref sig .tc := ⟨.hbm, 65, rfl⟩
abbrev main_call1_call0_v9 : Ref sig .tc := ⟨.hbm, 66, rfl⟩
abbrev main_call1_call0_v10 : Ref sig .tc := ⟨.hbm, 67, rfl⟩
abbrev main_call1_call0_v11 : Ref sig .tc := ⟨.hbm, 68, rfl⟩
abbrev main_call1_v1 : Ref sig .tc := ⟨.hbm, 69, rfl⟩
abbrev main_v30 : Ref sig .tc := ⟨.hbm, 70, rfl⟩
abbrev main_cst_4 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_5 : Ref sig .tc := ⟨.hbm, 75, rfl⟩
abbrev main_v34 : Ref sig .tc := ⟨.hbm, 76, rfl⟩
abbrev main_cst_6 : Ref sig .tc := ⟨.hbm, 77, rfl⟩
abbrev main_v35 : Ref sig .tc := ⟨.hbm, 78, rfl⟩
abbrev main_cst_7 : Ref sig .tc := ⟨.hbm, 79, rfl⟩
abbrev main_v36 : Ref sig .tc := ⟨.hbm, 80, rfl⟩
abbrev main_v37 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 25], ![false, false]⟩

def k0_cond2 (i : grid0.Coords) : BitVec 1 :=
  let arg1 : BitVec 32 := BitVec.ofNat 32 (i 1).val
  let c24_i32 : BitVec 32 := 24#32
  let v50 : BitVec 1 := Scalar.cmpi .eq arg1 c24_i32
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x1024x4096_S8192x4096 : S8x1024x4096.ShapeCasts S8192x4096
  bitsLt_bf16_f32 : FTy.bits .bf16 < FTy.bits .f32
  shapeCasts_S32000_S1x32000 : S32000.ShapeCasts S1x32000
  shapeCasts_S8x1024_S8192x1 : S8x1024.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  reduces_S512x1280_S512 : S512x1280.Reduces [1] S512
  shapeCasts_S512_S512x1 : S512.ShapeCasts S512x1
  broadcasts_S512x1_S512x1280 : S512x1.Broadcasts S512x1280
  iota_S512x1280_d1_w32 : S512x1280.Iotas .tc 32 [1]
  shapeCasts_S8192x1_S8x1024 : S8192x1.ShapeCasts S8x1024
  bcast_S_S8x1024 : S_.BroadcastsInDim S8x1024 (![] : Fin 0 → Fin S8x1024.rank)
  reducesTo_S8x1024_S8_d1 : S8x1024.ReducesTo [1] S8
  h_S_ : 0 < S_.numel
  slices_S8_S4_0 : S8.Slices ![0] S4
  slices_S8_S4_4 : S8.Slices ![4] S4
  slices_S8x1024_S4x1024_0_0 : S8x1024.Slices ![0, 0] S4x1024
  natLt_1_32 : 1 < 32
  reducesTo_S4x1024_S_d0_1 : S4x1024.ReducesTo [0, 1] S_
  bcast_S_S4 : S_.BroadcastsInDim S4 (![] : Fin 0 → Fin S4.rank)
  reducesTo_S4_S_d0 : S4.ReducesTo [0] S_
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .i32 = 32 ∨ (Rect.block (s := S8192x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32000x4096 : Shape := ⟨2, ![32000, 4096]⟩
abbrev S8x1024x4096 : Shape := ⟨3, ![8, 1024, 4096]⟩
abbrev S8x1024 : Shape := ⟨2, ![8, 1024]⟩
abbrev S32000 : Shape := ⟨1, ![32000]⟩
abbrev S8x1024x32000 : Shape := ⟨3, ![8, 1024, 32000]⟩
abbrev S1x1x32000 : Shape := ⟨3, ![1, 1, 32000]⟩
abbrev S_ : Shape := ⟨0, ![]⟩
abbrev S8x1024x1 : Shape := ⟨3, ![8, 1024, 1]⟩
abbrev S8x1024x1x1 : Shape := ⟨4, ![8, 1024, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x1024 : Shape := ⟨2, ![4, 1024]⟩

abbrev nBuf : Space → Nat
  | .hbm => 122
  | .vmem => 0
  | .smem => 0
  | _ => 0

abbrev bufTy : (tb : Table) → Fin (tcTables nBuf tb) → BufTy
  | .hbm, ⟨0, _⟩ => ⟨S32000x4096, .f32⟩
  | .hbm, ⟨1, _⟩ => ⟨S8x1024x4096, .f32⟩
  | .hbm, ⟨2, _⟩ => ⟨S8x1024, .i32⟩
  | .hbm, ⟨3, _⟩ => ⟨S32000, .f32⟩
  | .hbm, ⟨4, _⟩ => ⟨S8x1024x32000, .f32⟩
  | .hbm, ⟨5, _⟩ => ⟨S1x1x32000, .f32⟩
  | .hbm, ⟨6, _⟩ => ⟨S8x1024x32000, .f32⟩
  | .hbm, ⟨7, _⟩ => ⟨S8x1024x32000, .f32⟩
  | .hbm, ⟨8, _⟩ => ⟨S_, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024x1, .f32⟩
  | .hbm, ⟨14, _⟩ => ⟨S8x1024x32000, .f32⟩
  | .hbm, ⟨15, _⟩ => ⟨S8x1024x32000, .f32⟩
  | .hbm, ⟨16, _⟩ => ⟨S8x1024x32000, .f32⟩
  | .hbm, ⟨17, _⟩ => ⟨S_, .f32⟩
  | .hbm, ⟨18, _⟩ => ⟨S8x1024, .f32⟩
  | .hbm, ⟨19, _⟩ => ⟨S8x1024x1, .f32⟩
  | .hbm, ⟨20, _⟩ => ⟨S8x1024x1, .f32⟩
  | .hbm, ⟨21, _⟩ => ⟨S8x1024x32000, .f32⟩
  | .hbm, ⟨22, _⟩ => ⟨S8x1024x32000, .f32⟩
  | .hbm, ⟨23, _⟩ => ⟨S_, .i32⟩
  | .hbm, ⟨24, _⟩ => ⟨S8x1024, .i32⟩
  | .hbm, ⟨25, _⟩ => ⟨S8x1024, .i1⟩
  | .hbm, ⟨26, _⟩ => ⟨S_, .i32⟩
  | .hbm, ⟨27, _⟩ => ⟨S_, .i32⟩
  | .hbm, ⟨28, _⟩ => ⟨S8x1024, .i32⟩
  | .hbm, ⟨29, _⟩ => ⟨S8x1024, .i32⟩
  | .hbm, ⟨30, _⟩ => ⟨S8x1024x1, .i32⟩
  | .hbm, ⟨31, _⟩ => ⟨S_, .i32⟩
  | .hbm, ⟨32, _⟩ => ⟨S8x1024x1, .i32⟩
  | .hbm, ⟨33, _⟩ => ⟨S8x1024x1, .i1⟩
  | .hbm, ⟨34, _⟩ => ⟨S_, .i32⟩
  | .hbm, ⟨35, _⟩ => ⟨S8x1024x1, .i32⟩
  | .hbm, ⟨36, _⟩ => ⟨S8x1024x1, .i32⟩
  | .hbm, ⟨37, _⟩ => ⟨S8x1024x1, .i32⟩
  | .hbm, ⟨38, _⟩ => ⟨S8x1024x1x1, .i32⟩
  | .hbm, ⟨39, _⟩ => ⟨S1, .i32⟩
  | .hbm, ⟨40, _⟩ => ⟨S_, .i32⟩
  | .hbm, ⟨41, _⟩ => ⟨S8x1024x1x1, .i32⟩
  | .hbm, ⟨42, _⟩ => ⟨S8x1024x1x1, .i1⟩
  | .hbm, ⟨43, _⟩ => ⟨S1x1x1x1, .i32⟩
  | .hbm, ⟨44, _⟩ => ⟨S8x1024x1x1, .i32⟩
  | .hbm, ⟨45, _⟩ => ⟨S8x1024x1x1, .i1⟩
  | .hbm, ⟨46, _⟩ => ⟨S8x1024x1x1, .i1⟩
  | .hbm, ⟨47, _⟩ => ⟨S_, .i1⟩
  | .hbm, ⟨48, _⟩ => ⟨S8x1024x1, .i1⟩
  | .hbm, ⟨49, _⟩ => ⟨S8x1024x1, .f32⟩
  | .hbm, ⟨50, _⟩ => ⟨S_, .f32⟩
  | .hbm, ⟨51, _⟩ => ⟨S8x1024x1, .f32⟩
  | .hbm, ⟨52, _⟩ => ⟨S8x1024x1, .f32⟩
  | .hbm, ⟨53, _⟩ => ⟨S8x1024, .f32⟩
  | .hbm, ⟨54, _⟩ => ⟨S8x1024, .f32⟩
  | .hbm, ⟨55, _⟩ => ⟨S8x1024, .f32⟩
  | .hbm, ⟨56, _⟩ => ⟨S_, .f32⟩
  | .hbm, ⟨57, _⟩ => ⟨S8, .f32⟩
  | .hbm, ⟨58, _⟩ => ⟨S4, .f32⟩
  | .hbm, ⟨59, _⟩ => ⟨S4, .f32⟩
  | .hbm, ⟨60, _⟩ => ⟨S4x1024, .i1⟩
  | .hbm, ⟨61, _⟩ => ⟨S4x1024, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S4x1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .i1⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S_, .f32⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S_, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S4, .i1⟩
  | .hbm, ⟨102, _⟩ => ⟨S4, .f32⟩
  | .hbm, ⟨103, _⟩ => ⟨S4, .f32⟩
  | .hbm, ⟨104, _⟩ => ⟨S4, .f32⟩
  | .hbm, ⟨105, _⟩ => ⟨S4, .f32⟩
  | .hbm, ⟨106, _⟩ => ⟨S4, .f32⟩
  | .hbm, ⟨107, _⟩ => ⟨S4, .f32⟩
  | .hbm, ⟨108, _⟩ => ⟨S4, .f32⟩
  | .hbm, ⟨109, _⟩ => ⟨S4, .f32⟩
  | .hbm, ⟨110, _⟩ => ⟨S4, .f32⟩
  | .hbm, ⟨111, _⟩ => ⟨S_, .f32⟩
  | .hbm, ⟨112, _⟩ => ⟨S4, .f32⟩
  | .hbm, ⟨113, _⟩ => ⟨S4, .f32⟩
  | .hbm, ⟨114, _⟩ => ⟨S4, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S32000x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_v1 : Ref sig .tc := ⟨.hbm, 28, rfl⟩
abbrev main_v7 : Ref sig .tc := ⟨.hbm, 29, rfl⟩
abbrev main_v8 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_cst : Ref sig .tc := ⟨.hbm, 50, rfl⟩
abbrev main_call2_v14 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_cst : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_1 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_3 : Ref sig .tc := ⟨.hbm, 71, rfl⟩
abbrev main_v25 : Ref sig .tc := ⟨.hbm, 72, rfl⟩
abbrev main_v26 : Ref sig .tc := ⟨.hbm, 73, rfl⟩
abbrev main_call3_v0 : Ref sig .tc := ⟨.hbm, 74, rfl⟩
abbrev main_call3_call0_cst : Ref sig .tc := ⟨.hbm, 75, rfl⟩
abbrev main_call3_call0_v0 : Ref sig .tc := ⟨.hbm, 76, rfl⟩
abbrev main_call3_call0_v1 : Ref sig .tc := ⟨.hbm, 77, rfl⟩
abbrev main_call3_call0_v2 : Ref sig .tc := ⟨.hbm, 78, rfl⟩
abbrev main_call3_call0_v3 : Ref sig .tc := ⟨.hbm, 79, rfl⟩
abbrev main_call3_call0_v4 : Ref sig .tc := ⟨.hbm, 80, rfl⟩
abbrev main_call3_call0_v5 : Ref sig .tc := ⟨.hbm, 81, rfl⟩
abbrev main_call3_call0_v6 : Ref sig .tc := ⟨.hbm, 82, rfl⟩
abbrev main_call3_call0_v7 : Ref sig .tc := ⟨.hbm, 83, rfl⟩
abbrev main_call3_call0_v8 : Ref sig .tc := ⟨.hbm, 84, rfl⟩
abbrev main_call3_call0_v9 : Ref sig .tc := ⟨.hbm, 85, rfl⟩
abbrev main_call3_call0_v10 : Ref sig .tc := ⟨.hbm, 86, rfl⟩
abbrev main_call3_call0_v11 : Ref sig .tc := ⟨.hbm, 87, rfl⟩
abbrev main_call3_v1 : Ref sig .tc := ⟨.hbm, 88, rfl⟩
abbrev main_v27 : Ref sig .tc := ⟨.hbm, 89, rfl⟩
abbrev main_v28 : Ref sig .tc := ⟨.hbm, 90, rfl⟩
abbrev main_cst_4 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_call4_v0 : Ref sig .tc := ⟨.hbm, 95, rfl⟩
abbrev main_call4_call0_cst : Ref sig .tc := ⟨.hbm, 96, rfl⟩
abbrev main_call4_call0_v0 : Ref sig .tc := ⟨.hbm, 97, rfl⟩
abbrev main_call4_call0_v1 : Ref sig .tc := ⟨.hbm, 98, rfl⟩
abbrev main_call4_call0_v2 : Ref sig .tc := ⟨.hbm, 99, rfl⟩
abbrev main_call4_call0_v3 : Ref sig .tc := ⟨.hbm, 100, rfl⟩
abbrev main_call4_call0_v4 : Ref sig .tc := ⟨.hbm, 101, rfl⟩
abbrev main_call4_call0_v5 : Ref sig .tc := ⟨.hbm, 102, rfl⟩
abbrev main_call4_call0_v6 : Ref sig .tc := ⟨.hbm, 103, rfl⟩
abbrev main_call4_call0_v7 : Ref sig .tc := ⟨.hbm, 104, rfl⟩
abbrev main_call4_call0_v8 : Ref sig .tc := ⟨.hbm, 105, rfl⟩
abbrev main_call4_call0_v9 : Ref sig .tc := ⟨.hbm, 106, rfl⟩
abbrev main_call4_call0_v10 : Ref sig .tc := ⟨.hbm, 107, rfl⟩
abbrev main_call4_call0_v11 : Ref sig .tc := ⟨.hbm, 108, rfl⟩
abbrev main_call4_v1 : Ref sig .tc := ⟨.hbm, 109, rfl⟩
abbrev main_v32 : Ref sig .tc := ⟨.hbm, 110, rfl⟩
abbrev main_cst_5 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_cst_6 : Ref sig .tc := ⟨.hbm, 115, rfl⟩
abbrev main_v36 : Ref sig .tc := ⟨.hbm, 116, rfl⟩
abbrev main_cst_7 : Ref sig .tc := ⟨.hbm, 117, rfl⟩
abbrev main_v37 : Ref sig .tc := ⟨.hbm, 118, rfl⟩
abbrev main_cst_8 : Ref sig .tc := ⟨.hbm, 119, rfl⟩
abbrev main_v38 : Ref sig .tc := ⟨.hbm, 120, rfl⟩
abbrev main_v39 : Ref sig .tc := ⟨.hbm, 121, rfl⟩

abbrev nD : Nat := 1
abbrev τ : Topo := Topo.v7x

variable {F : FTy → Type} [FloatOps F]

class Facts₀ : Prop where
  bcast_S32000_S1x1x32000_2 : S32000.BroadcastsInDim S1x1x32000 (![2] : Fin 1 → Fin S1x1x32000.rank)
  bcast_S1x1x32000_S8x1024x32000_0_1_2 : S1x1x32000.BroadcastsInDim S8x1024x32000 (![0, 1, 2] : Fin 3 → Fin S8x1024x32000.rank)
  reducesTo_S8x1024x32000_S8x1024_d2 : S8x1024x32000.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  reducesTo_S8x1024_S8_d1 : S8x1024.ReducesTo [1] S8
  slices_S8_S4_0 : S8.Slices ![0] S4
  slices_S8_S4_4 : S8.Slices ![4] S4
  slices_S8x1024_S4x1024_0_0 : S8x1024.Slices ![0, 0] S4x1024
  natLt_1_32 : 1 < 32
  reducesTo_S4x1024_S_d0_1 : S4x1024.ReducesTo [0, 1] S_
  bcast_S_S4 : S_.BroadcastsInDim S4 (![] : Fin 0 → Fin S4.rank)
  reducesTo_S4_S_d0 : S4.ReducesTo [0] S_
  dot_S8x1024x4096_S32000x4096_S8x1024x32000_2_1_01_0_n_n_wf : DotDims.WF S8x1024x4096 S32000x4096 S8x1024x32000 [2] [1] [0, 1] [0] [] []
  gather_S8x1024x32000_S8x1024x1x1_S8x1024x1_n_2_01_01_2_3_111_wf : GatherDims.WF S8x1024x32000 S8x1024x1x1 S8x1024x1 [] [2] [0, 1] [2] [0, 1] 3 ![1, 1, 1]

variable [Facts₀]

def dot_S8x1024x4096_S32000x4096_S8x1024x32000_2_1_01_0_n_n : DotDims S8x1024x4096 S32000x4096 S8x1024x32000 where
  lhsContracting := [2]
  rhsContracting := [1]
  lhsNonContracting := [0, 1]
  rhsNonContracting := [0]
  lhsBatch := []
  rhsBatch := []
  wf := dot_S8x1024x4096_S32000x4096_S8x1024x32000_2_1_01_0_n_n_wf
def gather_S8x1024x32000_S8x1024x1x1_S8x1024x1_n_2_01_01_2_3_111 : GatherDims S8x1024x32000 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x32000_S8x1024x1x1_S8x1024x1_n_2_01_01_2_3_111_wf

class Facts : Prop extends Facts₀ where

variable [Facts]
-- ==== Proof.HandKernel.Runs.lean ====
/-
  What the three cases of the row-scan kernel's body share, and @main around the region.

  The grid is 16 row tiles × 25 vocabulary tiles, the vocabulary axis innermost: point t is row tile t / 25 and
  vocabulary tile t % 25.  The body resets its three running quantities (maximum, rescaled sum of exponentials,
  sum of the entry at the label) exactly at the points t % 25 = 0 and writes the output block exactly at the points
  t % 25 = 24; at every other point the output window is idle and is not written back.  Before the region @main
  reshapes and narrows its arguments (five operations); after it come the loss's operations in five stretches, none
  of which writes an array the region stages.
-/
import proofs.«403262_j18391049961623_3_alg».proof.Proof.Gen.Kernel.Launch
import proofs.«403262_j18391049961623_3_alg».proof.Proof.Gen.Kernel.Skeleton
import proofs.«403262_j18391049961623_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the memory after the five operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the operations before the region, the region, and the operations after it: it reduces to the region
    continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No operation of a stretch writes an array the region stages: each writes only its own result buffer. -/
theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- The reset's condition: the vocabulary coordinate is 0. -/
abbrev cond0_0 (i : grid0.Coords) : Prop := (Scalar.cmpi .ne (Scalar.extui (Scalar.cmpi .eq (BitVec.ofNat 32 (i 1).val) 0#32)) 0#32) = 1#1
/-- It holds exactly at the points t with t % 25 = 0. -/
theorem hcond0_0 : ∀ t : Fin cfg0.N, cond0_0 (grid0.coords t) ↔ t.val % 25 = 0 :=
  (by decide +kernel : ∀ t : Fin grid0.N, cond0_0 (grid0.coords t) ↔ t.val % 25 = 0)

/-- The output store's condition: the vocabulary coordinate is 24. -/
abbrev cond0_1 (i : grid0.Coords) : Prop := k0_cond2 i = 1#1
/-- It holds exactly at the points t with t % 25 = 24. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output is not stored the output window is idle, -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- where it is stored the window is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S512x1 .f32 := (Memref.whole cc0_stg4_0 : Memref sig .tc .vmem S512x1 .f32).view
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The three scratch operands: the running maximum, the running sum, the running entry at the label. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- What the launch hands the region and takes back: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.HandKernel.RunA.lean ====
/-
  The body at a point that starts a row tile's sweep (vocabulary tile 0): the three running quantities are reset
  (−∞, 0, 0) and then updated with the first tile; nothing is stored into the output block, which is handed back as
  it was found.  What each scratch buffer ends with is found as the list of the pieces stored into it.
-/
import proofs.«403262_j18391049961623_3_alg».proof.Proof.HandKernel.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A (reset taken, output store not taken): on whole memrefs, the inputs at their blocks, the output block at
    any contents (handed back untouched), the three scratch buffers at anything, the body runs and leaves the inputs
    as they were and each scratch buffer with the pieces written that the run finds. -/
noncomputable def kernelRun0_A (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S1x1280 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x4096 .bf16) (x1 : Vec F S1280x4096 .bf16) (x2 : Vec F S1x1280 .f32) (x3 : Vec F S512x1 .i32) :
    Σ' (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__cpo_rowscan_kernel i arg2 harg2 arg3 harg3 arg4 harg4 arg5 harg5 arg6 harg6 arg7 harg7 arg8 harg8 arg9 harg9) K } := by
  refine ⟨?_, ?_, ?_, fun xi4 E K => ?run⟩
  case run =>
    simp only [cc0__cpo_rowscan_kernel_eq_skeleton]; unfold cc0__cpo_rowscan_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.HandKernel.RunB.lean ====
/-
  The body at a point in the middle of a row tile's sweep (vocabulary tile 1 to 23): the three running quantities,
  found as the point before left them, are updated with the tile; nothing is stored into the output block, which is
  handed back as it was found.
-/
import proofs.«403262_j18391049961623_3_alg».proof.Proof.HandKernel.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B (neither branch taken): on whole memrefs, the inputs at their blocks, the output block at any contents
    (handed back untouched), the three scratch buffers at the contents the point before left, the body runs and leaves
    the inputs as they were and each scratch buffer with the pieces written that the run finds. -/
noncomputable def kernelRun0_B (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S1x1280 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x4096 .bf16) (x1 : Vec F S1280x4096 .bf16) (x2 : Vec F S1x1280 .f32) (x3 : Vec F S512x1 .i32) (xs0 xs1 xs2 : Vec F S512x1 .f32) :
    Σ' (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__cpo_rowscan_kernel i arg2 harg2 arg3 harg3 arg4 harg4 arg5 harg5 arg6 harg6 arg7 harg7 arg8 harg8 arg9 harg9) K } := by
  refine ⟨?_, ?_, ?_, fun xi4 E K => ?run⟩
  case run =>
    simp only [cc0__cpo_rowscan_kernel_eq_skeleton]; unfold cc0__cpo_rowscan_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.HandKernel.RunC.lean ====
/-
  The body at the point that ends a row tile's sweep (vocabulary tile 24): the three running quantities, found as
  the point before left them, are updated with the last tile, and the output block is stored: the entry at the label
  less (maximum + log of the sum).
-/
import proofs.«403262_j18391049961623_3_alg».proof.Proof.HandKernel.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C (reset not taken, output store taken): on whole memrefs, the inputs at their blocks, the output block at
    anything, the three scratch buffers at the contents the point before left, the body runs and leaves the inputs as
    they were, and the output block and each scratch buffer with the pieces written that the run finds. -/
noncomputable def kernelRun0_C (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S1x1280 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x4096 .bf16) (x1 : Vec F S1280x4096 .bf16) (x2 : Vec F S1x1280 .f32) (x3 : Vec F S512x1 .i32) (xs0 xs1 xs2 : Vec F S512x1 .f32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__cpo_rowscan_kernel i arg2 harg2 arg3 harg3 arg4 harg4 arg5 harg5 arg6 harg6 arg7 harg7 arg8 harg8 arg9 harg9) K } := by
  refine ⟨?_, ?_, ?_, ?_, fun E K => ?run⟩
  case run =>
    simp only [cc0__cpo_rowscan_kernel_eq_skeleton]; unfold cc0__cpo_rowscan_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.HandKernel.Frame.lean ====
/-
  What the output block and the three scratch buffers hold after each grid point, the proof data of the region,
  the body's obligation at every point, and the run of @main.

  After point t the scratch buffers hold the running maximum, the running rescaled sum of exponentials and the running
  entry at the label of the row tile t / 25 over its vocabulary tiles 0 … t % 25: at t % 25 = 0 they are computed from
  the reset values, otherwise from what point t − 1 left.  The output block is stored at the points t % 25 = 24 only;
  elsewhere its window is idle and is not written back, so what its buffer holds there is never consulted.
-/
import proofs.«403262_j18391049961623_3_alg».proof.Proof.HandKernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

abbrev runA (c : Dev nD) (t : Fin cfg0.N) (h0 : t.val % 25 = 0) (h1 : ¬t.val % 25 = 24) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)
abbrev runB (c : Dev nD) (t : Fin cfg0.N) (h0 : ¬t.val % 25 = 0) (h1 : ¬t.val % 25 = 24) (p : Vec F S512x1 .f32 × Vec F S512x1 .f32 × Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) p.1 p.2.1 p.2.2
abbrev runC (c : Dev nD) (t : Fin cfg0.N) (h0 : ¬t.val % 25 = 0) (h1 : t.val % 25 = 24) (p : Vec F S512x1 .f32 × Vec F S512x1 .f32 × Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) p.1 p.2.1 p.2.2

/-- A list of stored pieces read back through a view, over contents that do not matter once the pieces cover it. -/
abbrev rd (v : View sig .tc .vmem S512x1 .f32) (L : List (View.Piece (Elt F) S512x1 .f32)) : Vec F S512x1 .f32 :=
  v.read (Elt F) (v.writes (Elt F) v.junk L)

/-- What case A leaves in the three scratch buffers. -/
def scA (c : Dev nD) (t : Fin cfg0.N) (h0 : t.val % 25 = 0) (h1 : ¬t.val % 25 = 24) : Vec F S512x1 .f32 × Vec F S512x1 .f32 × Vec F S512x1 .f32 :=
  (rd VS0_0 (runA m c t h0 h1).1, rd VS0_1 (runA m c t h0 h1).2.1, rd VS0_2 (runA m c t h0 h1).2.2.1)
/-- What case B leaves in them, over what the point before left (p). -/
def scB (c : Dev nD) (t : Fin cfg0.N) (h0 : ¬t.val % 25 = 0) (h1 : ¬t.val % 25 = 24) (p : Vec F S512x1 .f32 × Vec F S512x1 .f32 × Vec F S512x1 .f32) : Vec F S512x1 .f32 × Vec F S512x1 .f32 × Vec F S512x1 .f32 :=
  (rd VS0_0 (runB m c t h0 h1 p).1, rd VS0_1 (runB m c t h0 h1 p).2.1, rd VS0_2 (runB m c t h0 h1 p).2.2.1)
/-- What case C leaves in them, -/
def scC (c : Dev nD) (t : Fin cfg0.N) (h0 : ¬t.val % 25 = 0) (h1 : t.val % 25 = 24) (p : Vec F S512x1 .f32 × Vec F S512x1 .f32 × Vec F S512x1 .f32) : Vec F S512x1 .f32 × Vec F S512x1 .f32 × Vec F S512x1 .f32 :=
  (rd VS0_0 (runC m c t h0 h1 p).2.1, rd VS0_1 (runC m c t h0 h1 p).2.2.1, rd VS0_2 (runC m c t h0 h1 p).2.2.2.1)
/-- and in the output block. -/
def outC (c : Dev nD) (t : Fin cfg0.N) (h0 : ¬t.val % 25 = 0) (h1 : t.val % 25 = 24) (p : Vec F S512x1 .f32 × Vec F S512x1 .f32 × Vec F S512x1 .f32) : Vec F S512x1 .f32 :=
  rd VO0_4 (runC m c t h0 h1 p).1

/-- Each case stores every scratch buffer whole, so its pieces cover the buffer. -/
theorem scoverA_0 (c : Dev nD) (t : Fin cfg0.N) (h0 : t.val % 25 = 0) (h1 : ¬t.val % 25 = 24) (y : S512x1.Idx) : ∃ pc ∈ (runA m c t h0 h1).1, y ∈ pc.1.set :=
  View.cover_of_tiledL (runA m c t h0 h1).1 S512x1.size (by sl_kernel_rfl) y
theorem scoverA_1 (c : Dev nD) (t : Fin cfg0.N) (h0 : t.val % 25 = 0) (h1 : ¬t.val % 25 = 24) (y : S512x1.Idx) : ∃ pc ∈ (runA m c t h0 h1).2.1, y ∈ pc.1.set :=
  View.cover_of_tiledL (runA m c t h0 h1).2.1 S512x1.size (by sl_kernel_rfl) y
theorem scoverA_2 (c : Dev nD) (t : Fin cfg0.N) (h0 : t.val % 25 = 0) (h1 : ¬t.val % 25 = 24) (y : S512x1.Idx) : ∃ pc ∈ (runA m c t h0 h1).2.2.1, y ∈ pc.1.set :=
  View.cover_of_tiledL (runA m c t h0 h1).2.2.1 S512x1.size (by sl_kernel_rfl) y
theorem scoverB_0 (c : Dev nD) (t : Fin cfg0.N) (h0 : ¬t.val % 25 = 0) (h1 : ¬t.val % 25 = 24) (p : Vec F S512x1 .f32 × Vec F S512x1 .f32 × Vec F S512x1 .f32) (y : S512x1.Idx) : ∃ pc ∈ (runB m c t h0 h1 p).1, y ∈ pc.1.set :=
  View.cover_of_tiledL (runB m c t h0 h1 p).1 S512x1.size (by sl_kernel_rfl) y
theorem scoverB_1 (c : Dev nD) (t : Fin cfg0.N) (h0 : ¬t.val % 25 = 0) (h1 : ¬t.val % 25 = 24) (p : Vec F S512x1 .f32 × Vec F S512x1 .f32 × Vec F S512x1 .f32) (y : S512x1.Idx) : ∃ pc ∈ (runB m c t h0 h1 p).2.1, y ∈ pc.1.set :=
  View.cover_of_tiledL (runB m c t h0 h1 p).2.1 S512x1.size (by sl_kernel_rfl) y
theorem scoverB_2 (c : Dev nD) (t : Fin cfg0.N) (h0 : ¬t.val % 25 = 0) (h1 : ¬t.val % 25 = 24) (p : Vec F S512x1 .f32 × Vec F S512x1 .f32 × Vec F S512x1 .f32) (y : S512x1.Idx) : ∃ pc ∈ (runB m c t h0 h1 p).2.2.1, y ∈ pc.1.set :=
  View.cover_of_tiledL (runB m c t h0 h1 p).2.2.1 S512x1.size (by sl_kernel_rfl) y
theorem coverC_4 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).1, y ∈ pc.1.set :=
  View.cover_of_tiledL (runC m c t h0 h1 p).1 S512x1.size (by sl_kernel_rfl) y
theorem scoverC_0 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).2.1, y ∈ pc.1.set :=
  View.cover_of_tiledL (runC m c t h0 h1 p).2.1 S512x1.size (by sl_kernel_rfl) y
theorem scoverC_1 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).2.2.1, y ∈ pc.1.set :=
  View.cover_of_tiledL (runC m c t h0 h1 p).2.2.1 S512x1.size (by sl_kernel_rfl) y
theorem scoverC_2 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).2.2.2.1, y ∈ pc.1.set :=
  View.cover_of_tiledL (runC m c t h0 h1 p).2.2.2.1 S512x1.size (by sl_kernel_rfl) y

/-! ## What the buffers hold after each point -/

/-- A placeholder for contents nothing consults (the output block where its window is idle; "the point before" at
    the first point, where the scratch is reset before it is used). -/
abbrev noVal : Vec F S512x1 .f32 := rd VO0_4 []

/-- One point: the output block and the three scratch buffers after it, from what the point before left in the
    scratch buffers. -/
def stepAt (c : Dev nD) (t : Fin cfg0.N) (p : Vec F S512x1 .f32 × Vec F S512x1 .f32 × Vec F S512x1 .f32) : Vec F S512x1 .f32 × (Vec F S512x1 .f32 × Vec F S512x1 .f32 × Vec F S512x1 .f32) :=
  if h0 : t.val % 25 = 0 then
    if h1 : t.val % 25 = 24 then False.elim (by omega)
    else (noVal, scA m c t h0 h1)
  else
    if h1 : t.val % 25 = 24 then (outC m c t h0 h1 p, scC m c t h0 h1 p)
    else (noVal, scB m c t h0 h1 p)

/-- The recursion over the points. -/
def outsAt0 (c : Dev nD) : (n : ℕ) → n < cfg0.N → Vec F S512x1 .f32 × (Vec F S512x1 .f32 × Vec F S512x1 .f32 × Vec F S512x1 .f32)
  | 0, hn => stepAt m c ⟨0, hn⟩ (noVal, noVal, noVal)
  | n + 1, hn => stepAt m c ⟨n + 1, hn⟩ (outsAt0 c n (Nat.lt_of_succ_lt hn)).2

theorem stepAt_A (c : Dev nD) (t : Fin cfg0.N) (p : Vec F S512x1 .f32 × Vec F S512x1 .f32 × Vec F S512x1 .f32) (h0 : t.val % 25 = 0) (h1 : ¬t.val % 25 = 24) :
    stepAt m c t p = (noVal, scA m c t h0 h1) := by
  unfold stepAt; rw [dif_pos h0, dif_neg h1]
theorem stepAt_B (c : Dev nD) (t : Fin cfg0.N) (p : Vec F S512x1 .f32 × Vec F S512x1 .f32 × Vec F S512x1 .f32) (h0 : ¬t.val % 25 = 0) (h1 : ¬t.val % 25 = 24) :
    stepAt m c t p = (noVal, scB m c t h0 h1 p) := by
  unfold stepAt; rw [dif_neg h0, dif_neg h1]
theorem stepAt_C (c : Dev nD) (t : Fin cfg0.N) (p : Vec F S512x1 .f32 × Vec F S512x1 .f32 × Vec F S512x1 .f32) (h0 : ¬t.val % 25 = 0) (h1 : t.val % 25 = 24) :
    stepAt m c t p = (outC m c t h0 h1 p, scC m c t h0 h1 p) := by
  unfold stepAt; rw [dif_neg h0, dif_pos h1]

theorem outsAt0_A (c : Dev nD) (t : Fin cfg0.N) (h0 : t.val % 25 = 0) (h1 : ¬t.val % 25 = 24) :
    outsAt0 m c t.val t.isLt = (noVal, scA m c t h0 h1) := by
  obtain ⟨n, hn⟩ := t
  cases n with
  | zero => exact stepAt_A m c ⟨0, hn⟩ _ h0 h1
  | succ n => exact stepAt_A m c ⟨n + 1, hn⟩ _ h0 h1

theorem outsAt0_B (c : Dev nD) (t : Fin cfg0.N) (h0 : ¬t.val % 25 = 0) (h1 : ¬t.val % 25 = 24) :
    outsAt0 m c t.val t.isLt = (noVal, scB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact stepAt_B m c ⟨n + 1, hn⟩ _ h0 h1

theorem outsAt0_C (c : Dev nD) (t : Fin cfg0.N) (h0 : ¬t.val % 25 = 0) (h1 : t.val % 25 = 24) :
    outsAt0 m c t.val t.isLt = (outC m c t h0 h1 (outsAt0 m c (t.val - 1) (Nat.lt_of_le_of_lt (Nat.sub_le _ _) t.isLt)).2,
      scC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact stepAt_C m c ⟨n + 1, hn⟩ _ h0 h1

/-- The region's invariant before position n: before the first point the three scratch buffers at anything;
    afterwards each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body at point t each input's buffer at its block and the
    output's at the recursion's value; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; t % 25 says which case the point is in; the
    invariant hands the body the scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  by_cases h0 : t.val % 25 = 0
  · by_cases h1 : t.val % 25 = 24
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold scA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((runA m c t h0 h1).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          ·
            isplitl [HS0]
            · unfold owns; iexists _; isplitr
              swap; · iexact HS0
              ipureintro; exact View.read_writes_of_cover _ _ _ _ _ (scoverA_0 m c t _ _)
            isplitl [HS1]
            · unfold owns; iexists _; isplitr
              swap; · iexact HS1
              ipureintro; exact View.read_writes_of_cover _ _ _ _ _ (scoverA_1 m c t _ _)
            · unfold owns; iexists _; isplitr
              swap; · iexact HS2
              ipureintro; exact View.read_writes_of_cover _ _ _ _ _ (scoverA_2 m c t _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((runA m c t h0 h1).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          ·
            isplitl [HS0]
            · unfold owns; iexists _; isplitr
              swap; · iexact HS0
              ipureintro; exact View.read_writes_of_cover _ _ _ _ _ (scoverA_0 m c t _ _)
            isplitl [HS1]
            · unfold owns; iexists _; isplitr
              swap; · iexact HS1
              ipureintro; exact View.read_writes_of_cover _ _ _ _ _ (scoverA_1 m c t _ _)
            · unfold owns; iexists _; isplitr
              swap; · iexact HS2
              ipureintro; exact View.read_writes_of_cover _ _ _ _ _ (scoverA_2 m c t _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 25 = 24
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC scC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runC m c t h0 h1 _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverC_0 m c t _ _ _)
          isplitl [HS1]
          · unfold owns; iexists _; isplitr
            swap; · iexact HS1
            ipureintro; exact View.read_writes_of_cover _ _ _ _ _ (scoverC_1 m c t _ _ _)
          · unfold owns; iexists _; isplitr
            swap; · iexact HS2
            ipureintro; exact View.read_writes_of_cover _ _ _ _ _ (scoverC_2 m c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold scB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runB m c t h0 h1 _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverB_0 m c t _ _ _)
          isplitl [HS1]
          · unfold owns; iexists _; isplitr
            swap; · iexact HS1
            ipureintro; exact View.read_writes_of_cover _ _ _ _ _ (scoverB_1 m c t _ _ _)
          · unfold owns; iexists _; isplitr
            swap; · iexact HS2
            ipureintro; exact View.read_writes_of_cover _ _ _ _ _ (scoverB_2 m c t _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 400 := N_0; omega)

/-! ## The run -/

set_option backward.isDefEq.respectTransparency.types false in
/-- Every weakly fair execution of @main terminates, and every final state has each staged array at what the proof
    data computes and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Hand

end
-- ==== Proof.Shared.lean ====
/-
  The quantities both programs compute, stated once and without either program.

  For a token (b, t) and a vocabulary entry v the LOGIT is
      logit b t v = (∑ h, x[b,t,h] · w[v,h]) + bias[v].
  With M = max over v of the logits of the token and S = ∑ over v of exp (logit − M), the token's
  log-probability of its label is logit(label) − (M + log S).  A token whose label is the ignore
  index −100 contributes 0.  "tokSpecAt" is that number; the loss is a fixed function ("lossOf") of the
  array of these numbers and of the labels: the sums over each sequence, the chosen and rejected halves,
  the count of kept tokens of the chosen half, the preference term through log σ.  Both programs end
  with exactly that function, so it is named here once and never opened.
-/
import Idealize.ShloMosaic.Lib.StableHlo
import Idealize.ShloMosaic.PureOps
import Idealize.ShloMosaic.PureOps.Ideal
import Idealize.ShloMosaic.Lib.ValueIdx

noncomputable section

namespace Cert.Shared

open Idealize.ShloMosaic Idealize.ShloMosaic.ValueIdx

abbrev S8x1024 : Shape := ⟨2, ![8, 1024]⟩
abbrev S8 : Shape := ⟨1, ![8]⟩
abbrev S4 : Shape := ⟨1, ![4]⟩
abbrev S4x1024 : Shape := ⟨2, ![4, 1024]⟩
abbrev S_ : Shape := ⟨0, ![]⟩
abbrev S32000x4096 : Shape := ⟨2, ![32000, 4096]⟩
abbrev S8x1024x4096 : Shape := ⟨3, ![8, 1024, 4096]⟩
abbrev S32000 : Shape := ⟨1, ![32000]⟩

/-- The shape relations the loss's operations take; each program supplies them from its own stated facts. -/
structure TailFacts : Prop where
  bcast_S_S8x1024 : S_.BroadcastsInDim S8x1024 (![] : Fin 0 → Fin S8x1024.rank)
  reducesTo_S8x1024_S8_d1 : S8x1024.ReducesTo [1] S8
  h_S_ : 0 < S_.numel
  slices_S8_S4_0 : S8.Slices ![0] S4
  slices_S8_S4_4 : S8.Slices ![4] S4
  slices_S8x1024_S4x1024_0_0 : S8x1024.Slices ![0, 0] S4x1024
  natLt_1_32 : 1 < 32
  reducesTo_S4x1024_S_d0_1 : S4x1024.ReducesTo [0, 1] S_
  bcast_S_S4 : S_.BroadcastsInDim S4 (![] : Fin 0 → Fin S4.rank)
  reducesTo_S4_S_d0 : S4.ReducesTo [0] S_

section Loss

variable {F : FTy → Type} [FloatOps F]

/-- Which tokens are kept: the label is not the ignore index −100. -/
def keep (hf : TailFacts) (tgt : IVec S8x1024 32) : IVec S8x1024 1 :=
  cmpi .ne tgt (broadcastInDim S8x1024 ![] hf.bcast_S_S8x1024 (constantI S_ 32 4294967196#32))

/-- A per-token array with the ignored tokens zeroed: p · [label ≠ −100]. -/
def masked (hf : TailFacts) (p : FVec F S8x1024 .f32) (tgt : IVec S8x1024 32) : FVec F S8x1024 .f32 :=
  mulf p (uitofp .f32 (keep hf tgt))

/-- softplus y = max y 0 + log1p (exp (−|y|)), with the source's guard for a value that differs from itself. -/
def softplus (hf : TailFacts) (y : FVec F S4 .f32) : FVec F S4 .f32 :=
  let z : FVec F S_ .f32 := constant S_ .f32 0x00000000#32
  let v1 : FVec F S4 .f32 := maximumf y (broadcastInDim S4 ![] hf.bcast_S_S4 z)
  let v3 : FVec F S4 .f32 := subf y (broadcastInDim S4 ![] hf.bcast_S_S4 z)
  let v4 : IVec S4 1 := cmpf .une v3 v3
  let v6 : FVec F S4 .f32 := addf y (broadcastInDim S4 ![] hf.bcast_S_S4 z)
  let v11 : FVec F S4 .f32 := addf v1 (Host.log1p (Host.exp (Host.negf (Host.absf v3))))
  select v4 v6 v11

/-- log σ(d) = −softplus(−d). -/
def logSigmoid (hf : TailFacts) (d : FVec F S4 .f32) : FVec F S4 .f32 :=
  Host.negf (softplus hf (Host.negf d))

/-- The loss as a function of the masked per-token log-probabilities q and the labels: with s_b the sum of
    q over sequence b, d = 0.1 · (s_{0..3} − s_{4..7}), n the number of kept tokens of the first four sequences,
    loss = 1 · (−(∑ q over the first four sequences) / n) + (∑ (−log σ(d) · 1 − log σ(−d) · 0)) / 4. -/
def lossOf (hf : TailFacts) (q : FVec F S8x1024 .f32) (tgt : IVec S8x1024 32) : FVec F S_ .f32 :=
  let v8 : IVec S8x1024 1 := keep hf tgt
  let v11 : FVec F S8 .f32 := Host.reduceAdd q (constant S_ .f32 0x00000000#32) hf.reducesTo_S8x1024_S8_d1 hf.h_S_
  let v12 : FVec F S4 .f32 := extractStridedSlice S4 ![0] v11 hf.slices_S8_S4_0
  let v13 : FVec F S4 .f32 := extractStridedSlice S4 ![4] v11 hf.slices_S8_S4_4
  let v14 : IVec S4x1024 1 := extractStridedSlice S4x1024 ![0, 0] v8 hf.slices_S8x1024_S4x1024_0_0
  let v15 : IVec S4x1024 32 := extui 32 v14 hf.natLt_1_32
  let v16 : IVec S_ 32 := Host.reduce IntOp.addi v15 (constantI S_ 32 0#32) hf.reducesTo_S4x1024_S_d0_1 hf.h_S_
  let v17 : FVec F S_ .f32 := sitofp .f32 v16
  let v18 : FVec F S4x1024 .f32 := extractStridedSlice S4x1024 ![0, 0] q hf.slices_S8x1024_S4x1024_0_0
  let v19 : FVec F S_ .f32 := Host.reduceAdd v18 (constant S_ .f32 0x00000000#32) hf.reducesTo_S4x1024_S_d0_1 hf.h_S_
  let v21 : FVec F S_ .f32 := Host.divf (Host.negf v19) v17
  let v22 : FVec F S4 .f32 := subf v12 v13
  let v24 : FVec F S4 .f32 := mulf (broadcastInDim S4 ![] hf.bcast_S_S4 (constant S_ .f32 0x3DCCCCCD#32)) v22
  let v25 : FVec F S4 .f32 := logSigmoid hf v24
  let v28 : FVec F S4 .f32 := mulf (Host.negf v25) (broadcastInDim S4 ![] hf.bcast_S_S4 (constant S_ .f32 0x3F800000#32))
  let v30 : FVec F S4 .f32 := logSigmoid hf (Host.negf v24)
  let v32 : FVec F S4 .f32 := mulf v30 (broadcastInDim S4 ![] hf.bcast_S_S4 (constant S_ .f32 0x00000000#32))
  let v33 : FVec F S4 .f32 := subf v28 v32
  let v34 : FVec F S_ .f32 := Host.reduceAdd v33 (constant S_ .f32 0x00000000#32) hf.reducesTo_S4_S_d0 hf.h_S_
  let v35 : FVec F S_ .f32 := Host.divf v34 (constant S_ .f32 0x40800000#32)
  let v36 : FVec F S_ .f32 := mulf (constant S_ .f32 0x3F800000#32) v21
  addf v36 v35

end Loss

/-! ## One token's row of logits, its maximum, its sum of exponentials -/

/-- Every entry of an array of extended reals is a real number. -/
def AllReal {s : Shape} (a : s.Idx → EReal) : Prop := ∀ i, ∃ r : ℝ, a i = (r : EReal)

/-- logit b t v = (∑ h, x[b,t,h] · w[v,h]) + bias[v]. -/
def logit (w : FVec Ideal S32000x4096 .f32) (x : FVec Ideal S8x1024x4096 .f32) (bias : FVec Ideal S32000 .f32)
    (b : Fin 8) (t : Fin 1024) (v : Fin 32000) : EReal :=
  (∑ h : Fin 4096, x (ix3 b t h) * w (ix2 v h)) + bias (ix1 v)

/-- The maximum of a row (−∞ joined in, which changes nothing for a row of reals). -/
def rowMax (ℓ : Fin 32000 → EReal) : EReal := Finset.univ.sup ℓ

/-- ∑ v, exp (ℓ v − max ℓ). -/
def rowSum (ℓ : Fin 32000 → EReal) : EReal := ∑ v : Fin 32000, Ideal.exp (ℓ v - rowMax ℓ)

/-- max ℓ + log ∑ v, exp (ℓ v − max ℓ): the log of the sum of the exponentials of the row. -/
def rowLse (ℓ : Fin 32000 → EReal) : EReal := rowMax ℓ + Ideal.log (rowSum ℓ)

/-- The masked log-probability of token (b, t): 0 for the ignore index; otherwise the logit at the label
    (0 if the label is no vocabulary entry, which the precondition excludes) less the row's log-sum-exp. -/
def tokSpecAt (w : FVec Ideal S32000x4096 .f32) (x : FVec Ideal S8x1024x4096 .f32) (bias : FVec Ideal S32000 .f32)
    (tgt : IVec S8x1024 32) (b : Fin 8) (t : Fin 1024) : EReal :=
  if tgt (ix2 b t) = 4294967196#32 then 0
  else (if h : (tgt (ix2 b t)).toNat < 32000 then logit w x bias b t ⟨(tgt (ix2 b t)).toNat, h⟩ else 0)
        - rowLse (logit w x bias b t)

/-- The array of the masked log-probabilities. -/
def tokSpec (w : FVec Ideal S32000x4096 .f32) (x : FVec Ideal S8x1024x4096 .f32) (bias : FVec Ideal S32000 .f32)
    (tgt : IVec S8x1024 32) : FVec Ideal S8x1024 .f32 :=
  fun i => tokSpecAt w x bias tgt (i 0) (i 1)

/-- Labels in their range: the ignore index −100, or a vocabulary entry. -/
def LabelsOk (tgt : IVec S8x1024 32) : Prop := ∀ i, tgt i = 4294967196#32 ∨ (tgt i).toNat < 32000

end Cert.Shared

end
-- ==== Proof.LibTypedRef.lean ====
/-
  Typed references: contents carried to a typed reference's buffer and read back at the value's type are the
  contents. The two transports are casts along one equation of buffer types and its inverse, so they cancel for any
  typed reference, whatever the equation's proof. Simplifying with this lemma removes every such pair from the
  composed term of a called function's operations without opening a single cast.
-/
import Idealize.ShloMosaic.Lib.StableHlo

namespace Idealize.ShloMosaic.StableHlo.TRef

/-- Contents carried to a typed reference's buffer and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents read off a typed reference's buffer and carried back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Idealize.ShloMosaic.StableHlo.TRef
-- ==== Proof.HandKernel.ReadOut.lean ====
/-
  What the run's final state says of the argument arrays and of the result buffer.

  No operation of @main writes an argument array, so each ends as it began.  The result buffer holds the loss of the
  per-token array obtained from the region's output array (8192 × 1, read as 8 × 1024) zeroed at the ignored tokens:
  the operations after the region are exactly the loss's operations applied to it and to the labels.
-/
import proofs.«403262_j18391049961623_3_alg».proof.Proof.HandKernel.Frame
import proofs.«403262_j18391049961623_3_alg».proof.Proof.Shared
import proofs.«403262_j18391049961623_3_alg».proof.Proof.LibTypedRef
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loss's shape relations, from the program's stated facts. -/
theorem tailFacts : Cert.Shared.TailFacts :=
  ⟨Facts₀.bcast_S_S8x1024, Facts₀.reducesTo_S8x1024_S8_d1, Facts₀.h_S_, Facts₀.slices_S8_S4_0, Facts₀.slices_S8_S4_4,
    Facts₀.slices_S8x1024_S4x1024_0_0, Facts₀.natLt_1_32, Facts₀.reducesTo_S4x1024_S_d0_1, Facts₀.bcast_S_S4, Facts₀.reducesTo_S4_S_d0⟩

/-- The region's output array after the run. -/
abbrev kout (c : Dev nD) : FVec F S8192x1 .f32 := (dats m 0 c).arrAt 4 cfg0.N

/-! ## The argument arrays are never written -/

/-- A reference is one of @main's four argument arrays. -/
def IsArg (r : Ref sig .tc) : Prop := r = main_arg0 ∨ r = main_arg1 ∨ r = main_arg2 ∨ r = main_arg3

/-- Every operation of a literal stretch writes its own result buffer only, and that buffer is not the given array. -/
local macro "result_buffers_differ" stretch:ident : tactic =>
  `(tactic| (
    simp only [$stretch:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem arg_unwritten0 (r : Ref sig .tc) (hr : IsArg r) : ∀ op ∈ (hostOps0 : List (HloOp τ sig (Elt F))), Proc.devRef .tc r ∉ op.writes := by
  refine List.forall_iff_forall_mem.mp ?_
  rcases hr with rfl | rfl | rfl | rfl <;> result_buffers_differ hostOps0
theorem arg_unwritten1 (r : Ref sig .tc) (hr : IsArg r) : ∀ op ∈ (hostOps1 : List (HloOp τ sig (Elt F))), Proc.devRef .tc r ∉ op.writes := by
  refine List.forall_iff_forall_mem.mp ?_
  rcases hr with rfl | rfl | rfl | rfl <;> result_buffers_differ hostOps1
theorem arg_unwritten1_1 (r : Ref sig .tc) (hr : IsArg r) : ∀ op ∈ (hostOps1_1 : List (HloOp τ sig (Elt F))), Proc.devRef .tc r ∉ op.writes := by
  refine List.forall_iff_forall_mem.mp ?_
  rcases hr with rfl | rfl | rfl | rfl <;> result_buffers_differ hostOps1_1
theorem arg_unwritten1_2 (r : Ref sig .tc) (hr : IsArg r) : ∀ op ∈ (hostOps1_2 : List (HloOp τ sig (Elt F))), Proc.devRef .tc r ∉ op.writes := by
  refine List.forall_iff_forall_mem.mp ?_
  rcases hr with rfl | rfl | rfl | rfl <;> result_buffers_differ hostOps1_2
theorem arg_unwritten1_3 (r : Ref sig .tc) (hr : IsArg r) : ∀ op ∈ (hostOps1_3 : List (HloOp τ sig (Elt F))), Proc.devRef .tc r ∉ op.writes := by
  refine List.forall_iff_forall_mem.mp ?_
  rcases hr with rfl | rfl | rfl | rfl <;> result_buffers_differ hostOps1_3
theorem arg_unwritten1_4 (r : Ref sig .tc) (hr : IsArg r) : ∀ op ∈ (hostOps1_4 : List (HloOp τ sig (Elt F))), Proc.devRef .tc r ∉ op.writes := by
  refine List.forall_iff_forall_mem.mp ?_
  rcases hr with rfl | rfl | rfl | rfl <;> result_buffers_differ hostOps1_4

/-- No operation after the region writes an argument array. -/
theorem arg_unwritten_tail (r : Ref sig .tc) (hr : IsArg r) :
    ∀ op ∈ (tailOps : List (List (HloOp τ sig (Elt F)))).flatten, Proc.devRef .tc r ∉ op.writes := by
  intro op hop
  obtain ⟨ops, hops, hmem⟩ := List.mem_flatten.mp hop
  simp only [tailOps, List.mem_cons, List.mem_nil_iff, or_false] at hops
  rcases hops with rfl | rfl | rfl | rfl | rfl
  · exact arg_unwritten1 r hr op hmem
  · exact arg_unwritten1_1 r hr op hmem
  · exact arg_unwritten1_2 r hr op hmem
  · exact arg_unwritten1_3 r hr op hmem
  · exact arg_unwritten1_4 r hr op hmem

/-- An argument array is no array the region stages, and it bypasses the region. -/
theorem arg_ne_arr (r : Ref sig .tc) (hr : IsArg r) : ∀ w, Pipeline.arrRef spec0 w ≠ r := by
  rcases hr with rfl | rfl | rfl | rfl <;> decide
theorem arg_mem_rest (r : Ref sig .tc) (hr : IsArg r) : r ∈ Pipeline.restRefs sig (cfgs 0).spec := by
  rcases hr with rfl | rfl | rfl | rfl <;> exact Pipeline.mem_restRefs_of _ (by decide) (by decide)

/-- The region finds an argument array as launched: none of the five operations before it writes one. -/
theorem V_arg (r : Ref sig .tc) (hr : IsArg r) (c : Dev nD) : V m c r = m ((c : Thread nD τ).loc r) :=
  StableHlo.after_of_forall_not_mem (b := Proc.devRef .tc r) _ _ (fun op hop => arg_unwritten0 r hr op (by
    simpa only [List.flatten_cons, List.flatten_nil, List.append_nil] using hop))

/-- After the later operations an argument array still holds its launch contents. -/
theorem W_arg (r : Ref sig .tc) (hr : IsArg r) (c : Dev nD) :
    Pipeline.afterTail₀ cfgs (dats m) 0 (V0 m) tailOps c r = m ((c : Thread nD τ).loc r) := by
  unfold Pipeline.afterTail₀
  rw [StableHlo.after_of_forall_not_mem (b := Proc.devRef .tc r) _ _ (arg_unwritten_tail r hr),
    Pipeline.withArrays_of_ne _ c (V0 m c) _ r (arg_ne_arr r hr)]
  exact V_arg m r hr c

/-- What the run's post says of an argument array. -/
theorem arg_kept (r : Ref sig .tc) (hr : IsArg r) (c : Dev nD) (mem : (ℓ : Loc nD τ sig) → Buf (Elt F) ℓ)
    (h : ∀ b ∈ Pipeline.restRefs sig (cfgs 0).spec,
      mem ((c.tc : Thread nD τ).loc b) = Pipeline.afterTail₀ cfgs (dats m) 0 (V0 m) tailOps c b) :
    mem ((c.tc : Thread nD τ).loc r) = m ((c.tc : Thread nD τ).loc r) :=
  (h r (arg_mem_rest r hr)).trans (W_arg m r hr c)

/-- The frame: @main runs to the end without a fault and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨arg_kept m _ (.inl rfl) c r.2.mem (h c).2, arg_kept m _ (.inr (.inl rfl)) c r.2.mem (h c).2,
      arg_kept m _ (.inr (.inr (.inl rfl))) c r.2.mem (h c).2, arg_kept m _ (.inr (.inr (.inr rfl))) c r.2.mem (h c).2⟩) (run_main m ρ)

/-! ## The result buffer -/

/-- The operations after the region, from any contents W of the buffers: the result buffer ends at the loss of the
    region's output array (read as 8 × 1024 and zeroed at the ignored tokens) and of the labels.  The 72 operations
    are the loss's own operations in the same order, the two calls of the log-sigmoid function written out. -/
theorem tail_result (W : Valuation τ sig (Elt F)) :
    StableHlo.after (tailOps : List (List (HloOp τ sig (Elt F)))).flatten W (Proc.devRef .tc main_v37)
      = Cert.Shared.lossOf tailFacts
          (Cert.Shared.masked tailFacts (shapeCast S8x1024 (W (Proc.devRef .tc main_v5)) Facts₀.shapeCasts_S8192x1_S8x1024) (W (Proc.devRef .tc main_arg2)))
          (W (Proc.devRef .tc main_arg2)) := by
  simp only [tailOps, hostOps1, hostOps1_1, hostOps1_2, hostOps1_3, hostOps1_4, List.flatten_cons, List.flatten_nil,
    List.append_nil, List.cons_append, List.nil_append]
  after_results_simp
  simp only [StableHlo.TRef.ofBuf_toBuf, StableHlo.TRef.toBuf_ofBuf]
  unfold Cert.Shared.lossOf Cert.Shared.masked Cert.Shared.keep Cert.Shared.logSigmoid Cert.Shared.softplus
  rfl

/-- The buffers' contents when the region is left: the staged arrays at what the proof data computes, every other
    buffer as the region found it. -/
abbrev Wexit (c : Dev nD) : Valuation τ sig (Elt F) :=
  Pipeline.withArrays (cfgs 0).spec c (V0 m c) fun w => (dats m 0 c).arrAt w (cfgs 0).N

/-- The region's output array is the fifth staged array. -/
theorem Wexit_v5 (c : Dev nD) : Wexit m c (Proc.devRef .tc main_v5) = kout m c :=
  Pipeline.withArrays_arr spec0 launch0.win.arr_inj c (V0 m c) (fun w => (dats m 0 c).arrAt w (cfgs 0).N) 4

/-- The labels are no staged array and are written by no operation before the region. -/
theorem Wexit_arg2 (c : Dev nD) : Wexit m c (Proc.devRef .tc main_arg2) = m ((c : Thread nD τ).loc main_arg2) :=
  (Pipeline.withArrays_of_ne _ c (V0 m c) _ main_arg2 (arg_ne_arr main_arg2 (.inr (.inr (.inl rfl))))).trans
    (V_arg m main_arg2 (.inr (.inr (.inl rfl))) c)

/-- The result buffer after the later operations: the loss of the masked per-token array read off the region's output. -/
theorem result_eq (c : Dev nD) :
    Pipeline.afterTail₀ cfgs (dats m) 0 (V0 m) tailOps c main_v37
      = Cert.Shared.lossOf tailFacts
          (Cert.Shared.masked tailFacts (shapeCast S8x1024 (kout m c) Facts₀.shapeCasts_S8192x1_S8x1024) (m ((c.tc : Thread nD τ).loc main_arg2)))
          (m ((c.tc : Thread nD τ).loc main_arg2)) := by
  show StableHlo.after (tailOps : List (List (HloOp τ sig (Elt F)))).flatten (Wexit m c) (Proc.devRef .tc main_v37) = _
  rw [tail_result (Wexit m c), Wexit_v5 m c, Wexit_arg2 m c]

/-- The result buffer bypasses the region. -/
theorem result_mem_rest : main_v37 ∈ Pipeline.restRefs sig (cfgs 0).spec :=
  Pipeline.mem_restRefs_of main_v37 (by decide) (by decide)

/-- The run with its result named: the loss of the masked per-token array read off the region's output. -/
theorem run_value : θ_run defs (onTc (τ := τ) (main (F := F))) ⟨m, fun _ => 0, ρ⟩ (fun r => ∀ c : Dev nD,
      r.2.mem ((c.tc : Thread nD τ).loc main_v37)
          = Cert.Shared.lossOf tailFacts
              (Cert.Shared.masked tailFacts (shapeCast S8x1024 (kout m c) Facts₀.shapeCasts_S8192x1_S8x1024) (m ((c.tc : Thread nD τ).loc main_arg2)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v37 result_mem_rest).trans (result_eq m c),
      arg_kept m _ (.inl rfl) c r.2.mem (h c).2, arg_kept m _ (.inr (.inl rfl)) c r.2.mem (h c).2,
      arg_kept m _ (.inr (.inr (.inl rfl))) c r.2.mem (h c).2, arg_kept m _ (.inr (.inr (.inr rfl))) c r.2.mem (h c).2⟩) (run_main m ρ)

end Cert.Kernel.Hand

end
-- ==== Proof.HandKernelIdeal.Runs.lean ====
/-
  What the three cases of the row-scan kernel's body share, and @main around the region.

  The grid is 16 row tiles × 25 vocabulary tiles, the vocabulary axis innermost: point t is row tile t / 25 and
  vocabulary tile t % 25.  The body resets its three running quantities (maximum, rescaled sum of exponentials,
  sum of the entry at the label) exactly at the points t % 25 = 0 and writes the output block exactly at the points
  t % 25 = 24; at every other point the output window is idle and is not written back.  Before the region @main
  reshapes and narrows its arguments (five operations); after it come the loss's operations in five stretches, none
  of which writes an array the region stages.
-/
import proofs.«403262_j18391049961623_3_alg».proof.Proof.Gen.KernelIdeal.Launch
import proofs.«403262_j18391049961623_3_alg».proof.Proof.Gen.KernelIdeal.Skeleton
import proofs.«403262_j18391049961623_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the memory after the five operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The stretches of host operations after the region. -/
abbrev tailOps : List (List (HloOp τ sig (Elt F))) := [hostOps1, hostOps1_1, hostOps1_2, hostOps1_3, hostOps1_4]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- @main is the operations before the region, the region, and the operations after it: it reduces to the region
    continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- No operation of a stretch writes an array the region stages: each writes only its own result buffer. -/
theorem keeps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)
theorem keeps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl
  · exact keeps1 op hop
  · exact keeps1_1 op hop
  · exact keeps1_2 op hop
  · exact keeps1_3 op hop
  · exact keeps1_4 op hop

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, over the grid -/

/-- The reset's condition: the vocabulary coordinate is 0. -/
abbrev cond0_0 (i : grid0.Coords) : Prop := (Scalar.cmpi .ne (Scalar.extui (Scalar.cmpi .eq (BitVec.ofNat 32 (i 1).val) 0#32)) 0#32) = 1#1
/-- It holds exactly at the points t with t % 25 = 0. -/
theorem hcond0_0 : ∀ t : Fin cfg0.N, cond0_0 (grid0.coords t) ↔ t.val % 25 = 0 :=
  (by decide +kernel : ∀ t : Fin grid0.N, cond0_0 (grid0.coords t) ↔ t.val % 25 = 0)

/-- The output store's condition: the vocabulary coordinate is 24. -/
abbrev cond0_1 (i : grid0.Coords) : Prop := k0_cond2 i = 1#1
/-- It holds exactly at the points t with t % 25 = 24. -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the output is not stored the output window is idle, -/
theorem idleAt0_4 : ∀ t : Fin cfg0.N, ¬cond0_1 (grid0.coords t) → cfg0.idle 4 (grid0.coords t) = true := by decide +kernel
/-- and is not written back; -/
theorem noFlush0_4 : ∀ t : Fin cfg0.N, ¬cond0_1 (grid0.coords t) → (cfg0.win 4).flush t = false := by decide +kernel
/-- where it is stored the window is live. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S512x1 .f32 := (Memref.whole cc0_stg4_0 : Memref sig .tc .vmem S512x1 .f32).view
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The three scratch operands: the running maximum, the running sum, the running entry at the label. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev VS0_0 : View sig .tc .vmem S512x1 .f32 := scM0_0.view
abbrev VS0_1 : View sig .tc .vmem S512x1 .f32 := scM0_1.view
abbrev VS0_2 : View sig .tc .vmem S512x1 .f32 := scM0_2.view

/-- What the launch hands the region and takes back: the three scratch buffers at some contents and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.HandKernelIdeal.RunA.lean ====
/-
  The body at a point that starts a row tile's sweep (vocabulary tile 0): the three running quantities are reset
  (−∞, 0, 0) and then updated with the first tile; nothing is stored into the output block, which is handed back as
  it was found.  What each scratch buffer ends with is found as the list of the pieces stored into it.
-/
import proofs.«403262_j18391049961623_3_alg».proof.Proof.HandKernelIdeal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A (reset taken, output store not taken): on whole memrefs, the inputs at their blocks, the output block at
    any contents (handed back untouched), the three scratch buffers at anything, the body runs and leaves the inputs
    as they were and each scratch buffer with the pieces written that the run finds. -/
noncomputable def kernelRun0_A (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S1x1280 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i)
    (x0 : Vec F S512x4096 .bf16) (x1 : Vec F S1280x4096 .bf16) (x2 : Vec F S1x1280 .f32) (x3 : Vec F S512x1 .i32) :
    Σ' (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__cpo_rowscan_kernel i arg2 harg2 arg3 harg3 arg4 harg4 arg5 harg5 arg6 harg6 arg7 harg7 arg8 harg8 arg9 harg9) K } := by
  refine ⟨?_, ?_, ?_, fun xi4 E K => ?run⟩
  case run =>
    simp only [cc0__cpo_rowscan_kernel_eq_skeleton]; unfold cc0__cpo_rowscan_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.HandKernelIdeal.RunB.lean ====
/-
  The body at a point in the middle of a row tile's sweep (vocabulary tile 1 to 23): the three running quantities,
  found as the point before left them, are updated with the tile; nothing is stored into the output block, which is
  handed back as it was found.
-/
import proofs.«403262_j18391049961623_3_alg».proof.Proof.HandKernelIdeal.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B (neither branch taken): on whole memrefs, the inputs at their blocks, the output block at any contents
    (handed back untouched), the three scratch buffers at the contents the point before left, the body runs and leaves
    the inputs as they were and each scratch buffer with the pieces written that the run finds. -/
noncomputable def kernelRun0_B (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S1x1280 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i)
    (x0 : Vec F S512x4096 .bf16) (x1 : Vec F S1280x4096 .bf16) (x2 : Vec F S1x1280 .f32) (x3 : Vec F S512x1 .i32) (xs0 xs1 xs2 : Vec F S512x1 .f32) :
    Σ' (LS0 : List (View.Piece (Elt F) S512x1 .f32)) (LS1 : List (View.Piece (Elt F) S512x1 .f32)), { LS2 : List (View.Piece (Elt F) S512x1 .f32) //
      ∀ (xi4 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__cpo_rowscan_kernel i arg2 harg2 arg3 harg3 arg4 harg4 arg5 harg5 arg6 harg6 arg7 harg7 arg8 harg8 arg9 harg9) K } := by
  refine ⟨?_, ?_, ?_, fun xi4 E K => ?run⟩
  case run =>
    simp only [cc0__cpo_rowscan_kernel_eq_skeleton]; unfold cc0__cpo_rowscan_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.HandKernelIdeal.RunC.lean ====
/-
  The body at the point that ends a row tile's sweep (vocabulary tile 24): the three running quantities, found as
  the point before left them, are updated with the last tile, and the output block is stored: the entry at the label
  less (maximum + log of the sum).
-/
import proofs.«403262_j18391049961623_3_alg».proof.Proof.HandKernelIdeal.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C (reset not taken, output store taken): on whole memrefs, the inputs at their blocks, the output block at
    anything, the three scratch buffers at the contents the point before left, the body runs and leaves the inputs as
    they were, and the output block and each scratch buffer with the pieces written that the run finds. -/
noncomputable def kernelRun0_C (c : Dev nD) (i : grid0.Coords) (arg2 : Memref sig .tc .vmem S512x4096 .bf16) (harg2 : arg2.IsWhole) (arg3 : Memref sig .tc .vmem S1280x4096 .bf16) (harg3 : arg3.IsWhole) (arg4 : Memref sig .tc .vmem S1x1280 .f32) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i)
    (x0 : Vec F S512x4096 .bf16) (x1 : Vec F S1280x4096 .bf16) (x2 : Vec F S1x1280 .f32) (x3 : Vec F S512x1 .i32) (xs0 xs1 xs2 : Vec F S512x1 .f32) :
    Σ' (L4 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__cpo_rowscan_kernel i arg2 harg2 arg3 harg3 arg4 harg4 arg5 harg5 arg6 harg6 arg7 harg7 arg8 harg8 arg9 harg9) K } := by
  refine ⟨?_, ?_, ?_, ?_, fun E K => ?run⟩
  case run =>
    simp only [cc0__cpo_rowscan_kernel_eq_skeleton]; unfold cc0__cpo_rowscan_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.HandKernelIdeal.Frame.lean ====
/-
  What the output block and the three scratch buffers hold after each grid point, the proof data of the region,
  the body's obligation at every point, and the run of @main.

  After point t the scratch buffers hold the running maximum, the running rescaled sum of exponentials and the running
  entry at the label of the row tile t / 25 over its vocabulary tiles 0 … t % 25: at t % 25 = 0 they are computed from
  the reset values, otherwise from what point t − 1 left.  The output block is stored at the points t % 25 = 24 only;
  elsewhere its window is idle and is not written back, so what its buffer holds there is never consulted.
-/
import proofs.«403262_j18391049961623_3_alg».proof.Proof.HandKernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a grid point -/

abbrev runA (c : Dev nD) (t : Fin cfg0.N) (h0 : t.val % 25 = 0) (h1 : ¬t.val % 25 = 24) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)
abbrev runB (c : Dev nD) (t : Fin cfg0.N) (h0 : ¬t.val % 25 = 0) (h1 : ¬t.val % 25 = 24) (p : Vec F S512x1 .f32 × Vec F S512x1 .f32 × Vec F S512x1 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) p.1 p.2.1 p.2.2
abbrev runC (c : Dev nD) (t : Fin cfg0.N) (h0 : ¬t.val % 25 = 0) (h1 : t.val % 25 = 24) (p : Vec F S512x1 .f32 × Vec F S512x1 .f32 × Vec F S512x1 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) p.1 p.2.1 p.2.2

/-- A list of stored pieces read back through a view, over contents that do not matter once the pieces cover it. -/
abbrev rd (v : View sig .tc .vmem S512x1 .f32) (L : List (View.Piece (Elt F) S512x1 .f32)) : Vec F S512x1 .f32 :=
  v.read (Elt F) (v.writes (Elt F) v.junk L)

/-- What case A leaves in the three scratch buffers. -/
def scA (c : Dev nD) (t : Fin cfg0.N) (h0 : t.val % 25 = 0) (h1 : ¬t.val % 25 = 24) : Vec F S512x1 .f32 × Vec F S512x1 .f32 × Vec F S512x1 .f32 :=
  (rd VS0_0 (runA m c t h0 h1).1, rd VS0_1 (runA m c t h0 h1).2.1, rd VS0_2 (runA m c t h0 h1).2.2.1)
/-- What case B leaves in them, over what the point before left (p). -/
def scB (c : Dev nD) (t : Fin cfg0.N) (h0 : ¬t.val % 25 = 0) (h1 : ¬t.val % 25 = 24) (p : Vec F S512x1 .f32 × Vec F S512x1 .f32 × Vec F S512x1 .f32) : Vec F S512x1 .f32 × Vec F S512x1 .f32 × Vec F S512x1 .f32 :=
  (rd VS0_0 (runB m c t h0 h1 p).1, rd VS0_1 (runB m c t h0 h1 p).2.1, rd VS0_2 (runB m c t h0 h1 p).2.2.1)
/-- What case C leaves in them, -/
def scC (c : Dev nD) (t : Fin cfg0.N) (h0 : ¬t.val % 25 = 0) (h1 : t.val % 25 = 24) (p : Vec F S512x1 .f32 × Vec F S512x1 .f32 × Vec F S512x1 .f32) : Vec F S512x1 .f32 × Vec F S512x1 .f32 × Vec F S512x1 .f32 :=
  (rd VS0_0 (runC m c t h0 h1 p).2.1, rd VS0_1 (runC m c t h0 h1 p).2.2.1, rd VS0_2 (runC m c t h0 h1 p).2.2.2.1)
/-- and in the output block. -/
def outC (c : Dev nD) (t : Fin cfg0.N) (h0 : ¬t.val % 25 = 0) (h1 : t.val % 25 = 24) (p : Vec F S512x1 .f32 × Vec F S512x1 .f32 × Vec F S512x1 .f32) : Vec F S512x1 .f32 :=
  rd VO0_4 (runC m c t h0 h1 p).1

/-- Each case stores every scratch buffer whole, so its pieces cover the buffer. -/
theorem scoverA_0 (c : Dev nD) (t : Fin cfg0.N) (h0 : t.val % 25 = 0) (h1 : ¬t.val % 25 = 24) (y : S512x1.Idx) : ∃ pc ∈ (runA m c t h0 h1).1, y ∈ pc.1.set :=
  View.cover_of_tiledL (runA m c t h0 h1).1 S512x1.size (by sl_kernel_rfl) y
theorem scoverA_1 (c : Dev nD) (t : Fin cfg0.N) (h0 : t.val % 25 = 0) (h1 : ¬t.val % 25 = 24) (y : S512x1.Idx) : ∃ pc ∈ (runA m c t h0 h1).2.1, y ∈ pc.1.set :=
  View.cover_of_tiledL (runA m c t h0 h1).2.1 S512x1.size (by sl_kernel_rfl) y
theorem scoverA_2 (c : Dev nD) (t : Fin cfg0.N) (h0 : t.val % 25 = 0) (h1 : ¬t.val % 25 = 24) (y : S512x1.Idx) : ∃ pc ∈ (runA m c t h0 h1).2.2.1, y ∈ pc.1.set :=
  View.cover_of_tiledL (runA m c t h0 h1).2.2.1 S512x1.size (by sl_kernel_rfl) y
theorem scoverB_0 (c : Dev nD) (t : Fin cfg0.N) (h0 : ¬t.val % 25 = 0) (h1 : ¬t.val % 25 = 24) (p : Vec F S512x1 .f32 × Vec F S512x1 .f32 × Vec F S512x1 .f32) (y : S512x1.Idx) : ∃ pc ∈ (runB m c t h0 h1 p).1, y ∈ pc.1.set :=
  View.cover_of_tiledL (runB m c t h0 h1 p).1 S512x1.size (by sl_kernel_rfl) y
theorem scoverB_1 (c : Dev nD) (t : Fin cfg0.N) (h0 : ¬t.val % 25 = 0) (h1 : ¬t.val % 25 = 24) (p : Vec F S512x1 .f32 × Vec F S512x1 .f32 × Vec F S512x1 .f32) (y : S512x1.Idx) : ∃ pc ∈ (runB m c t h0 h1 p).2.1, y ∈ pc.1.set :=
  View.cover_of_tiledL (runB m c t h0 h1 p).2.1 S512x1.size (by sl_kernel_rfl) y
theorem scoverB_2 (c : Dev nD) (t : Fin cfg0.N) (h0 : ¬t.val % 25 = 0) (h1 : ¬t.val % 25 = 24) (p : Vec F S512x1 .f32 × Vec F S512x1 .f32 × Vec F S512x1 .f32) (y : S512x1.Idx) : ∃ pc ∈ (runB m c t h0 h1 p).2.2.1, y ∈ pc.1.set :=
  View.cover_of_tiledL (runB m c t h0 h1 p).2.2.1 S512x1.size (by sl_kernel_rfl) y
theorem coverC_4 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).1, y ∈ pc.1.set :=
  View.cover_of_tiledL (runC m c t h0 h1 p).1 S512x1.size (by sl_kernel_rfl) y
theorem scoverC_0 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).2.1, y ∈ pc.1.set :=
  View.cover_of_tiledL (runC m c t h0 h1 p).2.1 S512x1.size (by sl_kernel_rfl) y
theorem scoverC_1 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).2.2.1, y ∈ pc.1.set :=
  View.cover_of_tiledL (runC m c t h0 h1 p).2.2.1 S512x1.size (by sl_kernel_rfl) y
theorem scoverC_2 (c : Dev nD) (t : Fin cfg0.N) (h0 : ¬t.val % 25 = 0) (h1 : t.val % 25 = 24) (p : Vec F S512x1 .f32 × Vec F S512x1 .f32 × Vec F S512x1 .f32) (y : S512x1.Idx) : ∃ pc ∈ (runC m c t h0 h1 p).2.2.2.1, y ∈ pc.1.set :=
  View.cover_of_tiledL (runC m c t h0 h1 p).2.2.2.1 S512x1.size (by sl_kernel_rfl) y

/-! ## What the buffers hold after each point -/

/-- A placeholder for contents nothing consults (the output block where its window is idle; "the point before" at
    the first point, where the scratch is reset before it is used). -/
abbrev noVal : Vec F S512x1 .f32 := rd VO0_4 []

/-- One point: the output block and the three scratch buffers after it, from what the point before left in the
    scratch buffers. -/
def stepAt (c : Dev nD) (t : Fin cfg0.N) (p : Vec F S512x1 .f32 × Vec F S512x1 .f32 × Vec F S512x1 .f32) : Vec F S512x1 .f32 × (Vec F S512x1 .f32 × Vec F S512x1 .f32 × Vec F S512x1 .f32) :=
  if h0 : t.val % 25 = 0 then
    if h1 : t.val % 25 = 24 then False.elim (by omega)
    else (noVal, scA m c t h0 h1)
  else
    if h1 : t.val % 25 = 24 then (outC m c t h0 h1 p, scC m c t h0 h1 p)
    else (noVal, scB m c t h0 h1 p)

/-- The recursion over the points. -/
def outsAt0 (c : Dev nD) : (n : ℕ) → n < cfg0.N → Vec F S512x1 .f32 × (Vec F S512x1 .f32 × Vec F S512x1 .f32 × Vec F S512x1 .f32)
  | 0, hn => stepAt m c ⟨0, hn⟩ (noVal, noVal, noVal)
  | n + 1, hn => stepAt m c ⟨n + 1, hn⟩ (outsAt0 c n (Nat.lt_of_succ_lt hn)).2

theorem stepAt_A (c : Dev nD) (t : Fin cfg0.N) (p : Vec F S512x1 .f32 × Vec F S512x1 .f32 × Vec F S512x1 .f32) (h0 : t.val % 25 = 0) (h1 : ¬t.val % 25 = 24) :
    stepAt m c t p = (noVal, scA m c t h0 h1) := by
  unfold stepAt; rw [dif_pos h0, dif_neg h1]
theorem stepAt_B (c : Dev nD) (t : Fin cfg0.N) (p : Vec F S512x1 .f32 × Vec F S512x1 .f32 × Vec F S512x1 .f32) (h0 : ¬t.val % 25 = 0) (h1 : ¬t.val % 25 = 24) :
    stepAt m c t p = (noVal, scB m c t h0 h1 p) := by
  unfold stepAt; rw [dif_neg h0, dif_neg h1]
theorem stepAt_C (c : Dev nD) (t : Fin cfg0.N) (p : Vec F S512x1 .f32 × Vec F S512x1 .f32 × Vec F S512x1 .f32) (h0 : ¬t.val % 25 = 0) (h1 : t.val % 25 = 24) :
    stepAt m c t p = (outC m c t h0 h1 p, scC m c t h0 h1 p) := by
  unfold stepAt; rw [dif_neg h0, dif_pos h1]

theorem outsAt0_A (c : Dev nD) (t : Fin cfg0.N) (h0 : t.val % 25 = 0) (h1 : ¬t.val % 25 = 24) :
    outsAt0 m c t.val t.isLt = (noVal, scA m c t h0 h1) := by
  obtain ⟨n, hn⟩ := t
  cases n with
  | zero => exact stepAt_A m c ⟨0, hn⟩ _ h0 h1
  | succ n => exact stepAt_A m c ⟨n + 1, hn⟩ _ h0 h1

theorem outsAt0_B (c : Dev nD) (t : Fin cfg0.N) (h0 : ¬t.val % 25 = 0) (h1 : ¬t.val % 25 = 24) :
    outsAt0 m c t.val t.isLt = (noVal, scB m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact stepAt_B m c ⟨n + 1, hn⟩ _ h0 h1

theorem outsAt0_C (c : Dev nD) (t : Fin cfg0.N) (h0 : ¬t.val % 25 = 0) (h1 : t.val % 25 = 24) :
    outsAt0 m c t.val t.isLt = (outC m c t h0 h1 (outsAt0 m c (t.val - 1) (Nat.lt_of_le_of_lt (Nat.sub_le _ _) t.isLt)).2,
      scC m c t h0 h1 (outsAt0 m c (t.val - 1) (Nat.lt_of_le_of_lt (Nat.sub_le _ _) t.isLt)).2) := by
  obtain ⟨n, hn⟩ := t
  cases n with
  | zero => exact absurd (Nat.zero_mod _) h0
  | succ n => exact stepAt_C m c ⟨n + 1, hn⟩ _ h0 h1

/-- The region's invariant before position n: before the first point the three scratch buffers at anything;
    afterwards each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The arrays as the region finds them; after the body at point t each input's buffer at its block and the
    output's at the recursion's value; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' buffers hold their blocks; t % 25 says which case the point is in; the
    invariant hands the body the scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  by_cases h0 : t.val % 25 = 0
  · by_cases h1 : t.val % 25 = 24
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold scA; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((runA m c t h0 h1).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          ·
            isplitl [HS0]
            · unfold owns; iexists _; isplitr
              swap; · iexact HS0
              ipureintro; exact View.read_writes_of_cover _ _ _ _ _ (scoverA_0 m c t _ _)
            isplitl [HS1]
            · unfold owns; iexists _; isplitr
              swap; · iexact HS1
              ipureintro; exact View.read_writes_of_cover _ _ _ _ _ (scoverA_1 m c t _ _)
            · unfold owns; iexists _; isplitr
              swap; · iexact HS2
              ipureintro; exact View.read_writes_of_cover _ _ _ _ _ (scoverA_2 m c t _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((runA m c t h0 h1).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          ·
            isplitl [HS0]
            · unfold owns; iexists _; isplitr
              swap; · iexact HS0
              ipureintro; exact View.read_writes_of_cover _ _ _ _ _ (scoverA_0 m c t _ _)
            isplitl [HS1]
            · unfold owns; iexists _; isplitr
              swap; · iexact HS1
              ipureintro; exact View.read_writes_of_cover _ _ _ _ _ (scoverA_1 m c t _ _)
            · unfold owns; iexists _; isplitr
              swap; · iexact HS2
              ipureintro; exact View.read_writes_of_cover _ _ _ _ _ (scoverA_2 m c t _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun h => h0 (by rw [h])
    by_cases h1 : t.val % 25 = 24
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold outC scC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runC m c t h0 h1 _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverC_0 m c t _ _ _)
          isplitl [HS1]
          · unfold owns; iexists _; isplitr
            swap; · iexact HS1
            ipureintro; exact View.read_writes_of_cover _ _ _ _ _ (scoverC_1 m c t _ _ _)
          · unfold owns; iexists _; isplitr
            swap; · iexact HS2
            ipureintro; exact View.read_writes_of_cover _ _ _ _ _ (scoverC_2 m c t _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC_4 m c t _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold scB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((runB m c t h0 h1 _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        ·
          isplitl [HS0]
          · unfold owns; iexists _; isplitr
            swap; · iexact HS0
            ipureintro; exact View.read_writes_of_cover _ _ _ _ _ (scoverB_0 m c t _ _ _)
          isplitl [HS1]
          · unfold owns; iexists _; isplitr
            swap; · iexact HS1
            ipureintro; exact View.read_writes_of_cover _ _ _ _ _ (scoverB_1 m c t _ _ _)
          · unfold owns; iexists _; isplitr
            swap; · iexact HS2
            ipureintro; exact View.read_writes_of_cover _ _ _ _ _ (scoverB_2 m c t _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 400 := N_0; omega)

/-! ## The run -/

set_option backward.isDefEq.respectTransparency.types false in
/-- Every weakly fair execution of @main terminates, and every final state has each staged array at what the proof
    data computes and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Hand

end
-- ==== Proof.HandKernelIdeal.ReadOut.lean ====
/-
  What the run's final state says of the argument arrays and of the result buffer.

  No operation of @main writes an argument array, so each ends as it began.  The result buffer holds the loss of the
  per-token array obtained from the region's output array (8192 × 1, read as 8 × 1024) zeroed at the ignored tokens:
  the operations after the region are exactly the loss's operations applied to it and to the labels.
-/
import proofs.«403262_j18391049961623_3_alg».proof.Proof.HandKernelIdeal.Frame
import proofs.«403262_j18391049961623_3_alg».proof.Proof.Shared
import proofs.«403262_j18391049961623_3_alg».proof.Proof.LibTypedRef
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loss's shape relations, from the program's stated facts. -/
theorem tailFacts : Cert.Shared.TailFacts :=
  ⟨Facts₀.bcast_S_S8x1024, Facts₀.reducesTo_S8x1024_S8_d1, Facts₀.h_S_, Facts₀.slices_S8_S4_0, Facts₀.slices_S8_S4_4,
    Facts₀.slices_S8x1024_S4x1024_0_0, Facts₀.natLt_1_32, Facts₀.reducesTo_S4x1024_S_d0_1, Facts₀.bcast_S_S4, Facts₀.reducesTo_S4_S_d0⟩

/-- The region's output array after the run. -/
abbrev kout (c : Dev nD) : FVec F S8192x1 .f32 := (dats m 0 c).arrAt 4 cfg0.N

/-! ## The argument arrays are never written -/

/-- A reference is one of @main's four argument arrays. -/
def IsArg (r : Ref sig .tc) : Prop := r = main_arg0 ∨ r = main_arg1 ∨ r = main_arg2 ∨ r = main_arg3

/-- Every operation of a literal stretch writes its own result buffer only, and that buffer is not the given array. -/
local macro "result_buffers_differ" stretch:ident : tactic =>
  `(tactic| (
    simp only [$stretch:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem arg_unwritten0 (r : Ref sig .tc) (hr : IsArg r) : ∀ op ∈ (hostOps0 : List (HloOp τ sig (Elt F))), Proc.devRef .tc r ∉ op.writes := by
  refine List.forall_iff_forall_mem.mp ?_
  rcases hr with rfl | rfl | rfl | rfl <;> result_buffers_differ hostOps0
theorem arg_unwritten1 (r : Ref sig .tc) (hr : IsArg r) : ∀ op ∈ (hostOps1 : List (HloOp τ sig (Elt F))), Proc.devRef .tc r ∉ op.writes := by
  refine List.forall_iff_forall_mem.mp ?_
  rcases hr with rfl | rfl | rfl | rfl <;> result_buffers_differ hostOps1
theorem arg_unwritten1_1 (r : Ref sig .tc) (hr : IsArg r) : ∀ op ∈ (hostOps1_1 : List (HloOp τ sig (Elt F))), Proc.devRef .tc r ∉ op.writes := by
  refine List.forall_iff_forall_mem.mp ?_
  rcases hr with rfl | rfl | rfl | rfl <;> result_buffers_differ hostOps1_1
theorem arg_unwritten1_2 (r : Ref sig .tc) (hr : IsArg r) : ∀ op ∈ (hostOps1_2 : List (HloOp τ sig (Elt F))), Proc.devRef .tc r ∉ op.writes := by
  refine List.forall_iff_forall_mem.mp ?_
  rcases hr with rfl | rfl | rfl | rfl <;> result_buffers_differ hostOps1_2
theorem arg_unwritten1_3 (r : Ref sig .tc) (hr : IsArg r) : ∀ op ∈ (hostOps1_3 : List (HloOp τ sig (Elt F))), Proc.devRef .tc r ∉ op.writes := by
  refine List.forall_iff_forall_mem.mp ?_
  rcases hr with rfl | rfl | rfl | rfl <;> result_buffers_differ hostOps1_3
theorem arg_unwritten1_4 (r : Ref sig .tc) (hr : IsArg r) : ∀ op ∈ (hostOps1_4 : List (HloOp τ sig (Elt F))), Proc.devRef .tc r ∉ op.writes := by
  refine List.forall_iff_forall_mem.mp ?_
  rcases hr with rfl | rfl | rfl | rfl <;> result_buffers_differ hostOps1_4

/-- No operation after the region writes an argument array. -/
theorem arg_unwritten_tail (r : Ref sig .tc) (hr : IsArg r) :
    ∀ op ∈ (tailOps : List (List (HloOp τ sig (Elt F)))).flatten, Proc.devRef .tc r ∉ op.writes := by
  intro op hop
  obtain ⟨ops, hops, hmem⟩ := List.mem_flatten.mp hop
  simp only [tailOps, List.mem_cons, List.mem_nil_iff, or_false] at hops
  rcases hops with rfl | rfl | rfl | rfl | rfl
  · exact arg_unwritten1 r hr op hmem
  · exact arg_unwritten1_1 r hr op hmem
  · exact arg_unwritten1_2 r hr op hmem
  · exact arg_unwritten1_3 r hr op hmem
  · exact arg_unwritten1_4 r hr op hmem

/-- An argument array is no array the region stages, and it bypasses the region. -/
theorem arg_ne_arr (r : Ref sig .tc) (hr : IsArg r) : ∀ w, Pipeline.arrRef spec0 w ≠ r := by
  rcases hr with rfl | rfl | rfl | rfl <;> decide
theorem arg_mem_rest (r : Ref sig .tc) (hr : IsArg r) : r ∈ Pipeline.restRefs sig (cfgs 0).spec := by
  rcases hr with rfl | rfl | rfl | rfl <;> exact Pipeline.mem_restRefs_of _ (by decide) (by decide)

/-- The region finds an argument array as launched: none of the five operations before it writes one. -/
theorem V_arg (r : Ref sig .tc) (hr : IsArg r) (c : Dev nD) : V m c r = m ((c : Thread nD τ).loc r) :=
  StableHlo.after_of_forall_not_mem (b := Proc.devRef .tc r) _ _ (fun op hop => arg_unwritten0 r hr op (by
    simpa only [List.flatten_cons, List.flatten_nil, List.append_nil] using hop))

/-- After the later operations an argument array still holds its launch contents. -/
theorem W_arg (r : Ref sig .tc) (hr : IsArg r) (c : Dev nD) :
    Pipeline.afterTail₀ cfgs (dats m) 0 (V0 m) tailOps c r = m ((c : Thread nD τ).loc r) := by
  unfold Pipeline.afterTail₀
  rw [StableHlo.after_of_forall_not_mem (b := Proc.devRef .tc r) _ _ (arg_unwritten_tail r hr),
    Pipeline.withArrays_of_ne _ c (V0 m c) _ r (arg_ne_arr r hr)]
  exact V_arg m r hr c

/-- What the run's post says of an argument array. -/
theorem arg_kept (r : Ref sig .tc) (hr : IsArg r) (c : Dev nD) (mem : (ℓ : Loc nD τ sig) → Buf (Elt F) ℓ)
    (h : ∀ b ∈ Pipeline.restRefs sig (cfgs 0).spec,
      mem ((c.tc : Thread nD τ).loc b) = Pipeline.afterTail₀ cfgs (dats m) 0 (V0 m) tailOps c b) :
    mem ((c.tc : Thread nD τ).loc r) = m ((c.tc : Thread nD τ).loc r) :=
  (h r (arg_mem_rest r hr)).trans (W_arg m r hr c)

/-- The frame: @main runs to the end without a fault and its argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨arg_kept m _ (.inl rfl) c r.2.mem (h c).2, arg_kept m _ (.inr (.inl rfl)) c r.2.mem (h c).2,
      arg_kept m _ (.inr (.inr (.inl rfl))) c r.2.mem (h c).2, arg_kept m _ (.inr (.inr (.inr rfl))) c r.2.mem (h c).2⟩) (run_main m ρ)

/-! ## The result buffer -/

/-- The operations after the region, from any contents W of the buffers: the result buffer ends at the loss of the
    region's output array (read as 8 × 1024 and zeroed at the ignored tokens) and of the labels.  The 72 operations
    are the loss's own operations in the same order, the two calls of the log-sigmoid function written out. -/
theorem tail_result (W : Valuation τ sig (Elt F)) :
    StableHlo.after (tailOps : List (List (HloOp τ sig (Elt F)))).flatten W (Proc.devRef .tc main_v37)
      = Cert.Shared.lossOf tailFacts
          (Cert.Shared.masked tailFacts (shapeCast S8x1024 (W (Proc.devRef .tc main_v5)) Facts₀.shapeCasts_S8192x1_S8x1024) (W (Proc.devRef .tc main_arg2)))
          (W (Proc.devRef .tc main_arg2)) := by
  simp only [tailOps, hostOps1, hostOps1_1, hostOps1_2, hostOps1_3, hostOps1_4, List.flatten_cons, List.flatten_nil,
    List.append_nil, List.cons_append, List.nil_append]
  after_results_simp
  simp only [StableHlo.TRef.ofBuf_toBuf, StableHlo.TRef.toBuf_ofBuf]
  unfold Cert.Shared.lossOf Cert.Shared.masked Cert.Shared.keep Cert.Shared.logSigmoid Cert.Shared.softplus
  rfl

/-- The buffers' contents when the region is left: the staged arrays at what the proof data computes, every other
    buffer as the region found it. -/
abbrev Wexit (c : Dev nD) : Valuation τ sig (Elt F) :=
  Pipeline.withArrays (cfgs 0).spec c (V0 m c) fun w => (dats m 0 c).arrAt w (cfgs 0).N

/-- The region's output array is the fifth staged array. -/
theorem Wexit_v5 (c : Dev nD) : Wexit m c (Proc.devRef .tc main_v5) = kout m c :=
  Pipeline.withArrays_arr spec0 launch0.win.arr_inj c (V0 m c) (fun w => (dats m 0 c).arrAt w (cfgs 0).N) 4

/-- The labels are no staged array and are written by no operation before the region. -/
theorem Wexit_arg2 (c : Dev nD) : Wexit m c (Proc.devRef .tc main_arg2) = m ((c : Thread nD τ).loc main_arg2) :=
  (Pipeline.withArrays_of_ne _ c (V0 m c) _ main_arg2 (arg_ne_arr main_arg2 (.inr (.inr (.inl rfl))))).trans
    (V_arg m main_arg2 (.inr (.inr (.inl rfl))) c)

/-- The result buffer after the later operations: the loss of the masked per-token array read off the region's output. -/
theorem result_eq (c : Dev nD) :
    Pipeline.afterTail₀ cfgs (dats m) 0 (V0 m) tailOps c main_v37
      = Cert.Shared.lossOf tailFacts
          (Cert.Shared.masked tailFacts (shapeCast S8x1024 (kout m c) Facts₀.shapeCasts_S8192x1_S8x1024) (m ((c.tc : Thread nD τ).loc main_arg2)))
          (m ((c.tc : Thread nD τ).loc main_arg2)) := by
  show StableHlo.after (tailOps : List (List (HloOp τ sig (Elt F)))).flatten (Wexit m c) (Proc.devRef .tc main_v37) = _
  rw [tail_result (Wexit m c), Wexit_v5 m c, Wexit_arg2 m c]

/-- The result buffer bypasses the region. -/
theorem result_mem_rest : main_v37 ∈ Pipeline.restRefs sig (cfgs 0).spec :=
  Pipeline.mem_restRefs_of main_v37 (by decide) (by decide)

/-- The run with its result named: the loss of the masked per-token array read off the region's output. -/
theorem run_value : θ_run defs (onTc (τ := τ) (main (F := F))) ⟨m, fun _ => 0, ρ⟩ (fun r => ∀ c : Dev nD,
      r.2.mem ((c.tc : Thread nD τ).loc main_v37)
          = Cert.Shared.lossOf tailFacts
              (Cert.Shared.masked tailFacts (shapeCast S8x1024 (kout m c) Facts₀.shapeCasts_S8192x1_S8x1024) (m ((c.tc : Thread nD τ).loc main_arg2)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v37 result_mem_rest).trans (result_eq m c),
      arg_kept m _ (.inl rfl) c r.2.mem (h c).2, arg_kept m _ (.inr (.inl rfl)) c r.2.mem (h c).2,
      arg_kept m _ (.inr (.inr (.inl rfl))) c r.2.mem (h c).2, arg_kept m _ (.inr (.inr (.inr rfl))) c r.2.mem (h c).2⟩) (run_main m ρ)

end Cert.KernelIdeal.Hand

end
-- ==== Proof.HandKernelIdeal.Step.lean ====
/-
  One step of the sweep as a function of the four input blocks and of what the point before left: the new running
  maximum, the new rescaled sum of exponentials and the new running entry at the label are the body's stored values
  (its payloads) of the blocks and of the previous three; the reset values are −∞, 0, 0; the output block is the entry at
  the label less (maximum + log of the sum), of the NEW three.  Each case's scratch contents are this step, from the
  reset values in the case that resets and from the previous point's contents otherwise.
-/
import proofs.«403262_j18391049961623_3_alg».proof.Proof.HandKernelIdeal.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four input blocks at a point, at their literal types. -/
abbrev xblk (c : Dev nD) (t : Fin cfg0.N) : Vec F S512x4096 .bf16 := iblk m c 0 t
abbrev wblk (c : Dev nD) (t : Fin cfg0.N) : Vec F S1280x4096 .bf16 := iblk m c 1 t
abbrev bblk (c : Dev nD) (t : Fin cfg0.N) : Vec F S1x1280 .f32 := iblk m c 2 t
abbrev tblk (c : Dev nD) (t : Fin cfg0.N) : Vec F S512x1 .i32 := iblk m c 3 t

/-- The vocabulary coordinate of a point, as the word the body computes with. -/
def viOf (t : Fin cfg0.N) : BitVec 32 := BitVec.ofNat 32 ((grid0.coords t) 1).val

/-- One step: (maximum, rescaled sum, entry at the label) after a tile, from the blocks and the previous three. -/
def stepSc (x0 : Vec F S512x4096 .bf16) (x1 : Vec F S1280x4096 .bf16) (x2 : Vec F S1x1280 .f32) (x3 : Vec F S512x1 .i32)
    (vi : BitVec 32) (p : Vec F S512x1 .f32 × Vec F S512x1 .f32 × Vec F S512x1 .f32) : Vec F S512x1 .f32 × Vec F S512x1 .f32 × Vec F S512x1 .f32 :=
  (k0_pay9 x0 x1 x2 p.1, k0_pay8 x0 x1 x2 p.1 p.1 p.2.1, k0_pay1 vi (k0_pay6 x0 x1 x2) 1280#32 x3 p.2.2)

/-- The reset values: −∞, 0, 0. -/
def resetSc : Vec F S512x1 .f32 × Vec F S512x1 .f32 × Vec F S512x1 .f32 := (k0_pay3, k0_pay4, k0_pay5)

/-- The output block from the three running quantities: entry at the label − (maximum + log sum). -/
def outOf (s : Vec F S512x1 .f32 × Vec F S512x1 .f32 × Vec F S512x1 .f32) : Vec F S512x1 .f32 := k0_pay2 s.1 s.2.1 s.2.2

/-- The literal zero offset of a whole-shape rectangle is the zero function. -/
private theorem hz : (![0, 0] : Fin 2 → Nat) = fun _ => 0 := funext fun a => by fin_cases a <;> rfl

/-- Reading a whole buffer at the raw contents chosen to read X gives X. -/
private theorem read_whole_unread {κ : Kind} (b : Ref sig κ) (h : (Memref.whole b).IsWhole) (X : b.ty.shape.Idx → Elt F b.ty.elt) :
    View.read (Elt F) (View.whole b) (h.unread X) = X := h.read_unread X

/-! ## Each stored piece read back

In every case a scratch buffer's last store goes through the whole-shape rectangle at offset zero, so the buffer reads
back as that store's payload; the payload's arguments are loads through whole-shape rectangles, which read the input
blocks, and, for the scratch buffers, either what the point before left (no store before the load) or the reset value
(the reset store before the load).  In the case that stores the output block, the three loads feeding it follow the
three updates and so read the new values. -/

private theorem scA_0 (c : Dev nD) (t : Fin cfg0.N) (h0 : t.val % 25 = 0) (h1 : ¬t.val % 25 = 24) :
    (scA m c t h0 h1).1 = k0_pay9 (xblk m c t) (wblk m c t) (bblk m c t) k0_pay3 := by
  unfold scA rd
  dsimp only
  rw [View.read_writes_eq_canon _ _ _ (scoverA_0 m c t h0 h1)]
  unfold runA kernelRun0_A
  dsimp only
  sl_unfold_words
  rw [View.canon_cons_unit_zero (S := S512x1) hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]

private theorem scA_1 (c : Dev nD) (t : Fin cfg0.N) (h0 : t.val % 25 = 0) (h1 : ¬t.val % 25 = 24) :
    (scA m c t h0 h1).2.1 = k0_pay8 (xblk m c t) (wblk m c t) (bblk m c t) k0_pay3 k0_pay3 k0_pay4 := by
  unfold scA rd
  dsimp only
  rw [View.read_writes_eq_canon _ _ _ (scoverA_1 m c t h0 h1)]
  unfold runA kernelRun0_A
  dsimp only
  sl_unfold_words
  rw [View.canon_cons_unit_zero (S := S512x1) hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]

private theorem scA_2 (c : Dev nD) (t : Fin cfg0.N) (h0 : t.val % 25 = 0) (h1 : ¬t.val % 25 = 24) :
    (scA m c t h0 h1).2.2 = k0_pay1 (viOf t) (k0_pay6 (xblk m c t) (wblk m c t) (bblk m c t)) 1280#32 (tblk m c t) k0_pay5 := by
  unfold scA rd
  dsimp only
  rw [View.read_writes_eq_canon _ _ _ (scoverA_2 m c t h0 h1)]
  unfold runA kernelRun0_A
  dsimp only
  sl_unfold_words
  rw [View.canon_cons_unit_zero (S := S512x1) hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]
  rfl

private theorem scB_0 (c : Dev nD) (t : Fin cfg0.N) (h0 : ¬t.val % 25 = 0) (h1 : ¬t.val % 25 = 24) (p : Vec F S512x1 .f32 × Vec F S512x1 .f32 × Vec F S512x1 .f32) :
    (scB m c t h0 h1 p).1 = k0_pay9 (xblk m c t) (wblk m c t) (bblk m c t) p.1 := by
  unfold scB rd
  dsimp only
  rw [View.read_writes_eq_canon _ _ _ (scoverB_0 m c t h0 h1 p)]
  unfold runB kernelRun0_B
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]

private theorem scB_1 (c : Dev nD) (t : Fin cfg0.N) (h0 : ¬t.val % 25 = 0) (h1 : ¬t.val % 25 = 24) (p : Vec F S512x1 .f32 × Vec F S512x1 .f32 × Vec F S512x1 .f32) :
    (scB m c t h0 h1 p).2.1 = k0_pay8 (xblk m c t) (wblk m c t) (bblk m c t) p.1 p.1 p.2.1 := by
  unfold scB rd
  dsimp only
  rw [View.read_writes_eq_canon _ _ _ (scoverB_1 m c t h0 h1 p)]
  unfold runB kernelRun0_B
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]

private theorem scB_2 (c : Dev nD) (t : Fin cfg0.N) (h0 : ¬t.val % 25 = 0) (h1 : ¬t.val % 25 = 24) (p : Vec F S512x1 .f32 × Vec F S512x1 .f32 × Vec F S512x1 .f32) :
    (scB m c t h0 h1 p).2.2 = k0_pay1 (viOf t) (k0_pay6 (xblk m c t) (wblk m c t) (bblk m c t)) 1280#32 (tblk m c t) p.2.2 := by
  unfold scB rd
  dsimp only
  rw [View.read_writes_eq_canon _ _ _ (scoverB_2 m c t h0 h1 p)]
  unfold runB kernelRun0_B
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]
  rfl

private theorem scC_0 (c : Dev nD) (t : Fin cfg0.N) (h0 : ¬t.val % 25 = 0) (h1 : t.val % 25 = 24) (p : Vec F S512x1 .f32 × Vec F S512x1 .f32 × Vec F S512x1 .f32) :
    (scC m c t h0 h1 p).1 = k0_pay9 (xblk m c t) (wblk m c t) (bblk m c t) p.1 := by
  unfold scC rd
  dsimp only
  rw [View.read_writes_eq_canon _ _ _ (scoverC_0 m c t h0 h1 p)]
  unfold runC kernelRun0_C
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]

private theorem scC_1 (c : Dev nD) (t : Fin cfg0.N) (h0 : ¬t.val % 25 = 0) (h1 : t.val % 25 = 24) (p : Vec F S512x1 .f32 × Vec F S512x1 .f32 × Vec F S512x1 .f32) :
    (scC m c t h0 h1 p).2.1 = k0_pay8 (xblk m c t) (wblk m c t) (bblk m c t) p.1 p.1 p.2.1 := by
  unfold scC rd
  dsimp only
  rw [View.read_writes_eq_canon _ _ _ (scoverC_1 m c t h0 h1 p)]
  unfold runC kernelRun0_C
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]

private theorem scC_2 (c : Dev nD) (t : Fin cfg0.N) (h0 : ¬t.val % 25 = 0) (h1 : t.val % 25 = 24) (p : Vec F S512x1 .f32 × Vec F S512x1 .f32 × Vec F S512x1 .f32) :
    (scC m c t h0 h1 p).2.2 = k0_pay1 (viOf t) (k0_pay6 (xblk m c t) (wblk m c t) (bblk m c t)) 1280#32 (tblk m c t) p.2.2 := by
  unfold scC rd
  dsimp only
  rw [View.read_writes_eq_canon _ _ _ (scoverC_2 m c t h0 h1 p)]
  unfold runC kernelRun0_C
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]
  rfl

private theorem outC_0 (c : Dev nD) (t : Fin cfg0.N) (h0 : ¬t.val % 25 = 0) (h1 : t.val % 25 = 24) (p : Vec F S512x1 .f32 × Vec F S512x1 .f32 × Vec F S512x1 .f32) :
    outC m c t h0 h1 p = k0_pay2 (k0_pay9 (xblk m c t) (wblk m c t) (bblk m c t) p.1) (k0_pay8 (xblk m c t) (wblk m c t) (bblk m c t) p.1 p.1 p.2.1)
      (k0_pay1 (viOf t) (k0_pay6 (xblk m c t) (wblk m c t) (bblk m c t)) 1280#32 (tblk m c t) p.2.2) := by
  unfold outC rd
  dsimp only
  rw [View.read_writes_eq_canon _ _ _ (coverC_4 m c t h0 h1 p)]
  unfold runC kernelRun0_C
  dsimp only
  sl_unfold_words
  rw [View.canon_unit_zero hz]
  simp only [View.readAt_eq_ld, Memref.IsWhole.read_unread, read_whole_unread, View.ld_unit_zero (S := S512x4096) hz, View.ld_unit_zero (S := S1280x4096) hz, View.ld_unit_zero (S := S1x1280) hz, View.ld_unit_zero (S := S512x1) hz, View.readCov_unit_zero (S := S512x1) _ hz]
  rfl

theorem scA_eq (c : Dev nD) (t : Fin cfg0.N) (h0 : t.val % 25 = 0) (h1 : ¬t.val % 25 = 24) :
    scA m c t h0 h1 = stepSc (xblk m c t) (wblk m c t) (bblk m c t) (tblk m c t) (viOf t) resetSc := by
  refine Prod.ext ?_ (Prod.ext ?_ ?_)
  · exact scA_0 m c t h0 h1
  · exact scA_1 m c t h0 h1
  · exact scA_2 m c t h0 h1
theorem scB_eq (c : Dev nD) (t : Fin cfg0.N) (h0 : ¬t.val % 25 = 0) (h1 : ¬t.val % 25 = 24) (p : Vec F S512x1 .f32 × Vec F S512x1 .f32 × Vec F S512x1 .f32) :
    scB m c t h0 h1 p = stepSc (xblk m c t) (wblk m c t) (bblk m c t) (tblk m c t) (viOf t) p := by
  refine Prod.ext ?_ (Prod.ext ?_ ?_)
  · exact scB_0 m c t h0 h1 p
  · exact scB_1 m c t h0 h1 p
  · exact scB_2 m c t h0 h1 p
theorem scC_eq (c : Dev nD) (t : Fin cfg0.N) (h0 : ¬t.val % 25 = 0) (h1 : t.val % 25 = 24) (p : Vec F S512x1 .f32 × Vec F S512x1 .f32 × Vec F S512x1 .f32) :
    scC m c t h0 h1 p = stepSc (xblk m c t) (wblk m c t) (bblk m c t) (tblk m c t) (viOf t) p := by
  refine Prod.ext ?_ (Prod.ext ?_ ?_)
  · exact scC_0 m c t h0 h1 p
  · exact scC_1 m c t h0 h1 p
  · exact scC_2 m c t h0 h1 p
theorem outC_eq (c : Dev nD) (t : Fin cfg0.N) (h0 : ¬t.val % 25 = 0) (h1 : t.val % 25 = 24) (p : Vec F S512x1 .f32 × Vec F S512x1 .f32 × Vec F S512x1 .f32) :
    outC m c t h0 h1 p = outOf (stepSc (xblk m c t) (wblk m c t) (bblk m c t) (tblk m c t) (viOf t) p) :=
  outC_0 m c t h0 h1 p

/-- The scratch contents after point t: one step from the reset values when t starts a row tile, else from what
    point t − 1 left. -/
theorem sc_rec (c : Dev nD) (t : Fin cfg0.N) :
    (outsAt0 m c t.val t.isLt).2 = stepSc (xblk m c t) (wblk m c t) (bblk m c t) (tblk m c t) (viOf t)
      (if t.val % 25 = 0 then resetSc else (outsAt0 m c (t.val - 1) (Nat.lt_of_le_of_lt (Nat.sub_le _ _) t.isLt)).2) := by
  by_cases h0 : t.val % 25 = 0
  · have h1 : ¬t.val % 25 = 24 := by omega
    rw [outsAt0_A m c t h0 h1, if_pos h0]
    dsimp only
    exact scA_eq m c t h0 h1
  · rw [if_neg h0]
    by_cases h1 : t.val % 25 = 24
    · rw [outsAt0_C m c t h0 h1]
      dsimp only
      generalize (outsAt0 m c (t.val - 1) (Nat.lt_of_le_of_lt (Nat.sub_le _ _) t.isLt)).2 = p
      exact scC_eq m c t h0 h1 p
    · rw [outsAt0_B m c t h0 h1]
      dsimp only
      generalize (outsAt0 m c (t.val - 1) (Nat.lt_of_le_of_lt (Nat.sub_le _ _) t.isLt)).2 = p
      exact scB_eq m c t h0 h1 p

/-- At a point that ends a row tile the output block is computed from that point's scratch contents. -/
theorem out_last (c : Dev nD) (t : Fin cfg0.N) (h1 : t.val % 25 = 24) :
    (outsAt0 m c t.val t.isLt).1 = outOf (outsAt0 m c t.val t.isLt).2 := by
  have h0 : ¬t.val % 25 = 0 := by omega
  rw [outsAt0_C m c t h0 h1]
  dsimp only
  generalize (outsAt0 m c (t.val - 1) (Nat.lt_of_le_of_lt (Nat.sub_le _ _) t.isLt)).2 = p
  rw [outC_eq m c t h0 h1 p, scC_eq m c t h0 h1 p]

end Cert.KernelIdeal.Hand

end
-- ==== Proof.HandKernelIdeal.Blocks.lean ====
/-
  The input blocks as entries of the argument arrays, and the output array's rows.

  Point t is row tile t / 25 and vocabulary tile t % 25.  Row r of the row block is global row R = 512·(t/25) + r of the
  8192 × 4096 input, which is token (R / 1024, R % 1024) of the 8 × 1024 × 4096 argument (narrowing the float format
  changes nothing over the extended reals); row k of the vocabulary block is row 1280·(t%25) + k of the weights; the
  bias block and the label block likewise.  The output array's row R was written back once, by the last point
  25·(R/512) + 24 of its row tile, from that point's output block at row R % 512.
-/
import proofs.«403262_j18391049961623_3_alg».proof.Proof.HandKernelIdeal.Step
import proofs.«403262_j18391049961623_3_alg».proof.Proof.HandKernelIdeal.ReadOut
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-- The sequence and the position of global row R of the 8192 rows. -/
def bOf (R : Nat) : Fin 8 := ⟨(R / 1024) % 8, Nat.mod_lt _ (by norm_num)⟩
def tOf (R : Nat) : Fin 1024 := ⟨R % 1024, Nat.mod_lt _ (by norm_num)⟩
/-- Vocabulary entry k of tile j. -/
def vOf (j k : Nat) : Fin 32000 := ⟨(j * 1280 + k) % 32000, Nat.mod_lt _ (by norm_num)⟩

/-! ## The four staged input arrays, entry by entry

Each array an input window reads was written before the region by one or two operations on an argument: a reshape keeps
the row-major position of every entry, and narrowing the float format is the identity over the extended reals. -/

/-- The 8192 × 4096 input: row R = 1024·b + t is token (b, t) of the 8 × 1024 × 4096 argument. -/
theorem Blocks.V_v1_apply (c : Dev nD) (R : Fin 8192) (h : Fin 4096) (b : Fin 8) (t : Fin 1024) (hR : R.val = b.val * 1024 + t.val) :
    (V m c main_v1 : FVec Ideal S8192x4096 .bf16) (ix2 R h)
      = ((m ((c.tc : Thread nD τ).loc main_arg1)) : FVec Ideal S8x1024x4096 .f32) (ix3 b t h) := by
  have e : (V m c main_v1 : FVec Ideal S8192x4096 .bf16)
      = (truncf (F := Ideal) .bf16 (shapeCast S8192x4096 ((m ((c.tc : Thread nD τ).loc main_arg1)) : FVec Ideal S8x1024x4096 .f32) shapeCasts_S8x1024x4096_S8192x4096) bitsLt_bf16_f32 : FVec Ideal S8192x4096 .bf16) := by
    dsimp only [V, V0]
    simp only [hostOps0, List.flatten_cons, List.flatten_nil, List.append_nil, List.cons_append, List.nil_append]
    after_results
    rfl
  rw [e, truncf_apply]
  refine shapeCast_apply _ _ _ (ix3 b t h) ?_
  rw [Shape.rowMajor_val_three, Shape.rowMajor_val_two]
  show (b.val * 1024 + t.val) * 4096 + h.val = R.val * 4096 + h.val
  rw [hR]

/-- The narrowed weights are the weights. -/
theorem Blocks.V_v2_apply (c : Dev nD) (v : Fin 32000) (h : Fin 4096) :
    (V m c main_v2 : FVec Ideal S32000x4096 .bf16) (ix2 v h)
      = ((m ((c.tc : Thread nD τ).loc main_arg0)) : FVec Ideal S32000x4096 .f32) (ix2 v h) := by
  have e : (V m c main_v2 : FVec Ideal S32000x4096 .bf16)
      = (truncf (F := Ideal) .bf16 ((m ((c.tc : Thread nD τ).loc main_arg0)) : FVec Ideal S32000x4096 .f32) bitsLt_bf16_f32 : FVec Ideal S32000x4096 .bf16) := by
    dsimp only [V, V0]
    simp only [hostOps0, List.flatten_cons, List.flatten_nil, List.append_nil, List.cons_append, List.nil_append]
    after_results
  rw [e, truncf_apply]

/-- The bias as one row of 32000 entries. -/
theorem Blocks.V_v3_apply (c : Dev nD) (v : Fin 32000) :
    (V m c main_v3 : FVec Ideal S1x32000 .f32) (ix2 (0 : Fin 1) v)
      = ((m ((c.tc : Thread nD τ).loc main_arg3)) : FVec Ideal S32000 .f32) (ix1 v) := by
  have e : (V m c main_v3 : FVec Ideal S1x32000 .f32)
      = (shapeCast S1x32000 ((m ((c.tc : Thread nD τ).loc main_arg3)) : FVec Ideal S32000 .f32) shapeCasts_S32000_S1x32000 : FVec Ideal S1x32000 .f32) := by
    dsimp only [V, V0]
    simp only [hostOps0, List.flatten_cons, List.flatten_nil, List.append_nil, List.cons_append, List.nil_append]
    after_results
    rfl
  rw [e]
  refine shapeCast_apply _ _ _ (ix1 v) ?_
  rw [Shape.rowMajor_val_one, Shape.rowMajor_val_two]
  show v.val = 0 * 32000 + v.val
  omega

/-- The labels as one column of 8192 entries: row R = 1024·b + t is the label of token (b, t). -/
theorem Blocks.V_v4_apply (c : Dev nD) (R : Fin 8192) (b : Fin 8) (t : Fin 1024) (hR : R.val = b.val * 1024 + t.val) :
    (V m c main_v4 : IVec S8192x1 32) (ix2 R (0 : Fin 1))
      = ((m ((c.tc : Thread nD τ).loc main_arg2)) : IVec S8x1024 32) (ix2 b t) := by
  have e : (V m c main_v4 : IVec S8192x1 32)
      = (shapeCast S8192x1 ((m ((c.tc : Thread nD τ).loc main_arg2)) : IVec S8x1024 32) shapeCasts_S8x1024_S8192x1 : IVec S8192x1 32) := by
    dsimp only [V, V0]
    simp only [hostOps0, List.flatten_cons, List.flatten_nil, List.append_nil, List.cons_append, List.nil_append]
    after_results
    rfl
  rw [e]
  refine shapeCast_apply _ _ _ (ix2 b t) ?_
  rw [Shape.rowMajor_val_two, Shape.rowMajor_val_two]
  show b.val * 1024 + t.val = R.val * 1 + 0
  omega

/-! ## The windows' block indices over the grid

Point t has row tile t / 25 and vocabulary tile t % 25: the input, the labels and the output move with the row tile, the
weights and the bias with the vocabulary tile. -/

theorem Blocks.idx_x : ∀ t : Fin cfg0.N, win0_0.index t (0 : Fin 2) = t.val / 25 ∧ win0_0.index t (1 : Fin 2) = 0 :=
  (by decide +kernel : ∀ t : Fin grid0.N, win0_0.index t (0 : Fin 2) = t.val / 25 ∧ win0_0.index t (1 : Fin 2) = 0)
theorem Blocks.idx_w : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)
theorem Blocks.idx_b : ∀ t : Fin cfg0.N, win0_2.index t (0 : Fin 2) = 0 ∧ win0_2.index t (1 : Fin 2) = t.val % 25 :=
  (by decide +kernel : ∀ t : Fin grid0.N, win0_2.index t (0 : Fin 2) = 0 ∧ win0_2.index t (1 : Fin 2) = t.val % 25)
theorem Blocks.idx_t : ∀ t : Fin cfg0.N, win0_3.index t (0 : Fin 2) = t.val / 25 ∧ win0_3.index t (1 : Fin 2) = 0 :=
  (by decide +kernel : ∀ t : Fin grid0.N, win0_3.index t (0 : Fin 2) = t.val / 25 ∧ win0_3.index t (1 : Fin 2) = 0)
theorem Blocks.idx_o : ∀ t : Fin cfg0.N, win0_4.index t (0 : Fin 2) = t.val / 25 ∧ win0_4.index t (1 : Fin 2) = 0 :=
  (by decide +kernel : ∀ t : Fin grid0.N, win0_4.index t (0 : Fin 2) = t.val / 25 ∧ win0_4.index t (1 : Fin 2) = 0)

/-! ## The input blocks

An entry of a block sits in its array, on each axis, at the block index times the block's extent plus the coordinate
inside the block. -/

/-- Row r of the row block at point t is row 512·(t/25) + r of the staged input. -/
theorem Blocks.xblk_V (c : Dev nD) (t : Fin cfg0.N) (r : Fin 512) (h : Fin 4096) (R : Fin 8192) (hR : R.val = 512 * (t.val / 25) + r.val) :
    xblk (F := Ideal) m c t (ix2 r h) = (V m c main_v1 : FVec Ideal S8192x4096 .bf16) (ix2 R h) := by
  obtain ⟨e0, e1⟩ := Blocks.idx_x t
  show V m c main_v1 (((cfg0.win 0).blk t).view.emb (ix2 r h)) = V m c main_v1 (ix2 R h)
  refine congrArg _ ?_
  funext a; apply Fin.ext
  match a with
  | ⟨0, _⟩ => show win0_0.index t (0 : Fin 2) * 512 + 1 * r.val = R.val; omega
  | ⟨1, _⟩ => show win0_0.index t (1 : Fin 2) * 4096 + 1 * h.val = h.val; omega

theorem xblk_apply (c : Dev nD) (t : Fin cfg0.N) (r : Fin 512) (h : Fin 4096) :
    xblk (F := Ideal) m c t (ix2 r h)
      = ((m ((c.tc : Thread nD τ).loc main_arg1)) : FVec Ideal S8x1024x4096 .f32) (ix3 (bOf (512 * (t.val / 25) + r.val)) (tOf (512 * (t.val / 25) + r.val)) h) := by
  have hN : cfg0.N = 400 := N_0
  have ht := t.isLt
  have hr := r.isLt
  refine (Blocks.xblk_V m c t r h ⟨512 * (t.val / 25) + r.val, by omega⟩ rfl).trans ?_
  refine Blocks.V_v1_apply m c _ h _ _ ?_
  show 512 * (t.val / 25) + r.val = ((512 * (t.val / 25) + r.val) / 1024) % 8 * 1024 + (512 * (t.val / 25) + r.val) % 1024
  omega

/-- Row k of the vocabulary block at point t is row 1280·(t%25) + k of the staged weights. -/
theorem Blocks.wblk_V (c : Dev nD) (t : Fin cfg0.N) (k : Fin 1280) (h : Fin 4096) (v : Fin 32000) (hv : v.val = (t.val % 25) * 1280 + k.val) :
    wblk (F := Ideal) m c t (ix2 k h) = (V m c main_v2 : FVec Ideal S32000x4096 .bf16) (ix2 v h) := by
  obtain ⟨e0, e1⟩ := Blocks.idx_w t
  show V m c main_v2 (((cfg0.win 1).blk t).view.emb (ix2 k h)) = V m c main_v2 (ix2 v h)
  refine congrArg _ ?_
  funext a; apply Fin.ext
  match a with
  | ⟨0, _⟩ => show win0_1.index t (0 : Fin 2) * 1280 + 1 * k.val = v.val; omega
  | ⟨1, _⟩ => show win0_1.index t (1 : Fin 2) * 4096 + 1 * h.val = h.val; omega

theorem wblk_apply (c : Dev nD) (t : Fin cfg0.N) (k : Fin 1280) (h : Fin 4096) :
    wblk (F := Ideal) m c t (ix2 k h)
      = ((m ((c.tc : Thread nD τ).loc main_arg0)) : FVec Ideal S32000x4096 .f32) (ix2 (vOf (t.val % 25) k.val) h) := by
  have hk := k.isLt
  refine (Blocks.wblk_V m c t k h (vOf (t.val % 25) k.val) ?_).trans (Blocks.V_v2_apply m c _ h)
  show ((t.val % 25) * 1280 + k.val) % 32000 = (t.val % 25) * 1280 + k.val
  omega

/-- Entry k of the bias block at point t is entry 1280·(t%25) + k of the staged bias row. -/
theorem Blocks.bblk_V (c : Dev nD) (t : Fin cfg0.N) (k : Fin 1280) (v : Fin 32000) (hv : v.val = (t.val % 25) * 1280 + k.val) :
    bblk (F := Ideal) m c t (ix2 (0 : Fin 1) k) = (V m c main_v3 : FVec Ideal S1x32000 .f32) (ix2 (0 : Fin 1) v) := by
  obtain ⟨e0, e1⟩ := Blocks.idx_b t
  show V m c main_v3 (((cfg0.win 2).blk t).view.emb (ix2 (0 : Fin 1) k)) = V m c main_v3 (ix2 (0 : Fin 1) v)
  refine congrArg _ ?_
  funext a; apply Fin.ext
  match a with
  | ⟨0, _⟩ => show win0_2.index t (0 : Fin 2) * 1 + 1 * 0 = 0; omega
  | ⟨1, _⟩ => show win0_2.index t (1 : Fin 2) * 1280 + 1 * k.val = v.val; omega

theorem bblk_apply (c : Dev nD) (t : Fin cfg0.N) (k : Fin 1280) :
    bblk (F := Ideal) m c t (ix2 (0 : Fin 1) k)
      = ((m ((c.tc : Thread nD τ).loc main_arg3)) : FVec Ideal S32000 .f32) (ix1 (vOf (t.val % 25) k.val)) := by
  have hk := k.isLt
  refine (Blocks.bblk_V m c t k (vOf (t.val % 25) k.val) ?_).trans (Blocks.V_v3_apply m c _)
  show ((t.val % 25) * 1280 + k.val) % 32000 = (t.val % 25) * 1280 + k.val
  omega

/-- Row r of the label block at point t is row 512·(t/25) + r of the staged label column. -/
theorem Blocks.tblk_V (c : Dev nD) (t : Fin cfg0.N) (r : Fin 512) (R : Fin 8192) (hR : R.val = 512 * (t.val / 25) + r.val) :
    (tblk (F := Ideal) m c t : IVec S512x1 32) (ix2 r (0 : Fin 1)) = (V m c main_v4 : IVec S8192x1 32) (ix2 R (0 : Fin 1)) := by
  obtain ⟨e0, e1⟩ := Blocks.idx_t t
  show V m c main_v4 (((cfg0.win 3).blk t).view.emb (ix2 r (0 : Fin 1))) = V m c main_v4 (ix2 R (0 : Fin 1))
  refine congrArg _ ?_
  funext a; apply Fin.ext
  match a with
  | ⟨0, _⟩ => show win0_3.index t (0 : Fin 2) * 512 + 1 * r.val = R.val; omega
  | ⟨1, _⟩ => show win0_3.index t (1 : Fin 2) * 1 + 1 * 0 = 0; omega

theorem tblk_apply (c : Dev nD) (t : Fin cfg0.N) (r : Fin 512) :
    (tblk (F := Ideal) m c t : IVec S512x1 32) (ix2 r (0 : Fin 1))
      = ((m ((c.tc : Thread nD τ).loc main_arg2)) : IVec S8x1024 32) (ix2 (bOf (512 * (t.val / 25) + r.val)) (tOf (512 * (t.val / 25) + r.val))) := by
  have hN : cfg0.N = 400 := N_0
  have ht := t.isLt
  have hr := r.isLt
  refine (Blocks.tblk_V m c t r ⟨512 * (t.val / 25) + r.val, by omega⟩ rfl).trans ?_
  refine Blocks.V_v4_apply m c _ _ _ ?_
  show 512 * (t.val / 25) + r.val = ((512 * (t.val / 25) + r.val) / 1024) % 8 * 1024 + (512 * (t.val / 25) + r.val) % 1024
  omega

/-- The vocabulary coordinate of point t is t % 25 (the vocabulary axis is the inner one of the 16 × 25 grid). -/
theorem viOf_eq (t : Fin cfg0.N) : viOf t = BitVec.ofNat 32 (t.val % 25) := by
  unfold viOf
  rw [(by decide +kernel : ∀ t : Fin grid0.N, ((grid0.coords t) (1 : Fin 2)).val = t.val % 25) t]

/-! ## The output array

The output block is written back exactly at the points t with t % 25 = 24, and point 25·q + 24 writes rows
512·q … 512·q + 511.  So the array ends holding, at row R, row R % 512 of the output block of point 25·(R/512) + 24:
what each such point writes back is its block of that one array, and the sixteen blocks cover the 8192 rows. -/

/-- The last point of the row tile of any of the 8192 rows is a point of the grid. -/
theorem Blocks.lastPt_lt (n : Nat) (hn : n < 8192) : 25 * (n / 512) + 24 < cfg0.N := by
  have hN : cfg0.N = 400 := N_0
  omega

/-- The output block depends only on the point's number and on the entry's index. -/
theorem Blocks.outs_congr (c : Dev nD) (n n' : Nat) (hn : n < cfg0.N) (hn' : n' < cfg0.N) (e : n = n') (y y' : S512x1.Idx) (ey : y = y') :
    (outsAt0 (F := Ideal) m c n hn).1 y = (outsAt0 (F := Ideal) m c n' hn').1 y' := by
  subst e; subst ey; rfl

/-- The array the write-backs assemble: at row R, row R % 512 of the output block of point 25·(R/512) + 24. -/
def Blocks.outArr (c : Dev nD) : FVec Ideal S8192x1 .f32 := fun i =>
  (outsAt0 (F := Ideal) m c (25 * ((i 0).val / 512) + 24) (Blocks.lastPt_lt _ (i 0).isLt)).1
    (ix2 (⟨(i 0).val % 512, Nat.mod_lt _ (by norm_num)⟩ : Fin 512) (0 : Fin 1))

/-- What a point t with t % 25 = 24 writes back is its block of that array: its rows are 512·(t/25) + y, whose row tile's
    last point is t itself and whose row inside the tile is y. -/
theorem Blocks.flushed_out (c : Dev nD) (t : Fin cfg0.N) (hf : (cfg0.win 4).flush t = true) :
    (dats (F := Ideal) m 0 c).flushed 4 t = ((cfg0.win 4).blk t).view.read (Elt Ideal) (Blocks.outArr m c) := by
  have h24 : t.val % 25 = 24 := (flush0_4 t).mp hf
  obtain ⟨e0, e1⟩ := Blocks.idx_o t
  show (cfg0.win 4).cut (grid0.coords t) ((dats (F := Ideal) m 0 c).after 4 t) = _
  rw [after0_4]
  funext y
  have hy0 : (y 0).val < 512 := (y 0).isLt
  have hy1 : (y 1).val < 1 := (y 1).isLt
  have hemb : ((((cfg0.win 4).blk t).view.emb y) 0).val = win0_4.index t (0 : Fin 2) * 512 + 1 * (y 0).val := rfl
  show (outsAt0 (F := Ideal) m c t.val t.isLt).1 ((cfg0.win 4).xinj (grid0.coords t) y) = Blocks.outArr m c (((cfg0.win 4).blk t).view.emb y)
  unfold Blocks.outArr
  refine Blocks.outs_congr m c _ _ _ _ ?_ _ _ ?_
  · rw [hemb, e0]; omega
  · funext a; apply Fin.ext
    match a with
    | ⟨0, _⟩ => show (y 0).val = ((((cfg0.win 4).blk t).view.emb y) 0).val % 512; rw [hemb]; omega
    | ⟨1, _⟩ => show (y 1).val = 0; omega

/-- An index of the output array is in point t's block iff each coordinate is in the block's range on its axis. -/
theorem Blocks.mem_oblk (t : Fin cfg0.N) (i : S8192x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v5).slice (win0_4.rect t)).set ↔ _
  rw [View.set_slice_whole, Rect.mem_set_unit]
  exact Iff.rfl

/-- Every row R is in the block of the writing point 25·(R/512) + 24. -/
theorem Blocks.cover_out (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨⟨25 * ((i 0).val / 512) + 24, Blocks.lastPt_lt _ hi0⟩, ?_, ?_⟩
  · refine (flush0_4 _).mpr ?_
    show (25 * ((i 0).val / 512) + 24) % 25 = 24
    omega
  · obtain ⟨e0, e1⟩ := Blocks.idx_o ⟨25 * ((i 0).val / 512) + 24, Blocks.lastPt_lt _ hi0⟩
    have e0' : win0_4.index ⟨25 * ((i 0).val / 512) + 24, Blocks.lastPt_lt _ hi0⟩ (0 : Fin 2) = (i 0).val / 512 := by
      rw [e0]; show (25 * ((i 0).val / 512) + 24) / 25 = (i 0).val / 512; omega
    rw [Blocks.mem_oblk]
    intro a
    match a with
    | ⟨0, _⟩ =>
      show win0_4.index _ (0 : Fin 2) * 512 ≤ (i 0).val ∧ (i 0).val < win0_4.index _ (0 : Fin 2) * 512 + 512
      rw [e0']; omega
    | ⟨1, _⟩ =>
      show win0_4.index _ (1 : Fin 2) * 1 ≤ (i 1).val ∧ (i 1).val < win0_4.index _ (1 : Fin 2) * 1 + 1
      rw [e1]; omega

/-- The region's output array is the array the write-backs assemble. -/
theorem Blocks.kout_eq (c : Dev nD) : kout (F := Ideal) m c = Blocks.outArr m c :=
  (dats (F := Ideal) m 0 c).arrAt_eq_of_cover 4 (Blocks.outArr m c) (fun t hf => Blocks.flushed_out m c t hf) Blocks.cover_out

/-- Row R of the region's output array is row R % 512 of the output block of the last point of row tile R / 512. -/
theorem kout_apply (c : Dev nD) (R : Fin 8192) (hlt : 25 * (R.val / 512) + 24 < cfg0.N) :
    kout (F := Ideal) m c (ix2 R (0 : Fin 1))
      = (outsAt0 m c (25 * (R.val / 512) + 24) hlt).1 (ix2 (⟨R.val % 512, Nat.mod_lt _ (by norm_num)⟩ : Fin 512) (0 : Fin 1)) := by
  rw [Blocks.kout_eq]
  unfold Blocks.outArr
  exact Blocks.outs_congr m c _ _ _ _ rfl _ _ rfl

end Cert.KernelIdeal.Hand

end
-- ==== Proof.HandKernelIdeal.PayIdx.lean ====
/-
  One step of the sweep read at a row, over the extended reals.  With the tile's logits
      tileLogit r k = (∑ h, x0[r,h] · x1[k,h]) + x2[0,k]
  the new maximum of row r is max (old maximum) (max over k of tileLogit r k); the new sum is
  exp (old maximum − new maximum) · (old sum) + ∑ k, exp (tileLogit r k − new maximum); the new label entry is the old
  one plus the tile's logit at the one column, if any, whose vocabulary index j·1280 + k is the row's label; the reset
  values are −∞, 0, 0; the output is label entry − (maximum + log sum).
-/
import proofs.«403262_j18391049961623_3_alg».proof.Proof.HandKernelIdeal.Step
import proofs.«403262_j18391049961623_3_alg».proof.Proof.Shared
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The logits of one tile: row r of the row block against row k of the vocabulary block, plus the bias. -/
def tileLogit (x0 : Vec Ideal S512x4096 .bf16) (x1 : Vec Ideal S1280x4096 .bf16) (x2 : Vec Ideal S1x1280 .f32)
    (r : Fin 512) (k : Fin 1280) : EReal :=
  (∑ h : Fin 4096, x0 (ix2 r h) * x1 (ix2 k h)) + x2 (ix2 (0 : Fin 1) k)

/-! ## Layout operations on a column -/

section Layout
variable {α : Type}

/-- A length-a vector cast to an [a, 1] column reads, at (i, u), the vector at i: both indices have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (i, c), the column's entry of row i. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Layout

/-! ## Reductions along the lanes of a [512, 1280] tile -/

/-- The source index over row r with lane k. -/
theorem lift_ix1 (h : S512x1280.Reduces [1] S512) (r : Fin 512) (k : Fin 1280) : h.lift (ix1 r) k = ix2 r k := by
  funext c
  match c with
  | ⟨0, _⟩ => exact Fin.ext rfl
  | ⟨1, _⟩ => exact Fin.ext rfl

/-- The lane sum of a tile at row r is the sum over the 1280 lanes. -/
theorem laneSum_apply (src : FVec Ideal S512x1280 .f32) (h : S512x1280.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ k : Fin 1280, src (ix2 r k) :=
  (Ideal.multiReduction_add_single src 0x00000000#32 h hφ hacc (ix1 r)).trans
    (Finset.sum_congr rfl fun k _ => congrArg src (lift_ix1 h r k))

/-- The bit pattern 0xFF800000 is −∞. -/
theorem ofBits_neg_inf_f32 : Ideal.ofBits .f32 0xFF800000#32 = ⊥ := by simp [Ideal.ofBits, Ideal.ieee]

/-- The lane maximum of a tile at row r is the supremum over the 1280 lanes (the fold of max from −∞). -/
theorem laneMax_apply (src : FVec Ideal S512x1280 .f32) (h : S512x1280.Reduces [1] S512) (hφ : FKind.Formats .f32)
    (hacc : (0xFF800000#32 : BitVec 32) = FKind.maximumf.neutral .f32 hφ) (r : Fin 512) :
    multiReduction (F := Ideal) .maximumf [1] S512 src 0xFF800000#32 h hφ hacc (ix1 r) = Finset.univ.sup fun k : Fin 1280 => src (ix2 r k) := by
  refine (Ideal.multiReduction_maximumf_single src 0xFF800000#32 h hφ hacc (ix1 r)).trans ?_
  have e : (src ∘ h.lift (ix1 r)) = fun k : Fin 1280 => src (ix2 r k) := funext fun k => congrArg src (lift_ix1 h r k)
  rw [e]
  show (Finset.univ : Finset (Fin 1280)).fold max (Ideal.ofBits .f32 0xFF800000#32) _ = _
  rw [ofBits_neg_inf_f32]
  rfl

/-! ## The tile's matrix product -/

/-- Row axis of the left operand: the output's row. -/
theorem lhs_dot_0 (j : S512x1280.Idx) (k : dot_S512x4096_S1280x4096_S512x1280_1_1_0_0_n_n.contr.Idx) :
    (dot_S512x4096_S1280x4096_S512x1280_1_1_0_0_n_n.lhsIdx j k 0).val = (j 0).val := by
  unfold DotDims.lhsIdx
  rw [dif_neg (show ¬(0 : Fin S512x4096.rank) ∈ dot_S512x4096_S1280x4096_S512x1280_1_1_0_0_n_n.lhsBatch by decide),
    dif_pos (show (0 : Fin S512x4096.rank) ∈ dot_S512x4096_S1280x4096_S512x1280_1_1_0_0_n_n.lhsNonContracting by decide)]
  rfl

/-- Hidden axis of the left operand: the contraction position. -/
theorem lhs_dot_1 (j : S512x1280.Idx) (k : dot_S512x4096_S1280x4096_S512x1280_1_1_0_0_n_n.contr.Idx) :
    (dot_S512x4096_S1280x4096_S512x1280_1_1_0_0_n_n.lhsIdx j k 1).val = (k ⟨0, by decide⟩).val :=
  dot_S512x4096_S1280x4096_S512x1280_1_1_0_0_n_n.lhsIdx_val_of_single (cl := 1) rfl j k

/-- Row axis of the right operand: the output's column. -/
theorem rhs_dot_0 (j : S512x1280.Idx) (k : dot_S512x4096_S1280x4096_S512x1280_1_1_0_0_n_n.contr.Idx) :
    (dot_S512x4096_S1280x4096_S512x1280_1_1_0_0_n_n.rhsIdx j k 0).val = (j 1).val := by
  unfold DotDims.rhsIdx
  rw [dif_neg (show ¬(0 : Fin S1280x4096.rank) ∈ dot_S512x4096_S1280x4096_S512x1280_1_1_0_0_n_n.rhsBatch by decide),
    dif_pos (show (0 : Fin S1280x4096.rank) ∈ dot_S512x4096_S1280x4096_S512x1280_1_1_0_0_n_n.rhsNonContracting by decide)]
  rfl

/-- Hidden axis of the right operand: the contraction position. -/
theorem rhs_dot_1 (j : S512x1280.Idx) (k : dot_S512x4096_S1280x4096_S512x1280_1_1_0_0_n_n.contr.Idx) :
    (dot_S512x4096_S1280x4096_S512x1280_1_1_0_0_n_n.rhsIdx j k 1).val = (k ⟨0, by decide⟩).val :=
  dot_S512x4096_S1280x4096_S512x1280_1_1_0_0_n_n.rhsIdx_val_of_single (cr := 1) rfl j k

/-- The product of a [512, 4096] block with the transpose of a [1280, 4096] block, into a zero accumulator, at (r, k):
    the sum over the hidden axis of the products of row r of the first and row k of the second. -/
theorem tileDot_apply (a : FVec Ideal S512x4096 .bf16) (b : FVec Ideal S1280x4096 .bf16) (r : Fin 512) (k : Fin 1280) :
    matmul (F := Ideal) dot_S512x4096_S1280x4096_S512x1280_1_1_0_0_n_n none a b (constant (F := Ideal) S512x1280 .f32 0x00000000#32) (ix2 r k)
      = ∑ h : Fin 4096, a (ix2 r h) * b (ix2 k h) := by
  refine (Ideal.matmul_constant_zero_apply dot_S512x4096_S1280x4096_S512x1280_1_1_0_0_n_n none a b (ix2 r k)).trans ?_
  rw [← Equiv.sum_comp (contrEquiv1 dot_S512x4096_S1280x4096_S512x1280_1_1_0_0_n_n 4096 rfl rfl).symm]
  refine Finset.sum_congr rfl fun h _ => ?_
  have el : dot_S512x4096_S1280x4096_S512x1280_1_1_0_0_n_n.lhsIdx (ix2 r k)
      ((contrEquiv1 dot_S512x4096_S1280x4096_S512x1280_1_1_0_0_n_n 4096 rfl rfl).symm h) = ix2 r h := by
    funext ax
    refine Fin.ext ?_
    match ax with
    | ⟨0, _⟩ => exact lhs_dot_0 _ _
    | ⟨1, _⟩ => exact (lhs_dot_1 _ _).trans (contrEquiv1_symm_val _ _ _ _ h)
  have er : dot_S512x4096_S1280x4096_S512x1280_1_1_0_0_n_n.rhsIdx (ix2 r k)
      ((contrEquiv1 dot_S512x4096_S1280x4096_S512x1280_1_1_0_0_n_n 4096 rfl rfl).symm h) = ix2 k h := by
    funext ax
    refine Fin.ext ?_
    match ax with
    | ⟨0, _⟩ => exact rhs_dot_0 _ _
    | ⟨1, _⟩ => exact (rhs_dot_1 _ _).trans (contrEquiv1_symm_val _ _ _ _ h)
  rw [el, er]

/-! ## The payloads at a row -/

section Payloads
variable (x0 : Vec Ideal S512x4096 .bf16) (x1 : Vec Ideal S1280x4096 .bf16) (x2 : Vec Ideal S1x1280 .f32)

/-- The tile's logits at (r, k): the matrix product plus the bias row. -/
theorem pay6_apply (r : Fin 512) (k : Fin 1280) : k0_pay6 (F := Ideal) x0 x1 x2 (ix2 r k) = tileLogit x0 x1 x2 r k := by
  unfold k0_pay6 tileLogit
  refine (addf_apply _ _ _).trans ?_
  refine congrArg₂ (· + ·) ?_ ?_
  · rw [shapeCast_self, shapeCast_self]
    exact tileDot_apply x0 x1 r k
  · refine (broadcastTo_1b_ab_apply _ _ r k).trans ?_
    rw [shapeCast_self]

/-- The new maximum at row r: the larger of the old one and the supremum of the row's logits. -/
theorem pay7_apply (old : Vec Ideal S512x1 .f32) (r : Fin 512) :
    k0_pay7 (F := Ideal) x0 x1 x2 old (ix2 r (0 : Fin 1))
      = max (old (ix2 r (0 : Fin 1))) (Finset.univ.sup fun k : Fin 1280 => tileLogit x0 x1 x2 r k) := by
  unfold k0_pay7
  refine (maximumf_apply _ _ _).trans ?_
  refine congrArg (max (old (ix2 r (0 : Fin 1)))) ?_
  refine (shapeCast_a_a1_apply _ _ r 0).trans ?_
  refine (laneMax_apply _ _ _ _ r).trans ?_
  exact congrArg (Finset.univ.sup) (funext fun k => pay6_apply x0 x1 x2 r k)

/-- The stored maximum is the new maximum. -/
theorem pay9_apply (old : Vec Ideal S512x1 .f32) (r : Fin 512) :
    k0_pay9 (F := Ideal) x0 x1 x2 old (ix2 r (0 : Fin 1)) = k0_pay7 (F := Ideal) x0 x1 x2 old (ix2 r (0 : Fin 1)) := by
  unfold k0_pay9
  rw [shapeCast_self]

/-- The new sum at row r: the old sum rescaled by exp (old maximum − new maximum), plus the sum over the row of
    exp (logit − new maximum). -/
theorem pay8_apply (v14 v16 v22 : Vec Ideal S512x1 .f32) (r : Fin 512) :
    k0_pay8 (F := Ideal) x0 x1 x2 v14 v16 v22 (ix2 r (0 : Fin 1))
      = Ideal.exp (v16 (ix2 r (0 : Fin 1)) - k0_pay7 (F := Ideal) x0 x1 x2 v14 (ix2 r (0 : Fin 1))) * v22 (ix2 r (0 : Fin 1))
        + ∑ k : Fin 1280, Ideal.exp (tileLogit x0 x1 x2 r k - k0_pay7 (F := Ideal) x0 x1 x2 v14 (ix2 r (0 : Fin 1))) := by
  unfold k0_pay8
  rw [shapeCast_self]
  refine (addf_apply _ _ _).trans ?_
  refine congrArg₂ (· + ·) rfl ?_
  refine (shapeCast_a_a1_apply _ _ r 0).trans ?_
  refine (laneSum_apply _ _ _ _ r).trans ?_
  refine Finset.sum_congr rfl fun k _ => ?_
  show Ideal.exp (k0_pay6 (F := Ideal) x0 x1 x2 (ix2 r k) - broadcastTo S512x1280 (k0_pay7 (F := Ideal) x0 x1 x2 v14) _ (ix2 r k)) = _
  rw [pay6_apply, broadcastTo_a1_ab_apply]

end Payloads

/-! ## The label's column -/

/-- An equality test of words is 1 exactly when the words are equal. -/
theorem cmpi_eq_one_iff {w : Nat} (x y : BitVec w) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h1 => absurd h1 (by decide), fun h1 => absurd h1 h⟩

/-- For a tile number j below 25 and a lane k below 1280 the word j · 1280 + k does not wrap, so it equals a word w
    exactly when the number j · 1280 + k is w's value. -/
theorem label_word_iff (j : Nat) (hj : j < 25) (k : Fin 1280) (w : BitVec 32) :
    (BitVec.ofNat 32 j * 1280#32 + BitVec.ofNat 32 k.val = w) ↔ j * 1280 + k.val = w.toNat := by
  have hk := k.isLt
  have e : (BitVec.ofNat 32 j * 1280#32 + BitVec.ofNat 32 k.val).toNat = j * 1280 + k.val := by
    rw [BitVec.toNat_add, BitVec.toNat_mul, BitVec.toNat_ofNat, BitVec.toNat_ofNat, BitVec.toNat_ofNat]
    omega
  constructor
  · intro h; rw [← h, e]
  · intro h; exact BitVec.eq_of_toNat_eq (e.trans h)

/-- The new label entry at row r: the old one plus the tile's value at the one lane, if any, whose vocabulary index
    j · 1280 + k is the row's label. -/
theorem pay1_apply (j : Nat) (hj : j < 25) (v11 : FVec Ideal S512x1280 .f32) (x3 : IVec S512x1 32) (old : Vec Ideal S512x1 .f32)
    (r : Fin 512) :
    k0_pay1 (F := Ideal) (BitVec.ofNat 32 j) v11 1280#32 x3 old (ix2 r (0 : Fin 1))
      = old (ix2 r (0 : Fin 1))
        + ∑ k : Fin 1280, (if j * 1280 + k.val = (x3 (ix2 r (0 : Fin 1))).toNat then v11 (ix2 r k) else 0) := by
  unfold k0_pay1
  rw [shapeCast_self]
  refine (addf_apply _ _ _).trans ?_
  refine congrArg₂ (· + ·) rfl ?_
  refine (shapeCast_a_a1_apply _ _ r 0).trans ?_
  refine (laneSum_apply _ _ _ _ r).trans ?_
  refine Finset.sum_congr rfl fun k _ => ?_
  refine (select_apply _ _ _ _).trans ?_
  show (if IntOp.cmpi .eq (BitVec.ofNat 32 j * 1280#32 + BitVec.ofNat 32 (0 * 1280 + k.val))
      (broadcastTo S512x1280 (shapeCast S512x1 x3 shapeCasts_S512x1_S512x1) broadcasts_S512x1_S512x1280 (ix2 r k)) = 1#1
    then v11 (ix2 r k) else Ideal.ofBits .f32 0x00000000#32) = _
  rw [broadcastTo_a1_ab_apply, shapeCast_self, Ideal.ofBits_zero_f32, Nat.zero_mul, Nat.zero_add]
  exact if_congr ((cmpi_eq_one_iff _ _).trans (label_word_iff j hj k _)) rfl rfl

/-! ## The reset values and the output -/

theorem pay3_apply (r : Fin 512) : k0_pay3 (F := Ideal) (ix2 r (0 : Fin 1)) = ⊥ := by
  unfold k0_pay3
  rw [shapeCast_self]
  exact ofBits_neg_inf_f32

theorem pay4_apply (r : Fin 512) : k0_pay4 (F := Ideal) (ix2 r (0 : Fin 1)) = 0 := by
  unfold k0_pay4
  rw [shapeCast_self]
  exact Ideal.ofBits_zero_f32

theorem pay5_apply (r : Fin 512) : k0_pay5 (F := Ideal) (ix2 r (0 : Fin 1)) = 0 := by
  unfold k0_pay5
  rw [shapeCast_self]
  exact Ideal.ofBits_zero_f32

variable (x0 : Vec Ideal S512x4096 .bf16) (x1 : Vec Ideal S1280x4096 .bf16) (x2 : Vec Ideal S1x1280 .f32) (x3 : IVec S512x1 32)

theorem stepSc_M (vi : BitVec 32) (p : Vec Ideal S512x1 .f32 × Vec Ideal S512x1 .f32 × Vec Ideal S512x1 .f32) (r : Fin 512) :
    (stepSc (F := Ideal) x0 x1 x2 x3 vi p).1 (ix2 r (0 : Fin 1))
      = max (p.1 (ix2 r (0 : Fin 1))) (Finset.univ.sup fun k : Fin 1280 => tileLogit x0 x1 x2 r k) := by
  unfold stepSc
  exact (pay9_apply x0 x1 x2 p.1 r).trans (pay7_apply x0 x1 x2 p.1 r)

theorem stepSc_L (vi : BitVec 32) (p : Vec Ideal S512x1 .f32 × Vec Ideal S512x1 .f32 × Vec Ideal S512x1 .f32) (r : Fin 512) :
    (stepSc (F := Ideal) x0 x1 x2 x3 vi p).2.1 (ix2 r (0 : Fin 1))
      = Ideal.exp (p.1 (ix2 r (0 : Fin 1)) - (stepSc (F := Ideal) x0 x1 x2 x3 vi p).1 (ix2 r (0 : Fin 1))) * p.2.1 (ix2 r (0 : Fin 1))
        + ∑ k : Fin 1280, Ideal.exp (tileLogit x0 x1 x2 r k - (stepSc (F := Ideal) x0 x1 x2 x3 vi p).1 (ix2 r (0 : Fin 1))) := by
  unfold stepSc
  dsimp only
  rw [pay9_apply]
  exact pay8_apply x0 x1 x2 p.1 p.1 p.2.1 r

theorem stepSc_T (j : Nat) (hj : j < 25) (p : Vec Ideal S512x1 .f32 × Vec Ideal S512x1 .f32 × Vec Ideal S512x1 .f32) (r : Fin 512) :
    (stepSc (F := Ideal) x0 x1 x2 x3 (BitVec.ofNat 32 j) p).2.2 (ix2 r (0 : Fin 1))
      = p.2.2 (ix2 r (0 : Fin 1))
        + ∑ k : Fin 1280, (if j * 1280 + k.val = (x3 (ix2 r (0 : Fin 1))).toNat then tileLogit x0 x1 x2 r k else 0) := by
  unfold stepSc
  refine (pay1_apply j hj (k0_pay6 (F := Ideal) x0 x1 x2) x3 p.2.2 r).trans ?_
  refine congrArg₂ (· + ·) rfl (Finset.sum_congr rfl fun k _ => ?_)
  rw [pay6_apply]

theorem resetSc_M (r : Fin 512) : (resetSc (F := Ideal)).1 (ix2 r (0 : Fin 1)) = ⊥ := pay3_apply r
theorem resetSc_L (r : Fin 512) : (resetSc (F := Ideal)).2.1 (ix2 r (0 : Fin 1)) = 0 := pay4_apply r
theorem resetSc_T (r : Fin 512) : (resetSc (F := Ideal)).2.2 (ix2 r (0 : Fin 1)) = 0 := pay5_apply r

theorem outOf_apply (s : Vec Ideal S512x1 .f32 × Vec Ideal S512x1 .f32 × Vec Ideal S512x1 .f32) (r : Fin 512) :
    outOf (F := Ideal) s (ix2 r (0 : Fin 1)) = s.2.2 (ix2 r (0 : Fin 1)) - (s.1 (ix2 r (0 : Fin 1)) + Ideal.log (s.2.1 (ix2 r (0 : Fin 1)))) := by
  unfold outOf k0_pay2
  rfl

end Cert.KernelIdeal.Hand

end
-- ==== Proof.Math.lean ====
/-
  A row of 32000 logits swept in 25 tiles of 1280 columns, keeping a running maximum, a running sum of
  exponentials rescaled to the current maximum, and a running sum of the entry at a label: after the last
  tile these are the row's maximum, its sum of exp (ℓ v − max ℓ), and the entry at the label.
-/
import proofs.«403262_j18391049961623_3_alg».proof.Proof.Shared
import Mathlib.Data.EReal.Operations
import Mathlib.Data.Finset.Lattice.Fold
import Mathlib.Algebra.BigOperators.Group.Finset.Basic
import Mathlib.Algebra.Order.BigOperators.Group.Finset
import Mathlib.Analysis.SpecialFunctions.Exp
import Mathlib.Analysis.SpecialFunctions.Log.Basic

noncomputable section

namespace Cert.Shared

open Idealize.ShloMosaic

def tiles (ℓ : Fin 32000 → EReal) (j : Nat) (k : Fin 1280) : EReal := ℓ ⟨(j * 1280 + k.val) % 32000, Nat.mod_lt _ (by norm_num)⟩

def onM (ℓt : Nat → Fin 1280 → EReal) : Nat → EReal
  | 0 => ⊥
  | j+1 => max (onM ℓt j) (Finset.univ.sup (ℓt j))

def onL (ℓt : Nat → Fin 1280 → EReal) : Nat → EReal
  | 0 => 0
  | j+1 => Ideal.exp (onM ℓt j - onM ℓt (j+1)) * onL ℓt j + ∑ k : Fin 1280, Ideal.exp (ℓt j k - onM ℓt (j+1))

def onT (ℓt : Nat → Fin 1280 → EReal) (tg : Nat) : Nat → EReal
  | 0 => 0
  | j+1 => onT ℓt tg j + ∑ k : Fin 1280, (if j * 1280 + k.val = tg then ℓt j k else 0)

/-! ## The columns of a tile, and the columns seen after n tiles -/

/-- Column k of tile j, as a column of the row. -/
def emb (j : Nat) (k : Fin 1280) : Fin 32000 := ⟨(j * 1280 + k.val) % 32000, Nat.mod_lt _ (by norm_num)⟩

theorem tiles_eq (ℓ : Fin 32000 → EReal) (j : Nat) (k : Fin 1280) : tiles ℓ j k = ℓ (emb j k) := rfl

/-- For one of the 25 tiles the reduction modulo 32000 does nothing: j · 1280 + k < 32000. -/
theorem emb_val {j : Nat} (hj : j < 25) (k : Fin 1280) : (emb j k).val = j * 1280 + k.val := by
  have hk := k.isLt
  show (j * 1280 + k.val) % 32000 = j * 1280 + k.val
  exact Nat.mod_eq_of_lt (by omega)

theorem emb_inj {j : Nat} (hj : j < 25) : Function.Injective (emb j) := by
  intro a b h
  have h' := congrArg Fin.val h
  rw [emb_val hj, emb_val hj] at h'
  exact Fin.ext (by omega)

/-- The columns before tile n: those below n · 1280. -/
def pre (n : Nat) : Finset (Fin 32000) := Finset.univ.filter (fun v => v.val < n * 1280)

/-- The columns of tile n. -/
def blk (n : Nat) : Finset (Fin 32000) := Finset.univ.image (emb n)

theorem mem_pre (n : Nat) (v : Fin 32000) : v ∈ pre n ↔ v.val < n * 1280 := by
  simp only [pre, Finset.mem_filter, Finset.mem_univ, true_and]

theorem mem_blk {n : Nat} (hn : n < 25) (v : Fin 32000) : v ∈ blk n ↔ n * 1280 ≤ v.val ∧ v.val < (n + 1) * 1280 := by
  simp only [blk, Finset.mem_image, Finset.mem_univ, true_and]
  constructor
  · rintro ⟨k, rfl⟩
    have hk := k.isLt
    rw [emb_val hn]
    omega
  · rintro ⟨h1, h2⟩
    refine ⟨⟨v.val - n * 1280, by omega⟩, Fin.ext ?_⟩
    rw [emb_val hn]
    show n * 1280 + (v.val - n * 1280) = v.val
    omega

theorem pre_zero : pre 0 = ∅ := by
  ext v
  rw [mem_pre]
  simp

theorem pre_succ {n : Nat} (hn : n < 25) : pre (n + 1) = pre n ∪ blk n := by
  ext v
  rw [Finset.mem_union, mem_pre, mem_pre, mem_blk hn]
  omega

theorem pre_disj {n : Nat} (hn : n < 25) : Disjoint (pre n) (blk n) := by
  rw [Finset.disjoint_left]
  intro v h1 h2
  rw [mem_pre] at h1
  rw [mem_blk hn] at h2
  omega

theorem pre_25 : pre 25 = Finset.univ := by
  ext v
  have hv := v.isLt
  rw [mem_pre]
  simp only [Finset.mem_univ, iff_true]
  omega

theorem pre_nonempty {n : Nat} (hn : 0 < n) : (pre n).Nonempty :=
  ⟨⟨0, by norm_num⟩, by rw [mem_pre]; show 0 < n * 1280; omega⟩

/-- A sum over the columns of tile n is the sum over the tile's 1280 positions. -/
theorem blk_sum {M : Type*} [AddCommMonoid M] {n : Nat} (hn : n < 25) (f : Fin 32000 → M) :
    ∑ v ∈ blk n, f v = ∑ k : Fin 1280, f (emb n k) :=
  Finset.sum_image (fun a _ b _ h => emb_inj hn h)

/-- A supremum over the columns of tile n is the supremum over the tile's 1280 positions. -/
theorem blk_sup (n : Nat) (f : Fin 32000 → EReal) :
    (blk n).sup f = Finset.univ.sup (fun k : Fin 1280 => f (emb n k)) :=
  Finset.sup_image _ _ _

/-! ## The running maximum -/

theorem onM_succ (ℓt : Nat → Fin 1280 → EReal) (j : Nat) :
    onM ℓt (j + 1) = max (onM ℓt j) (Finset.univ.sup (ℓt j)) := rfl

/-- After n tiles the running maximum is the supremum of the columns seen so far. -/
theorem onM_gen (ℓ : Fin 32000 → EReal) : ∀ n, n ≤ 25 → onM (tiles ℓ) n = (pre n).sup ℓ
  | 0, _ => by rw [pre_zero, Finset.sup_empty]; rfl
  | n + 1, hn => by
    have hn' : n < 25 := by omega
    rw [onM_succ, onM_gen ℓ n (by omega), pre_succ hn', Finset.sup_union, blk_sup]
    rfl

theorem onM_25 (ℓ : Fin 32000 → EReal) : onM (tiles ℓ) 25 = rowMax ℓ := by
  rw [onM_gen ℓ 25 le_rfl, pre_25]
  rfl

/-! ## The running entry at the label -/

theorem onT_succ (ℓt : Nat → Fin 1280 → EReal) (tg j : Nat) :
    onT ℓt tg (j + 1) = onT ℓt tg j + ∑ k : Fin 1280, (if j * 1280 + k.val = tg then ℓt j k else 0) := rfl

/-- After n tiles the running entry is the sum, over the columns seen so far, of the entry at the label. -/
theorem onT_gen (ℓ : Fin 32000 → EReal) (tg : Nat) :
    ∀ n, n ≤ 25 → onT (tiles ℓ) tg n = ∑ v ∈ pre n, (if v.val = tg then ℓ v else 0)
  | 0, _ => by rw [pre_zero, Finset.sum_empty]; rfl
  | n + 1, hn => by
    have hn' : n < 25 := by omega
    rw [onT_succ, onT_gen ℓ tg n (by omega), pre_succ hn', Finset.sum_union (pre_disj hn'), blk_sum hn']
    congr 1
    refine Finset.sum_congr rfl (fun k _ => ?_)
    rw [emb_val hn', tiles_eq]

theorem onT_25 (ℓ : Fin 32000 → EReal) (tg : Nat) :
    onT (tiles ℓ) tg 25 = if h : tg < 32000 then ℓ ⟨tg, h⟩ else 0 := by
  rw [onT_gen ℓ tg 25 le_rfl, pre_25]
  by_cases h : tg < 32000
  · rw [dif_pos h, Finset.sum_eq_single (⟨tg, h⟩ : Fin 32000)]
    · rw [if_pos rfl]
    · intro v _ hv
      rw [if_neg]
      intro hv'
      exact hv (Fin.ext hv')
    · intro hx
      exact absurd (Finset.mem_univ _) hx
  · rw [dif_neg h]
    refine Finset.sum_eq_zero (fun v _ => ?_)
    rw [if_neg]
    have hv := v.isLt
    omega

/-! ## Rows of real numbers -/

/-- The embedding of the reals in the extended reals carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum of a row of reals over a nonempty set of columns is one of them, so a real. -/
theorem sup_real (ℓ : Fin 32000 → EReal) (hℓ : ∀ v, ∃ r : ℝ, ℓ v = (r : EReal))
    {s : Finset (Fin 32000)} (hs : s.Nonempty) : ∃ m : ℝ, s.sup ℓ = (m : EReal) := by
  obtain ⟨i, _, hi⟩ := Finset.exists_mem_eq_sup s hs ℓ
  obtain ⟨r, hr⟩ := hℓ i
  exact ⟨r, hi.trans hr⟩

/-- Moving a sum of exponentials from the maximum m to the maximum m':
    exp (m − m') · ∑ exp (ℓ v − m) = ∑ exp (ℓ v − m'), because exp (m − m') · exp (x − m) = exp (x − m').
    Over no columns both sides are 0, whatever m is. -/
theorem rescale (ℓ : Fin 32000 → EReal) (hℓ : ∀ v, ∃ r : ℝ, ℓ v = (r : EReal)) (s : Finset (Fin 32000))
    (M M' : EReal) (hM : s.Nonempty → ∃ m : ℝ, M = (m : EReal)) (hM' : ∃ m' : ℝ, M' = (m' : EReal)) :
    Ideal.exp (M - M') * ∑ v ∈ s, Ideal.exp (ℓ v - M) = ∑ v ∈ s, Ideal.exp (ℓ v - M') := by
  rcases s.eq_empty_or_nonempty with rfl | hs
  · rw [Finset.sum_empty, Finset.sum_empty, mul_zero]
  · obtain ⟨m, rfl⟩ := hM hs
    obtain ⟨m', rfl⟩ := hM'
    choose r hr using hℓ
    simp only [hr, ← EReal.coe_sub, Ideal.exp_coe, ← coe_sum, ← EReal.coe_mul]
    congr 1
    rw [Finset.mul_sum]
    refine Finset.sum_congr rfl (fun v _ => ?_)
    rw [← Real.exp_add]
    congr 1
    ring

/-! ## The running sum of exponentials -/

theorem onL_succ (ℓt : Nat → Fin 1280 → EReal) (j : Nat) :
    onL ℓt (j + 1) = Ideal.exp (onM ℓt j - onM ℓt (j + 1)) * onL ℓt j
      + ∑ k : Fin 1280, Ideal.exp (ℓt j k - onM ℓt (j + 1)) := rfl

/-- After n tiles the running sum is the sum, over the columns seen so far, of exp (ℓ v − running maximum). -/
theorem onL_gen (ℓ : Fin 32000 → EReal) (hℓ : ∀ v, ∃ r : ℝ, ℓ v = (r : EReal)) :
    ∀ n, n ≤ 25 → onL (tiles ℓ) n = ∑ v ∈ pre n, Ideal.exp (ℓ v - onM (tiles ℓ) n)
  | 0, _ => by rw [pre_zero, Finset.sum_empty]; rfl
  | n + 1, hn => by
    have hn' : n < 25 := by omega
    have hM : (pre n).Nonempty → ∃ m : ℝ, onM (tiles ℓ) n = (m : EReal) := by
      intro hs
      rw [onM_gen ℓ n (by omega)]
      exact sup_real ℓ hℓ hs
    have hM' : ∃ m' : ℝ, onM (tiles ℓ) (n + 1) = (m' : EReal) := by
      rw [onM_gen ℓ (n + 1) hn]
      exact sup_real ℓ hℓ (pre_nonempty (Nat.succ_pos n))
    rw [onL_succ, onL_gen ℓ hℓ n (by omega), pre_succ hn', Finset.sum_union (pre_disj hn'), blk_sum hn',
      rescale ℓ hℓ (pre n) _ _ hM hM']
    rfl

theorem onL_25 (ℓ : Fin 32000 → EReal) (hℓ : ∀ v, ∃ r : ℝ, ℓ v = (r : EReal)) :
    onL (tiles ℓ) 25 = rowSum ℓ := by
  rw [onL_gen ℓ hℓ 25 le_rfl, pre_25, onM_25]
  rfl

/-! ## The row's maximum, sum and log-sum-exp are real numbers -/

theorem rowMax_real (ℓ : Fin 32000 → EReal) (hℓ : ∀ v, ∃ r : ℝ, ℓ v = (r : EReal)) :
    ∃ r : ℝ, rowMax ℓ = (r : EReal) :=
  sup_real ℓ hℓ ⟨⟨0, by norm_num⟩, Finset.mem_univ _⟩

/-- The sum of exp (ℓ v − max ℓ) over a row of reals is a finite sum of positive reals. -/
theorem rowSum_real_pos (ℓ : Fin 32000 → EReal) (hℓ : ∀ v, ∃ r : ℝ, ℓ v = (r : EReal)) :
    ∃ r : ℝ, 0 < r ∧ rowSum ℓ = (r : EReal) := by
  obtain ⟨m, hm⟩ := rowMax_real ℓ hℓ
  choose r hr using hℓ
  refine ⟨∑ v : Fin 32000, Real.exp (r v - m), ?_, ?_⟩
  · exact Finset.sum_pos (fun v _ => Real.exp_pos _) ⟨⟨0, by norm_num⟩, Finset.mem_univ _⟩
  · rw [rowSum, hm, coe_sum]
    refine Finset.sum_congr rfl (fun v _ => ?_)
    rw [hr, ← EReal.coe_sub, Ideal.exp_coe]

theorem rowLse_real (ℓ : Fin 32000 → EReal) (hℓ : ∀ v, ∃ r : ℝ, ℓ v = (r : EReal)) :
    ∃ r : ℝ, rowLse ℓ = (r : EReal) := by
  obtain ⟨m, hm⟩ := rowMax_real ℓ hℓ
  obtain ⟨s, hs, hs'⟩ := rowSum_real_pos ℓ hℓ
  refine ⟨m + Real.log s, ?_⟩
  rw [rowLse, hm, hs', Ideal.log_coe, if_neg (not_le.mpr hs), EReal.coe_add]

/-- (a − max) − log S = a − (max + log S) for real a, max and log S. -/
theorem sub_sub_lse (ℓ : Fin 32000 → EReal) (hℓ : ∀ v, ∃ r : ℝ, ℓ v = (r : EReal)) (a : EReal)
    (ha : ∃ r : ℝ, a = (r : EReal)) : (a - rowMax ℓ) - Ideal.log (rowSum ℓ) = a - rowLse ℓ := by
  obtain ⟨m, hm⟩ := rowMax_real ℓ hℓ
  obtain ⟨s, hs, hs'⟩ := rowSum_real_pos ℓ hℓ
  obtain ⟨x, rfl⟩ := ha
  rw [rowLse, hm, hs', Ideal.log_coe, if_neg (not_le.mpr hs), ← EReal.coe_sub, ← EReal.coe_sub, ← EReal.coe_add,
    ← EReal.coe_sub, sub_sub]

/-- A logit of real weights, activations and bias is a real number: a finite sum of products of reals, plus a real. -/
theorem logit_real (w : FVec Ideal S32000x4096 .f32) (x : FVec Ideal S8x1024x4096 .f32) (bias : FVec Ideal S32000 .f32)
    (hw : AllReal w) (hx : AllReal x) (hb : AllReal bias) (b : Fin 8) (t : Fin 1024) (v : Fin 32000) :
    ∃ r : ℝ, logit w x bias b t v = (r : EReal) := by
  have hw' : ∀ i, ∃ r : ℝ, w i = (r : EReal) := hw
  have hx' : ∀ i, ∃ r : ℝ, x i = (r : EReal) := hx
  have hb' : ∀ i, ∃ r : ℝ, bias i = (r : EReal) := hb
  choose wr hwr using hw'
  choose xr hxr using hx'
  choose br hbr using hb'
  refine ⟨(∑ h : Fin 4096, xr (ValueIdx.ix3 b t h) * wr (ValueIdx.ix2 v h)) + br (ValueIdx.ix1 v), ?_⟩
  have hs : ∑ h : Fin 4096, x (ValueIdx.ix3 b t h) * w (ValueIdx.ix2 v h)
      = ∑ h : Fin 4096, ((xr (ValueIdx.ix3 b t h) * wr (ValueIdx.ix2 v h) : ℝ) : EReal) :=
    Finset.sum_congr rfl (fun h _ => by rw [hxr, hwr, EReal.coe_mul])
  rw [logit, EReal.coe_add, coe_sum, hbr, hs]

end Cert.Shared

end
-- ==== Proof.HandKernelIdeal.Induct.lean ====
/-
  The region's output array is the specification.

  Fix a global row R = 512·I + r (row tile I, row r), token (R / 1024, R % 1024), with row of logits ℓ.  By induction on
  j < 25 the scratch buffers after point 25·I + j hold at row r the running maximum, the running rescaled sum and the
  running label entry of ℓ over its first j + 1 tiles: the first point of the row tile starts from the reset values
  −∞, 0, 0 and every later point from what the point before left, and a point's tile logits are ℓ's entries of that
  tile because the blocks are the argument arrays' entries.  After the 25th tile these are max ℓ, ∑ exp (ℓ − max ℓ) and
  ℓ at the label (0 for a label that is no vocabulary entry), so the output block's row is ℓ(label) − (max ℓ + log ∑ …);
  zeroed at the ignored tokens that is the specification's entry.
-/
import proofs.«403262_j18391049961623_3_alg».proof.Proof.HandKernelIdeal.Blocks
import proofs.«403262_j18391049961623_3_alg».proof.Proof.HandKernelIdeal.PayIdx
import proofs.«403262_j18391049961623_3_alg».proof.Proof.Math

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

open Cert.Shared

variable (m : (ℓ : Loc nD τ sig) → Buf (Elt Ideal) ℓ)

namespace Induct

/-! ## The row of logits and the label of a global row -/

/-- The row of logits of global row R, which is token (R / 1024, R % 1024). -/
def rowL (c : Dev nD) (R : Nat) : Fin 32000 → EReal :=
  logit ((m ((c.tc : Thread nD τ).loc main_arg0)) : FVec Ideal S32000x4096 .f32)
    ((m ((c.tc : Thread nD τ).loc main_arg1)) : FVec Ideal S8x1024x4096 .f32)
    ((m ((c.tc : Thread nD τ).loc main_arg3)) : FVec Ideal S32000 .f32) (bOf R) (tOf R)

/-- The label of global row R, read as a natural number. -/
def rowTg (c : Dev nD) (R : Nat) : Nat :=
  (((m ((c.tc : Thread nD τ).loc main_arg2)) : IVec S8x1024 32) (ix2 (bOf R) (tOf R))).toNat

/-- The scratch contents after a point do not depend on how the point's number is written. -/
theorem outsAt0_congr (c : Dev nD) {n n' : Nat} (e : n = n') (h : n < cfg0.N) (h' : n' < cfg0.N) :
    outsAt0 m c n h = outsAt0 m c n' h' := by
  subst e
  rfl

/-- The number of points: 16 row tiles of 25 vocabulary tiles. -/
theorem N_400 : cfg0.N = 400 := N_0

/-! ## A point's tile logits are the row's entries of that tile -/

/-- At point 25·I + j the logit of row r of the row block against column k of the vocabulary block is entry k of
    tile j of the row of logits of global row 512·I + r: the blocks are the argument arrays' entries. -/
theorem tileLogit_blocks (c : Dev nD) (I j : Nat) (h : 25 * I + j < cfg0.N) (hj : j < 25) (r : Fin 512) (k : Fin 1280) :
    tileLogit (xblk m c ⟨25 * I + j, h⟩) (wblk m c ⟨25 * I + j, h⟩) (bblk m c ⟨25 * I + j, h⟩) r k
      = tiles (rowL m c (512 * I + r.val)) j k := by
  have e1 : (25 * I + j) / 25 = I := by omega
  have e2 : (25 * I + j) % 25 = j := by omega
  unfold tileLogit
  rw [bblk_apply]
  simp only [xblk_apply, wblk_apply, e1, e2]
  rfl

/-! ## One point of the sweep, read at a row -/

/-- The scratch contents after point n: one step from the reset values when n starts a row tile, else from what
    point n − 1 left. -/
theorem sc_at (c : Dev nD) (n : Nat) (h : n < cfg0.N) :
    (outsAt0 m c n h).2 = stepSc (xblk m c ⟨n, h⟩) (wblk m c ⟨n, h⟩) (bblk m c ⟨n, h⟩) (tblk m c ⟨n, h⟩) (viOf ⟨n, h⟩)
      (if n % 25 = 0 then resetSc else (outsAt0 m c (n - 1) (Nat.lt_of_le_of_lt (Nat.sub_le _ _) h)).2) :=
  sc_rec m c ⟨n, h⟩

/-- The first point of row tile I steps from the reset values. -/
theorem sc_first (c : Dev nD) (I : Nat) (h : 25 * I + 0 < cfg0.N) :
    (outsAt0 m c (25 * I + 0) h).2
      = stepSc (xblk m c ⟨25 * I + 0, h⟩) (wblk m c ⟨25 * I + 0, h⟩) (bblk m c ⟨25 * I + 0, h⟩) (tblk m c ⟨25 * I + 0, h⟩)
          (viOf ⟨25 * I + 0, h⟩) resetSc := by
  have e := sc_at m c (25 * I + 0) h
  rw [if_pos (show (25 * I + 0) % 25 = 0 by omega)] at e
  exact e

/-- A later point of row tile I steps from what the point before left. -/
theorem sc_next (c : Dev nD) (I j : Nat) (hj : j + 1 < 25) (h : 25 * I + (j + 1) < cfg0.N) (h' : 25 * I + j < cfg0.N) :
    (outsAt0 m c (25 * I + (j + 1)) h).2
      = stepSc (xblk m c ⟨25 * I + (j + 1), h⟩) (wblk m c ⟨25 * I + (j + 1), h⟩) (bblk m c ⟨25 * I + (j + 1), h⟩)
          (tblk m c ⟨25 * I + (j + 1), h⟩) (viOf ⟨25 * I + (j + 1), h⟩) (outsAt0 m c (25 * I + j) h').2 := by
  have e := sc_at m c (25 * I + (j + 1)) h
  rw [if_neg (show ¬ (25 * I + (j + 1)) % 25 = 0 by omega)] at e
  rw [e, outsAt0_congr m c (show 25 * I + (j + 1) - 1 = 25 * I + j by omega) _ h']

/-- One point read at row r: from the previous three p, the new maximum is max (old maximum) (maximum of tile j of
    the row), the new sum is the old one rescaled to the new maximum plus the tile's exponentials, the new label entry
    is the old one plus the tile's entry at the label, if the label lies in tile j. -/
theorem point_row (c : Dev nD) (I j : Nat) (hj : j < 25) (h : 25 * I + j < cfg0.N) (r : Fin 512)
    (p : Vec Ideal S512x1 .f32 × Vec Ideal S512x1 .f32 × Vec Ideal S512x1 .f32)
    (hp : (outsAt0 m c (25 * I + j) h).2
      = stepSc (xblk m c ⟨25 * I + j, h⟩) (wblk m c ⟨25 * I + j, h⟩) (bblk m c ⟨25 * I + j, h⟩) (tblk m c ⟨25 * I + j, h⟩)
          (viOf ⟨25 * I + j, h⟩) p) :
    (outsAt0 m c (25 * I + j) h).2.1 (ix2 r (0 : Fin 1))
        = max (p.1 (ix2 r (0 : Fin 1))) (Finset.univ.sup (tiles (rowL m c (512 * I + r.val)) j))
    ∧ (outsAt0 m c (25 * I + j) h).2.2.1 (ix2 r (0 : Fin 1))
        = Ideal.exp (p.1 (ix2 r (0 : Fin 1)) - (outsAt0 m c (25 * I + j) h).2.1 (ix2 r (0 : Fin 1))) * p.2.1 (ix2 r (0 : Fin 1))
          + ∑ k : Fin 1280, Ideal.exp (tiles (rowL m c (512 * I + r.val)) j k - (outsAt0 m c (25 * I + j) h).2.1 (ix2 r (0 : Fin 1)))
    ∧ (outsAt0 m c (25 * I + j) h).2.2.2 (ix2 r (0 : Fin 1))
        = p.2.2 (ix2 r (0 : Fin 1))
          + ∑ k : Fin 1280, (if j * 1280 + k.val = rowTg m c (512 * I + r.val) then tiles (rowL m c (512 * I + r.val)) j k else 0) := by
  have hvi : viOf (⟨25 * I + j, h⟩ : Fin cfg0.N) = BitVec.ofNat 32 j := by
    rw [viOf_eq]
    show BitVec.ofNat 32 ((25 * I + j) % 25) = BitVec.ofNat 32 j
    rw [show (25 * I + j) % 25 = j by omega]
  have htg : ((tblk m c ⟨25 * I + j, h⟩ : IVec S512x1 32) (ix2 r (0 : Fin 1))).toNat = rowTg m c (512 * I + r.val) := by
    rw [tblk_apply]
    show (((m ((c.tc : Thread nD τ).loc main_arg2)) : IVec S8x1024 32)
      (ix2 (bOf (512 * ((25 * I + j) / 25) + r.val)) (tOf (512 * ((25 * I + j) / 25) + r.val)))).toNat = _
    rw [show (25 * I + j) / 25 = I by omega]
    rfl
  rw [hp]
  refine ⟨?_, ?_, ?_⟩
  · rw [stepSc_M]
    simp only [tileLogit_blocks m c I j h hj r]
  · rw [stepSc_L]
    simp only [tileLogit_blocks m c I j h hj r]
  · rw [hvi, stepSc_T _ _ _ _ j hj, htg]
    simp only [tileLogit_blocks m c I j h hj r]

/-! ## The invariant of the sweep -/

/-- After point 25·I + j the scratch buffers hold at row r the running maximum, the running rescaled sum and the
    running label entry of the row of logits over its first j + 1 tiles.  Induction on j: the first point steps from
    −∞, 0, 0, every later one from the values of the point before. -/
theorem sweep_inv (c : Dev nD) (I : Nat) (r : Fin 512) : ∀ (j : Nat), j < 25 → ∀ (h : 25 * I + j < cfg0.N),
    (outsAt0 m c (25 * I + j) h).2.1 (ix2 r (0 : Fin 1)) = onM (tiles (rowL m c (512 * I + r.val))) (j + 1)
    ∧ (outsAt0 m c (25 * I + j) h).2.2.1 (ix2 r (0 : Fin 1)) = onL (tiles (rowL m c (512 * I + r.val))) (j + 1)
    ∧ (outsAt0 m c (25 * I + j) h).2.2.2 (ix2 r (0 : Fin 1))
        = onT (tiles (rowL m c (512 * I + r.val))) (rowTg m c (512 * I + r.val)) (j + 1)
  | 0, hj, h => by
    obtain ⟨hM, hL, hT⟩ := point_row m c I 0 hj h r resetSc (sc_first m c I h)
    have hM' : (outsAt0 m c (25 * I + 0) h).2.1 (ix2 r (0 : Fin 1)) = onM (tiles (rowL m c (512 * I + r.val))) (0 + 1) := by
      rw [hM, resetSc_M]
      rfl
    refine ⟨hM', ?_, ?_⟩
    · rw [hL, hM', resetSc_M, resetSc_L]
      rfl
    · rw [hT, resetSc_T]
      rfl
  | j + 1, hj, h => by
    have h' : 25 * I + j < cfg0.N := by omega
    obtain ⟨iM, iL, iT⟩ := sweep_inv c I r j (by omega) h'
    obtain ⟨hM, hL, hT⟩ := point_row m c I (j + 1) hj h r (outsAt0 m c (25 * I + j) h').2 (sc_next m c I j hj h h')
    have hM' : (outsAt0 m c (25 * I + (j + 1)) h).2.1 (ix2 r (0 : Fin 1))
        = onM (tiles (rowL m c (512 * I + r.val))) (j + 1 + 1) := by
      rw [hM, iM]
      rfl
    refine ⟨hM', ?_, ?_⟩
    · rw [hL, hM', iM, iL]
      rfl
    · rw [hT, iT]
      rfl

/-! ## The output block's row after the last tile, and the output array's row -/

/-- After the 25th tile of row tile I the output block holds at row r the row's logit at the label (0 for a label
    that is no vocabulary entry) less the row's log-sum-exp: the three running quantities are then the row's maximum,
    its sum of exponentials and its entry at the label. -/
theorem out_row (c : Dev nD)
    (hw : AllReal ((m ((c.tc : Thread nD τ).loc main_arg0)) : FVec Ideal S32000x4096 .f32))
    (hx : AllReal ((m ((c.tc : Thread nD τ).loc main_arg1)) : FVec Ideal S8x1024x4096 .f32))
    (hb : AllReal ((m ((c.tc : Thread nD τ).loc main_arg3)) : FVec Ideal S32000 .f32))
    (I : Nat) (r : Fin 512) (h : 25 * I + 24 < cfg0.N) (R : Nat) (e : 512 * I + r.val = R) :
    (outsAt0 m c (25 * I + 24) h).1 (ix2 r (0 : Fin 1))
      = (if hh : rowTg m c R < 32000 then rowL m c R ⟨rowTg m c R, hh⟩ else 0) - rowLse (rowL m c R) := by
  subst e
  obtain ⟨iM, iL, iT⟩ := sweep_inv m c I r 24 (by norm_num) h
  have hreal : ∀ v, ∃ x : ℝ, rowL m c (512 * I + r.val) v = (x : EReal) := fun v => logit_real _ _ _ hw hx hb _ _ v
  have hout : (outsAt0 m c (25 * I + 24) h).1 = outOf (outsAt0 m c (25 * I + 24) h).2 :=
    out_last m c ⟨25 * I + 24, h⟩ (show (25 * I + 24) % 25 = 24 by omega)
  rw [hout, outOf_apply, iM, iL, iT]
  show onT (tiles (rowL m c (512 * I + r.val))) (rowTg m c (512 * I + r.val)) 25
      - (onM (tiles (rowL m c (512 * I + r.val))) 25 + Ideal.log (onL (tiles (rowL m c (512 * I + r.val))) 25)) = _
  rw [onT_25, onM_25, onL_25 _ hreal]
  rfl

/-- Row R of the region's output array: the logit at the label less the log-sum-exp, of the row of logits of R. -/
theorem kout_row (c : Dev nD)
    (hw : AllReal ((m ((c.tc : Thread nD τ).loc main_arg0)) : FVec Ideal S32000x4096 .f32))
    (hx : AllReal ((m ((c.tc : Thread nD τ).loc main_arg1)) : FVec Ideal S8x1024x4096 .f32))
    (hb : AllReal ((m ((c.tc : Thread nD τ).loc main_arg3)) : FVec Ideal S32000 .f32))
    (R : Fin 8192) :
    kout (F := Ideal) m c (ix2 R (0 : Fin 1))
      = (if hh : rowTg m c R.val < 32000 then rowL m c R.val ⟨rowTg m c R.val, hh⟩ else 0) - rowLse (rowL m c R.val) := by
  have hR := R.isLt
  have hN : cfg0.N = 400 := N_400
  have hlt : 25 * (R.val / 512) + 24 < cfg0.N := by omega
  rw [kout_apply m c R hlt]
  exact out_row m c hw hx hb (R.val / 512) ⟨R.val % 512, Nat.mod_lt _ (by norm_num)⟩ hlt R.val (Nat.div_add_mod R.val 512)

/-! ## The 8192 rows read as 8 sequences of 1024 positions -/

/-- Token (b, t) is row b · 1024 + t. -/
theorem cast_apply (c : Dev nD) (b : Fin 8) (t : Fin 1024) :
    shapeCast S8x1024 (kout (F := Ideal) m c) Facts₀.shapeCasts_S8192x1_S8x1024 (ix2 b t)
      = kout (F := Ideal) m c (ix2 (⟨b.val * 1024 + t.val, by omega⟩ : Fin 8192) (0 : Fin 1)) := by
  refine shapeCast_apply _ _ (ix2 b t) (ix2 (⟨b.val * 1024 + t.val, by omega⟩ : Fin 8192) (0 : Fin 1)) ?_
  rw [Shape.rowMajor_val_two, Shape.rowMajor_val_two]
  show (b.val * 1024 + t.val) * 1 + 0 = b.val * 1024 + t.val
  omega

theorem bOf_tok (b : Fin 8) (t : Fin 1024) : bOf (b.val * 1024 + t.val) = b := by
  apply Fin.ext
  show (b.val * 1024 + t.val) / 1024 % 8 = b.val
  omega

theorem tOf_tok (b : Fin 8) (t : Fin 1024) : tOf (b.val * 1024 + t.val) = t := by
  apply Fin.ext
  show (b.val * 1024 + t.val) % 1024 = t.val
  omega

/-- The output array at token (b, t): the token's logit at its label less the token's log-sum-exp. -/
theorem kout_tok (c : Dev nD)
    (hw : AllReal ((m ((c.tc : Thread nD τ).loc main_arg0)) : FVec Ideal S32000x4096 .f32))
    (hx : AllReal ((m ((c.tc : Thread nD τ).loc main_arg1)) : FVec Ideal S8x1024x4096 .f32))
    (hb : AllReal ((m ((c.tc : Thread nD τ).loc main_arg3)) : FVec Ideal S32000 .f32))
    (b : Fin 8) (t : Fin 1024) :
    shapeCast S8x1024 (kout (F := Ideal) m c) Facts₀.shapeCasts_S8192x1_S8x1024 (ix2 b t)
      = (if hh : (((m ((c.tc : Thread nD τ).loc main_arg2)) : IVec S8x1024 32) (ix2 b t)).toNat < 32000
          then logit (m ((c.tc : Thread nD τ).loc main_arg0)) (m ((c.tc : Thread nD τ).loc main_arg1)) (m ((c.tc : Thread nD τ).loc main_arg3)) b t
            ⟨(((m ((c.tc : Thread nD τ).loc main_arg2)) : IVec S8x1024 32) (ix2 b t)).toNat, hh⟩
          else 0)
        - rowLse (logit (m ((c.tc : Thread nD τ).loc main_arg0)) (m ((c.tc : Thread nD τ).loc main_arg1)) (m ((c.tc : Thread nD τ).loc main_arg3)) b t) := by
  rw [cast_apply, kout_row m c hw hx hb]
  unfold rowL rowTg
  show (if hh : (((m ((c.tc : Thread nD τ).loc main_arg2)) : IVec S8x1024 32) (ix2 (bOf (b.val * 1024 + t.val)) (tOf (b.val * 1024 + t.val)))).toNat < 32000
          then logit (m ((c.tc : Thread nD τ).loc main_arg0)) (m ((c.tc : Thread nD τ).loc main_arg1)) (m ((c.tc : Thread nD τ).loc main_arg3)) (bOf (b.val * 1024 + t.val)) (tOf (b.val * 1024 + t.val))
            ⟨(((m ((c.tc : Thread nD τ).loc main_arg2)) : IVec S8x1024 32) (ix2 (bOf (b.val * 1024 + t.val)) (tOf (b.val * 1024 + t.val)))).toNat, hh⟩
          else 0)
        - rowLse (logit (m ((c.tc : Thread nD τ).loc main_arg0)) (m ((c.tc : Thread nD τ).loc main_arg1)) (m ((c.tc : Thread nD τ).loc main_arg3)) (bOf (b.val * 1024 + t.val)) (tOf (b.val * 1024 + t.val))) = _
  rw [bOf_tok, tOf_tok]

/-! ## The ignored tokens zeroed -/

/-- A label that is not the ignore index passes the keep test … -/
theorem mask_kept {L : BitVec 32} (h : L ≠ 4294967196#32) : IntOp.cmpi .ne L 4294967196#32 = 1#1 := by
  show BitVec.ofBool (L != 4294967196#32) = 1#1
  rw [bne_iff_ne.mpr h]
  rfl

/-- … and the ignore index fails it. -/
theorem mask_ignored : IntOp.cmpi .ne (4294967196#32 : BitVec 32) 4294967196#32 = 0#1 := by decide

/-- The masked array at token (b, t): the entry times the keep bit read as a number. -/
theorem masked_at (p : FVec Ideal S8x1024 .f32) (tgt : IVec S8x1024 32) (b : Fin 8) (t : Fin 1024) :
    masked tailFacts p tgt (ix2 b t)
      = p (ix2 b t) * (((IntOp.cmpi .ne (tgt (ix2 b t)) 4294967196#32).toNat : ℝ) : EReal) := by
  unfold masked keep
  rw [mulf_apply]
  rfl

/-- The masked output array is the specification's entry, token by token: an ignored token is 0 on both sides
    (y · 0 = 0 for every extended real y), a kept one has a vocabulary entry for its label. -/
theorem masked_tok (c : Dev nD)
    (hw : AllReal ((m ((c.tc : Thread nD τ).loc main_arg0)) : FVec Ideal S32000x4096 .f32))
    (hx : AllReal ((m ((c.tc : Thread nD τ).loc main_arg1)) : FVec Ideal S8x1024x4096 .f32))
    (hb : AllReal ((m ((c.tc : Thread nD τ).loc main_arg3)) : FVec Ideal S32000 .f32))
    (ht : LabelsOk ((m ((c.tc : Thread nD τ).loc main_arg2)) : IVec S8x1024 32))
    (b : Fin 8) (t : Fin 1024) :
    masked tailFacts (shapeCast S8x1024 (kout (F := Ideal) m c) Facts₀.shapeCasts_S8192x1_S8x1024) (m ((c.tc : Thread nD τ).loc main_arg2)) (ix2 b t)
      = tokSpecAt (m ((c.tc : Thread nD τ).loc main_arg0)) (m ((c.tc : Thread nD τ).loc main_arg1)) (m ((c.tc : Thread nD τ).loc main_arg3)) (m ((c.tc : Thread nD τ).loc main_arg2)) b t := by
  unfold tokSpecAt
  rw [masked_at]
  by_cases h : ((m ((c.tc : Thread nD τ).loc main_arg2)) : IVec S8x1024 32) (ix2 b t) = 4294967196#32
  · rw [if_pos h, h, mask_ignored]
    simp
  · have hL : (((m ((c.tc : Thread nD τ).loc main_arg2)) : IVec S8x1024 32) (ix2 b t)).toNat < 32000 := (ht (ix2 b t)).resolve_left h
    rw [if_neg h, dif_pos hL, mask_kept h, kout_tok m c hw hx hb b t, dif_pos hL]
    simp

end Induct

/-- The masked per-token array read off the region's output array is the array of the specification's entries. -/
theorem kout_masked (c : Dev nD)
    (hw : AllReal ((m ((c.tc : Thread nD τ).loc main_arg0)) : FVec Ideal S32000x4096 .f32))
    (hx : AllReal ((m ((c.tc : Thread nD τ).loc main_arg1)) : FVec Ideal S8x1024x4096 .f32))
    (hb : AllReal ((m ((c.tc : Thread nD τ).loc main_arg3)) : FVec Ideal S32000 .f32))
    (ht : LabelsOk ((m ((c.tc : Thread nD τ).loc main_arg2)) : IVec S8x1024 32)) :
    masked tailFacts (shapeCast S8x1024 (kout (F := Ideal) m c) Facts₀.shapeCasts_S8192x1_S8x1024) (m ((c.tc : Thread nD τ).loc main_arg2))
      = tokSpec (m ((c.tc : Thread nD τ).loc main_arg0)) (m ((c.tc : Thread nD τ).loc main_arg1)) (m ((c.tc : Thread nD τ).loc main_arg3)) (m ((c.tc : Thread nD τ).loc main_arg2)) := by
  funext i
  rw [eq_ix2 i]
  exact Induct.masked_tok m c hw hx hb ht (i 0) (i 1)

end Cert.KernelIdeal.Hand

end
-- ==== Proof.RefTerm.lean ====
/-
  The reference's per-token log-probability as one term of its argument arrays: the logits
  (∑ h, x[b,t,h] · w[v,h]) + bias[v]; log-softmax along the vocabulary, which subtracts the row maximum M
  and then log ∑ exp (· − M); the labels with the ignore index replaced by 0; and the read of each token's
  row at its label (a negative label counted from the end, a label outside the row read as the junk value).
-/
import proofs.«403262_j18391049961623_3_alg».proof.ReferenceIdeal
import proofs.«403262_j18391049961623_3_alg».proof.Proof.Gen.ReferenceIdeal
import proofs.«403262_j18391049961623_3_alg».proof.Proof.Shared

noncomputable section

namespace Cert.ReferenceIdeal.RefTerm

open Idealize.ShloMosaic Cert.ReferenceIdeal Cert.ReferenceIdeal.Facts₀ Cert.ReferenceIdeal.Facts

variable {F : FTy → Type} [FloatOps F]

/-- The loss's shape relations, from the reference's stated facts. -/
theorem tailFacts : Cert.Shared.TailFacts :=
  ⟨bcast_S_S8x1024, reducesTo_S8x1024_S8_d1, h_S_, slices_S8_S4_0, slices_S8_S4_4, slices_S8x1024_S4x1024_0_0,
    natLt_1_32, reducesTo_S4x1024_S_d0_1, bcast_S_S4, reducesTo_S4_S_d0⟩

/-- logits[b,t,v] = (∑ h, x[b,t,h] · w[v,h]) + bias[v]. -/
def logits (w : FVec F S32000x4096 .f32) (x : FVec F S8x1024x4096 .f32) (bias : FVec F S32000 .f32) :
    FVec F S8x1024x32000 .f32 :=
  addf (Host.dotGeneral dot_S8x1024x4096_S32000x4096_S8x1024x32000_2_1_01_0_n_n none x w)
    (broadcastInDim S8x1024x32000 ![0, 1, 2] bcast_S1x1x32000_S8x1024x32000_0_1_2
      (broadcastInDim S1x1x32000 ![2] bcast_S32000_S1x1x32000_2 bias))

/-- The row maximum, joined with −∞. -/
def rowMaxOf (z : FVec F S8x1024x32000 .f32) : FVec F S8x1024 .f32 :=
  maximumf (broadcastInDim S8x1024 ![] bcast_S_S8x1024 (constant S_ .f32 0xFF800000#32))
    (Host.reduce FloatOps.maximumf z (constant S_ .f32 0xFF800000#32) reducesTo_S8x1024x32000_S8x1024_d2 h_S_)

/-- z − M, M the row maximum spread along the vocabulary. -/
def shifted (z : FVec F S8x1024x32000 .f32) : FVec F S8x1024x32000 .f32 :=
  subf z (broadcastInDim S8x1024x32000 ![0, 1, 2] bcast_S8x1024x1_S8x1024x32000_0_1_2
    (broadcastInDim S8x1024x1 ![0, 1] bcast_S8x1024_S8x1024x1_0_1 (rowMaxOf z)))

/-- log-softmax: (z − M) − log ∑ exp (z − M). -/
def logSoftmax (z : FVec F S8x1024x32000 .f32) : FVec F S8x1024x32000 .f32 :=
  subf (shifted z)
    (broadcastInDim S8x1024x32000 ![0, 1, 2] bcast_S8x1024x1_S8x1024x32000_0_1_2
      (Host.log (broadcastInDim S8x1024x1 ![0, 1] bcast_S8x1024_S8x1024x1_0_1
        (Host.reduceAdd (Host.exp (shifted z)) (constant S_ .f32 0x00000000#32) reducesTo_S8x1024x32000_S8x1024_d2 h_S_))))

/-- The labels with the ignore index −100 replaced by 0, one per token, as a column. -/
def labels (tgt : IVec S8x1024 32) : IVec S8x1024x1 32 :=
  broadcastInDim S8x1024x1 ![0, 1] bcast_S8x1024_S8x1024x1_0_1
    (select (cmpi .ne tgt (broadcastInDim S8x1024 ![] bcast_S_S8x1024 (constantI S_ 32 4294967196#32))) tgt
      (broadcastInDim S8x1024 ![] bcast_S_S8x1024 (id (constantI S_ 32 0#32))))

/-- The index actually read: a negative label has the row's length 32000 added. -/
def wrapped (i : IVec S8x1024x1 32) : IVec S8x1024x1x1 32 :=
  shapeCast S8x1024x1x1
    (select (cmpi .slt i (broadcastInDim S8x1024x1 ![] bcast_S_S8x1024x1 (constantI S_ 32 0#32)))
      (addi i (broadcastInDim S8x1024x1 ![] bcast_S_S8x1024x1 (constantI S_ 32 32000#32))) i)
    shapeCasts_S8x1024x1_S8x1024x1x1

/-- Whether the index read lies in the row: 0 ≤ · ≤ 31999. -/
def inRow (j : IVec S8x1024x1x1 32) : IVec S8x1024x1 1 :=
  Host.reduce IntOp.andi
    (andi (cmpi .sge j (broadcastInDim S8x1024x1x1 ![] bcast_S_S8x1024x1x1 (constantI S_ 32 0#32)))
      (cmpi .sle j (broadcastInDim S8x1024x1x1 ![0, 1, 2, 3] bcast_S1x1x1x1_S8x1024x1x1_0_1_2_3
        (broadcastInDim S1x1x1x1 ![3] bcast_S1_S1x1x1x1_3 (constantI S1 32 31999#32)))))
    (constantI S_ 1 1#1) reducesTo_S8x1024x1x1_S8x1024x1_d3 h_S_

/-- Each token's row read at its label; outside the row the junk value. -/
def takeAlong (a : FVec F S8x1024x32000 .f32) (i : IVec S8x1024x1 32) : FVec F S8x1024x1 .f32 :=
  select (inRow (wrapped i))
    (Host.gather gather_S8x1024x32000_S8x1024x1x1_S8x1024x1_n_2_01_01_2_3_111 a (wrapped i))
    (broadcastInDim S8x1024x1 ![] bcast_S_S8x1024x1 (constant S_ .f32 0x7FC00000#32))

/-- The per-token log-probability of the label, before the ignored tokens are zeroed. -/
def perTok (w : FVec F S32000x4096 .f32) (x : FVec F S8x1024x4096 .f32) (tgt : IVec S8x1024 32) (bias : FVec F S32000 .f32) :
    FVec F S8x1024 .f32 :=
  shapeCast S8x1024 (takeAlong (logSoftmax (logits w x bias)) (labels tgt)) shapeCasts_S8x1024x1_S8x1024

end Cert.ReferenceIdeal.RefTerm

end
-- ==== Proof.RefRun.lean ====
/-
  The run of the reference program.  Its @main is a straight line of tensor operations once the five calls it
  makes are replaced by the bodies of the called functions (log-softmax; the replacement of the ignore index;
  the read of each row at its label; log σ twice, each through softplus).  Listed in order they are 118
  operations; every weakly fair execution runs them to the end, each result buffer then holds the composed
  value of the operations that feed it, and no operation writes an argument.

  The composed value at the result is read off in five stretches, each from ARBITRARY contents of the buffers it
  reads, so that no stretch's equation carries the earlier stretches' terms inside it: the logits; their
  log-softmax; the labels with the ignore index replaced; the read of each row at its label; and the loss of
  the per-token values so read.  Chained, they give the loss function applied to the per-token
  log-probabilities with the ignored tokens zeroed.
-/
import proofs.«403262_j18391049961623_3_alg».proof.ReferenceIdeal
import proofs.«403262_j18391049961623_3_alg».proof.Proof.Gen.ReferenceIdeal
import proofs.«403262_j18391049961623_3_alg».proof.Proof.Shared
import proofs.«403262_j18391049961623_3_alg».proof.Proof.RefTerm
import proofs.«403262_j18391049961623_3_alg».proof.Proof.LibTypedRef
import Idealize.ShloMosaic.Lib.StableHlo.Run

noncomputable section

namespace Cert.ReferenceIdeal.RefRun

open Idealize.ShloMosaic Idealize.ShloMosaic.TcCoe Idealize.SL.Sem Idealize.ShloMosaic.StableHlo
open Cert.ReferenceIdeal Cert.ReferenceIdeal.Facts₀ Cert.ReferenceIdeal.Facts

variable {F : FTy → Type} [FloatOps F]

/-! ## The program as a line of operations -/

/-- @main's 118 operations in order, each call replaced by the called function's operations over that call's
    buffers: four for the logits; fifteen of log-softmax; the ignore-index test, the three of its replacement and
    the column of labels; twenty-two of the read along the vocabulary; twenty-one from the masking to the scaled
    difference of the two halves; sixteen of log σ; five; sixteen of log σ again; the last eleven. -/
abbrev ops : List (HloOp τ sig (Elt F)) :=
  [ binary main_arg1 main_arg0 main_v0 ((fun l r => Host.dotGeneral dot_S8x1024x4096_S32000x4096_S8x1024x32000_2_1_01_0_n_n none l r) : (⟨S8x1024x4096, .f32⟩ : BufTy).Contents (Elt F) → (⟨S32000x4096, .f32⟩ : BufTy).Contents (Elt F) → (⟨S8x1024x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x1024x32000 ![0, 1, 2] bcast_S1x1x32000_S8x1024x32000_0_1_2 : (⟨S1x1x32000, .f32⟩ : BufTy).Contents (Elt F) → (⟨S8x1024x32000, .f32⟩ : BufTy).Contents (Elt F)),
    binary main_v0 main_v2 main_v3 (addf : (⟨S8x1024x32000, .f32⟩ : BufTy).Contents (Elt F) → (⟨S8x1024x32000, .f32⟩ : BufTy).Contents (Elt F) → (⟨S8x1024x32000, .f32⟩ : BufTy).Contents (Elt F)),
    TRef.nullary main_call0.cst (constant S_ .f32 0xFF800000#32),
    TRef.binary (.of main_v3 : TRef sig ⟨S8x1024x32000, .f32⟩) main_call0.cst main_call0.v0 (fun x v => Host.reduce FloatOps.maximumf x v reducesTo_S8x1024x32000_S8x1024_d2 h_S_),
    TRef.nullary main_call0.cst_0 (constant S_ .f32 0xFF800000#32),
    TRef.unary main_call0.cst_0 main_call0.v1 (broadcastInDim S8x1024 ![] bcast_S_S8x1024),
    TRef.binary main_call0.v1 main_call0.v0 main_call0.v2 maximumf,
    TRef.unary main_call0.v2 main_call0.v3 (broadcastInDim S8x1024x1 ![0, 1] bcast_S8x1024_S8x1024x1_0_1),
    TRef.unary main_call0.v3 main_call0.v4 (broadcastInDim S8x1024x32000 ![0, 1, 2] bcast_S8x1024x1_S8x1024x32000_0_1_2),
    TRef.binary (.of main_v3 : TRef sig ⟨S8x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x1024x32000_S8x1024_d2 h_S_),
    TRef.unary main_call0.v7 main_call0.v8 (broadcastInDim S8x1024x1 ![0, 1] bcast_S8x1024_S8x1024x1_0_1),
    TRef.unary main_call0.v8 main_call0.v9 Host.log,
    TRef.unary main_call0.v9 main_call0.v10 (broadcastInDim S8x1024x32000 ![0, 1, 2] bcast_S8x1024x1_S8x1024x32000_0_1_2),
    TRef.binary main_call0.v5 main_call0.v10 main_call0.v11 subf,
    nullary main_c (constantI S_ 32 4294967196#32),
    unary main_c main_v5 (broadcastInDim S8x1024 ![] bcast_S_S8x1024 : (⟨S_, .i32⟩ : BufTy).Contents (Elt F) → (⟨S8x1024, .i32⟩ : BufTy).Contents (Elt F)),
    binary main_arg2 main_v5 main_v6 (cmpi .ne : (⟨S8x1024, .i32⟩ : BufTy).Contents (Elt F) → (⟨S8x1024, .i32⟩ : BufTy).Contents (Elt F) → (⟨S8x1024, .i1⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S8x1024 ![] bcast_S_S8x1024),
    TRef.ternary (.of main_v6 : TRef sig ⟨S8x1024, .i1⟩) (.of main_arg2 : TRef sig ⟨S8x1024, .i32⟩) main_call1.v1 main_call1.v2 select,
    unary main_v7 main_v8 (broadcastInDim S8x1024x1 ![0, 1] bcast_S8x1024_S8x1024x1_0_1 : (⟨S8x1024, .i32⟩ : BufTy).Contents (Elt F) → (⟨S8x1024x1, .i32⟩ : BufTy).Contents (Elt F)),
    TRef.nullary main_call2.c (constantI S_ 32 0#32),
    TRef.unary main_call2.c main_call2.v0 (broadcastInDim S8x1024x1 ![] bcast_S_S8x1024x1),
    TRef.binary (.of main_v8 : TRef sig ⟨S8x1024x1, .i32⟩) main_call2.v0 main_call2.v1 (cmpi .slt),
    TRef.nullary main_call2.c_0 (constantI S_ 32 32000#32),
    TRef.unary main_call2.c_0 main_call2.v2 (broadcastInDim S8x1024x1 ![] bcast_S_S8x1024x1),
    TRef.binary (.of main_v8 : TRef sig ⟨S8x1024x1, .i32⟩) main_call2.v2 main_call2.v3 addi,
    TRef.ternary main_call2.v1 main_call2.v3 (.of main_v8 : TRef sig ⟨S8x1024x1, .i32⟩) main_call2.v4 select,
    TRef.reshape main_call2.v4 main_call2.v5 rfl shapeCasts_S8x1024x1_S8x1024x1x1,
    TRef.nullary main_call2.c_1 (constantI S1 32 31999#32),
    TRef.nullary main_call2.c_2 (constantI S_ 32 0#32),
    TRef.unary main_call2.c_2 main_call2.v6 (broadcastInDim S8x1024x1x1 ![] bcast_S_S8x1024x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x1024x1x1 ![0, 1, 2, 3] bcast_S1x1x1x1_S8x1024x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x1024x1x1_S8x1024x1_d3 h_S_),
    TRef.binary (.of main_v4 : TRef sig ⟨S8x1024x32000, .f32⟩) main_call2.v5 main_call2.v13 (fun x i => Host.gather gather_S8x1024x32000_S8x1024x1x1_S8x1024x1_n_2_01_01_2_3_111 x i),
    TRef.nullary main_call2.cst (constant S_ .f32 0x7FC00000#32),
    TRef.unary main_call2.cst main_call2.v14 (broadcastInDim S8x1024x1 ![] bcast_S_S8x1024x1),
    TRef.ternary main_call2.v12 main_call2.v13 main_call2.v14 main_call2.v15 select,
    reshape main_v9 main_v10 rfl shapeCasts_S8x1024x1_S8x1024,
    unary main_v6 main_v11 (uitofp .f32 : (⟨S8x1024, .i1⟩ : BufTy).Contents (Elt F) → (⟨S8x1024, .f32⟩ : BufTy).Contents (Elt F)),
    binary main_v10 main_v11 main_v12 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v12 main_cst main_v13 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    unary main_v13 main_v14 ((extractStridedSlice S4 ![0] · slices_S8_S4_0) : (⟨S8, .f32⟩ : BufTy).Contents (Elt F) → (⟨S4, .f32⟩ : BufTy).Contents (Elt F)),
    unary main_v13 main_v15 ((extractStridedSlice S4 ![4] · slices_S8_S4_4) : (⟨S8, .f32⟩ : BufTy).Contents (Elt F) → (⟨S4, .f32⟩ : BufTy).Contents (Elt F)),
    unary main_v6 main_v16 ((extractStridedSlice S4x1024 ![0, 0] · slices_S8x1024_S4x1024_0_0) : (⟨S8x1024, .i1⟩ : BufTy).Contents (Elt F) → (⟨S4x1024, .i1⟩ : BufTy).Contents (Elt F)),
    unary main_v16 main_v17 ((extui 32 · natLt_1_32) : (⟨S4x1024, .i1⟩ : BufTy).Contents (Elt F) → (⟨S4x1024, .i32⟩ : BufTy).Contents (Elt F)),
    nullary main_c_1 (constantI S_ 32 0#32),
    binary main_v17 main_c_1 main_v18 ((fun x v => Host.reduce IntOp.addi x v reducesTo_S4x1024_S_d0_1 h_S_) : (⟨S4x1024, .i32⟩ : BufTy).Contents (Elt F) → (⟨S_, .i32⟩ : BufTy).Contents (Elt F) → (⟨S_, .i32⟩ : BufTy).Contents (Elt F)),
    unary main_v18 main_v19 (sitofp .f32 : (⟨S_, .i32⟩ : BufTy).Contents (Elt F) → (⟨S_, .f32⟩ : BufTy).Contents (Elt F)),
    unary main_v12 main_v20 ((extractStridedSlice S4x1024 ![0, 0] · slices_S8x1024_S4x1024_0_0) : (⟨S8x1024, .f32⟩ : BufTy).Contents (Elt F) → (⟨S4x1024, .f32⟩ : BufTy).Contents (Elt F)),
    nullary main_cst_2 (constant S_ .f32 0x00000000#32),
    binary main_v20 main_cst_2 main_v21 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    unary main_v21 main_v22 (Host.negf : (⟨S_, .f32⟩ : BufTy).Contents (Elt F) → (⟨S_, .f32⟩ : BufTy).Contents (Elt F)),
    binary main_v22 main_v19 main_v23 (Host.divf : (⟨S_, .f32⟩ : BufTy).Contents (Elt F) → (⟨S_, .f32⟩ : BufTy).Contents (Elt F) → (⟨S_, .f32⟩ : BufTy).Contents (Elt F)),
    binary main_v14 main_v15 main_v24 (subf : (⟨S4, .f32⟩ : BufTy).Contents (Elt F) → (⟨S4, .f32⟩ : BufTy).Contents (Elt F) → (⟨S4, .f32⟩ : BufTy).Contents (Elt F)),
    nullary main_cst_3 (constant S_ .f32 0x3DCCCCCD#32),
    unary main_cst_3 main_v25 (broadcastInDim S4 ![] bcast_S_S4 : (⟨S_, .f32⟩ : BufTy).Contents (Elt F) → (⟨S4, .f32⟩ : BufTy).Contents (Elt F)),
    binary main_v25 main_v24 main_v26 (mulf : (⟨S4, .f32⟩ : BufTy).Contents (Elt F) → (⟨S4, .f32⟩ : BufTy).Contents (Elt F) → (⟨S4, .f32⟩ : BufTy).Contents (Elt F)),
    TRef.unary (.of main_v26 : TRef sig ⟨S4, .f32⟩) main_call3.v0 Host.negf,
    TRef.nullary main_call3.call0.cst (constant S_ .f32 0x00000000#32),
    TRef.unary main_call3.call0.cst main_call3.call0.v0 (broadcastInDim S4 ![] bcast_S_S4),
    TRef.binary main_call3.v0 main_call3.call0.v0 main_call3.call0.v1 maximumf,
    TRef.unary main_call3.call0.cst main_call3.call0.v2 (broadcastInDim S4 ![] bcast_S_S4),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4 ![] bcast_S_S4),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    unary main_v27 main_v28 (Host.negf : (⟨S4, .f32⟩ : BufTy).Contents (Elt F) → (⟨S4, .f32⟩ : BufTy).Contents (Elt F)),
    nullary main_cst_4 (constant S_ .f32 0x3F800000#32),
    unary main_cst_4 main_v29 (broadcastInDim S4 ![] bcast_S_S4 : (⟨S_, .f32⟩ : BufTy).Contents (Elt F) → (⟨S4, .f32⟩ : BufTy).Contents (Elt F)),
    binary main_v28 main_v29 main_v30 (mulf : (⟨S4, .f32⟩ : BufTy).Contents (Elt F) → (⟨S4, .f32⟩ : BufTy).Contents (Elt F) → (⟨S4, .f32⟩ : BufTy).Contents (Elt F)),
    unary main_v26 main_v31 (Host.negf : (⟨S4, .f32⟩ : BufTy).Contents (Elt F) → (⟨S4, .f32⟩ : BufTy).Contents (Elt F)),
    TRef.unary (.of main_v31 : TRef sig ⟨S4, .f32⟩) main_call4.v0 Host.negf,
    TRef.nullary main_call4.call0.cst (constant S_ .f32 0x00000000#32),
    TRef.unary main_call4.call0.cst main_call4.call0.v0 (broadcastInDim S4 ![] bcast_S_S4),
    TRef.binary main_call4.v0 main_call4.call0.v0 main_call4.call0.v1 maximumf,
    TRef.unary main_call4.call0.cst main_call4.call0.v2 (broadcastInDim S4 ![] bcast_S_S4),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S4 ![] bcast_S_S4),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_5 (constant S_ .f32 0x00000000#32),
    unary main_cst_5 main_v33 (broadcastInDim S4 ![] bcast_S_S4 : (⟨S_, .f32⟩ : BufTy).Contents (Elt F) → (⟨S4, .f32⟩ : BufTy).Contents (Elt F)),
    binary main_v32 main_v33 main_v34 (mulf : (⟨S4, .f32⟩ : BufTy).Contents (Elt F) → (⟨S4, .f32⟩ : BufTy).Contents (Elt F) → (⟨S4, .f32⟩ : BufTy).Contents (Elt F)),
    binary main_v30 main_v34 main_v35 (subf : (⟨S4, .f32⟩ : BufTy).Contents (Elt F) → (⟨S4, .f32⟩ : BufTy).Contents (Elt F) → (⟨S4, .f32⟩ : BufTy).Contents (Elt F)),
    nullary main_cst_6 (constant S_ .f32 0x00000000#32),
    binary main_v35 main_cst_6 main_v36 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_7 (constant S_ .f32 0x40800000#32),
    binary main_v36 main_cst_7 main_v37 (Host.divf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_cst_8 main_v23 main_v38 (mulf : (⟨S_, .f32⟩ : BufTy).Contents (Elt F) → (⟨S_, .f32⟩ : BufTy).Contents (Elt F) → (⟨S_, .f32⟩ : BufTy).Contents (Elt F)),
    binary main_v38 main_v37 main_v39 (addf : (⟨S_, .f32⟩ : BufTy).Contents (Elt F) → (⟨S_, .f32⟩ : BufTy).Contents (Elt F) → (⟨S_, .f32⟩ : BufTy).Contents (Elt F)) ]

-- 118 steps on each side, unfolded one below the other
set_option maxRecDepth 8192 in
set_option maxHeartbeats 4000000 in
/-- @main is that straight line: sequencing computes (a step followed by a continuation is the step with the
    continuation grafted on), so with the called functions' bodies in place of the calls both sides are the same
    chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., binary_bufs_sub .., nullary_bufs_sub .., binary_bufs_sub .., unary_bufs_sub .., unary_bufs_sub .., unary_bufs_sub .., unary_bufs_sub .., nullary_bufs_sub .., binary_bufs_sub .., unary_bufs_sub .., unary_bufs_sub .., nullary_bufs_sub .., binary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., binary_bufs_sub .., nullary_bufs_sub .., binary_bufs_sub .., nullary_bufs_sub .., binary_bufs_sub .., nullary_bufs_sub .., binary_bufs_sub .., binary_bufs_sub ..⟩

/-! ## The five stretches -/

/-- The logits: the contraction of the activations with the weights, the bias spread over the tokens, their sum. -/
abbrev opsA : List (HloOp τ sig (Elt F)) :=
  [ binary main_arg1 main_arg0 main_v0 ((fun l r => Host.dotGeneral dot_S8x1024x4096_S32000x4096_S8x1024x32000_2_1_01_0_n_n none l r) : (⟨S8x1024x4096, .f32⟩ : BufTy).Contents (Elt F) → (⟨S32000x4096, .f32⟩ : BufTy).Contents (Elt F) → (⟨S8x1024x32000, .f32⟩ : BufTy).Contents (Elt F)),
    unary main_arg3 main_v1 (broadcastInDim S1x1x32000 ![2] bcast_S32000_S1x1x32000_2 : (⟨S32000, .f32⟩ : BufTy).Contents (Elt F) → (⟨S1x1x32000, .f32⟩ : BufTy).Contents (Elt F)),
    unary main_v1 main_v2 (broadcastInDim S8x1024x32000 ![0, 1, 2] bcast_S1x1x32000_S8x1024x32000_0_1_2 : (⟨S1x1x32000, .f32⟩ : BufTy).Contents (Elt F) → (⟨S8x1024x32000, .f32⟩ : BufTy).Contents (Elt F)),
    binary main_v0 main_v2 main_v3 (addf : (⟨S8x1024x32000, .f32⟩ : BufTy).Contents (Elt F) → (⟨S8x1024x32000, .f32⟩ : BufTy).Contents (Elt F) → (⟨S8x1024x32000, .f32⟩ : BufTy).Contents (Elt F)) ]

/-- Log-softmax of the logits (the first call). -/
abbrev opsB : List (HloOp τ sig (Elt F)) :=
  [ TRef.nullary main_call0.cst (constant S_ .f32 0xFF800000#32),
    TRef.binary (.of main_v3 : TRef sig ⟨S8x1024x32000, .f32⟩) main_call0.cst main_call0.v0 (fun x v => Host.reduce FloatOps.maximumf x v reducesTo_S8x1024x32000_S8x1024_d2 h_S_),
    TRef.nullary main_call0.cst_0 (constant S_ .f32 0xFF800000#32),
    TRef.unary main_call0.cst_0 main_call0.v1 (broadcastInDim S8x1024 ![] bcast_S_S8x1024),
    TRef.binary main_call0.v1 main_call0.v0 main_call0.v2 maximumf,
    TRef.unary main_call0.v2 main_call0.v3 (broadcastInDim S8x1024x1 ![0, 1] bcast_S8x1024_S8x1024x1_0_1),
    TRef.unary main_call0.v3 main_call0.v4 (broadcastInDim S8x1024x32000 ![0, 1, 2] bcast_S8x1024x1_S8x1024x32000_0_1_2),
    TRef.binary (.of main_v3 : TRef sig ⟨S8x1024x32000, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8x1024x32000_S8x1024_d2 h_S_),
    TRef.unary main_call0.v7 main_call0.v8 (broadcastInDim S8x1024x1 ![0, 1] bcast_S8x1024_S8x1024x1_0_1),
    TRef.unary main_call0.v8 main_call0.v9 Host.log,
    TRef.unary main_call0.v9 main_call0.v10 (broadcastInDim S8x1024x32000 ![0, 1, 2] bcast_S8x1024x1_S8x1024x32000_0_1_2),
    TRef.binary main_call0.v5 main_call0.v10 main_call0.v11 subf ]

/-- The test for the ignore index, its replacement by 0 (the second call), the labels as a column. -/
abbrev opsC : List (HloOp τ sig (Elt F)) :=
  [ nullary main_c (constantI S_ 32 4294967196#32),
    unary main_c main_v5 (broadcastInDim S8x1024 ![] bcast_S_S8x1024 : (⟨S_, .i32⟩ : BufTy).Contents (Elt F) → (⟨S8x1024, .i32⟩ : BufTy).Contents (Elt F)),
    binary main_arg2 main_v5 main_v6 (cmpi .ne : (⟨S8x1024, .i32⟩ : BufTy).Contents (Elt F) → (⟨S8x1024, .i32⟩ : BufTy).Contents (Elt F) → (⟨S8x1024, .i1⟩ : BufTy).Contents (Elt F)),
    nullary main_c_0 (constantI S_ 32 0#32),
    TRef.unary (.of main_c_0 : TRef sig ⟨S_, .i32⟩) main_call1.v0 id,
    TRef.unary main_call1.v0 main_call1.v1 (broadcastInDim S8x1024 ![] bcast_S_S8x1024),
    TRef.ternary (.of main_v6 : TRef sig ⟨S8x1024, .i1⟩) (.of main_arg2 : TRef sig ⟨S8x1024, .i32⟩) main_call1.v1 main_call1.v2 select,
    unary main_v7 main_v8 (broadcastInDim S8x1024x1 ![0, 1] bcast_S8x1024_S8x1024x1_0_1 : (⟨S8x1024, .i32⟩ : BufTy).Contents (Elt F) → (⟨S8x1024x1, .i32⟩ : BufTy).Contents (Elt F)) ]

/-- The read of each token's row at its label (the third call). -/
abbrev opsD : List (HloOp τ sig (Elt F)) :=
  [ TRef.nullary main_call2.c (constantI S_ 32 0#32),
    TRef.unary main_call2.c main_call2.v0 (broadcastInDim S8x1024x1 ![] bcast_S_S8x1024x1),
    TRef.binary (.of main_v8 : TRef sig ⟨S8x1024x1, .i32⟩) main_call2.v0 main_call2.v1 (cmpi .slt),
    TRef.nullary main_call2.c_0 (constantI S_ 32 32000#32),
    TRef.unary main_call2.c_0 main_call2.v2 (broadcastInDim S8x1024x1 ![] bcast_S_S8x1024x1),
    TRef.binary (.of main_v8 : TRef sig ⟨S8x1024x1, .i32⟩) main_call2.v2 main_call2.v3 addi,
    TRef.ternary main_call2.v1 main_call2.v3 (.of main_v8 : TRef sig ⟨S8x1024x1, .i32⟩) main_call2.v4 select,
    TRef.reshape main_call2.v4 main_call2.v5 rfl shapeCasts_S8x1024x1_S8x1024x1x1,
    TRef.nullary main_call2.c_1 (constantI S1 32 31999#32),
    TRef.nullary main_call2.c_2 (constantI S_ 32 0#32),
    TRef.unary main_call2.c_2 main_call2.v6 (broadcastInDim S8x1024x1x1 ![] bcast_S_S8x1024x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S8x1024x1x1 ![0, 1, 2, 3] bcast_S1x1x1x1_S8x1024x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8x1024x1x1_S8x1024x1_d3 h_S_),
    TRef.binary (.of main_v4 : TRef sig ⟨S8x1024x32000, .f32⟩) main_call2.v5 main_call2.v13 (fun x i => Host.gather gather_S8x1024x32000_S8x1024x1x1_S8x1024x1_n_2_01_01_2_3_111 x i),
    TRef.nullary main_call2.cst (constant S_ .f32 0x7FC00000#32),
    TRef.unary main_call2.cst main_call2.v14 (broadcastInDim S8x1024x1 ![] bcast_S_S8x1024x1),
    TRef.ternary main_call2.v12 main_call2.v13 main_call2.v14 main_call2.v15 select ]

/-- The loss of the per-token values: the masking, the sums per sequence, the mean over the kept tokens of the first four sequences, the scaled difference of the two halves, log σ of it and of its negation (the fourth and fifth calls, each through softplus), the preference term, the sum. -/
abbrev opsT : List (HloOp τ sig (Elt F)) :=
  [ reshape main_v9 main_v10 rfl shapeCasts_S8x1024x1_S8x1024,
    unary main_v6 main_v11 (uitofp .f32 : (⟨S8x1024, .i1⟩ : BufTy).Contents (Elt F) → (⟨S8x1024, .f32⟩ : BufTy).Contents (Elt F)),
    binary main_v10 main_v11 main_v12 (mulf : (⟨S8x1024, .f32⟩ : BufTy).Contents (Elt F) → (⟨S8x1024, .f32⟩ : BufTy).Contents (Elt F) → (⟨S8x1024, .f32⟩ : BufTy).Contents (Elt F)),
    nullary main_cst (constant S_ .f32 0x00000000#32),
    binary main_v12 main_cst main_v13 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    unary main_v13 main_v14 ((extractStridedSlice S4 ![0] · slices_S8_S4_0) : (⟨S8, .f32⟩ : BufTy).Contents (Elt F) → (⟨S4, .f32⟩ : BufTy).Contents (Elt F)),
    unary main_v13 main_v15 ((extractStridedSlice S4 ![4] · slices_S8_S4_4) : (⟨S8, .f32⟩ : BufTy).Contents (Elt F) → (⟨S4, .f32⟩ : BufTy).Contents (Elt F)),
    unary main_v6 main_v16 ((extractStridedSlice S4x1024 ![0, 0] · slices_S8x1024_S4x1024_0_0) : (⟨S8x1024, .i1⟩ : BufTy).Contents (Elt F) → (⟨S4x1024, .i1⟩ : BufTy).Contents (Elt F)),
    unary main_v16 main_v17 ((extui 32 · natLt_1_32) : (⟨S4x1024, .i1⟩ : BufTy).Contents (Elt F) → (⟨S4x1024, .i32⟩ : BufTy).Contents (Elt F)),
    nullary main_c_1 (constantI S_ 32 0#32),
    binary main_v17 main_c_1 main_v18 ((fun x v => Host.reduce IntOp.addi x v reducesTo_S4x1024_S_d0_1 h_S_) : (⟨S4x1024, .i32⟩ : BufTy).Contents (Elt F) → (⟨S_, .i32⟩ : BufTy).Contents (Elt F) → (⟨S_, .i32⟩ : BufTy).Contents (Elt F)),
    unary main_v18 main_v19 (sitofp .f32 : (⟨S_, .i32⟩ : BufTy).Contents (Elt F) → (⟨S_, .f32⟩ : BufTy).Contents (Elt F)),
    unary main_v12 main_v20 ((extractStridedSlice S4x1024 ![0, 0] · slices_S8x1024_S4x1024_0_0) : (⟨S8x1024, .f32⟩ : BufTy).Contents (Elt F) → (⟨S4x1024, .f32⟩ : BufTy).Contents (Elt F)),
    nullary main_cst_2 (constant S_ .f32 0x00000000#32),
    binary main_v20 main_cst_2 main_v21 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    unary main_v21 main_v22 (Host.negf : (⟨S_, .f32⟩ : BufTy).Contents (Elt F) → (⟨S_, .f32⟩ : BufTy).Contents (Elt F)),
    binary main_v22 main_v19 main_v23 (Host.divf : (⟨S_, .f32⟩ : BufTy).Contents (Elt F) → (⟨S_, .f32⟩ : BufTy).Contents (Elt F) → (⟨S_, .f32⟩ : BufTy).Contents (Elt F)),
    binary main_v14 main_v15 main_v24 (subf : (⟨S4, .f32⟩ : BufTy).Contents (Elt F) → (⟨S4, .f32⟩ : BufTy).Contents (Elt F) → (⟨S4, .f32⟩ : BufTy).Contents (Elt F)),
    nullary main_cst_3 (constant S_ .f32 0x3DCCCCCD#32),
    unary main_cst_3 main_v25 (broadcastInDim S4 ![] bcast_S_S4 : (⟨S_, .f32⟩ : BufTy).Contents (Elt F) → (⟨S4, .f32⟩ : BufTy).Contents (Elt F)),
    binary main_v25 main_v24 main_v26 (mulf : (⟨S4, .f32⟩ : BufTy).Contents (Elt F) → (⟨S4, .f32⟩ : BufTy).Contents (Elt F) → (⟨S4, .f32⟩ : BufTy).Contents (Elt F)),
    TRef.unary (.of main_v26 : TRef sig ⟨S4, .f32⟩) main_call3.v0 Host.negf,
    TRef.nullary main_call3.call0.cst (constant S_ .f32 0x00000000#32),
    TRef.unary main_call3.call0.cst main_call3.call0.v0 (broadcastInDim S4 ![] bcast_S_S4),
    TRef.binary main_call3.v0 main_call3.call0.v0 main_call3.call0.v1 maximumf,
    TRef.unary main_call3.call0.cst main_call3.call0.v2 (broadcastInDim S4 ![] bcast_S_S4),
    TRef.binary main_call3.v0 main_call3.call0.v2 main_call3.call0.v3 subf,
    TRef.binary main_call3.call0.v3 main_call3.call0.v3 main_call3.call0.v4 (cmpf .une),
    TRef.unary main_call3.call0.cst main_call3.call0.v5 (broadcastInDim S4 ![] bcast_S_S4),
    TRef.binary main_call3.v0 main_call3.call0.v5 main_call3.call0.v6 addf,
    TRef.unary main_call3.call0.v3 main_call3.call0.v7 Host.absf,
    TRef.unary main_call3.call0.v7 main_call3.call0.v8 Host.negf,
    TRef.unary main_call3.call0.v8 main_call3.call0.v9 Host.exp,
    TRef.unary main_call3.call0.v9 main_call3.call0.v10 Host.log1p,
    TRef.binary main_call3.call0.v1 main_call3.call0.v10 main_call3.call0.v11 addf,
    TRef.ternary main_call3.call0.v4 main_call3.call0.v6 main_call3.call0.v11 main_call3.call0.v12 select,
    TRef.unary main_call3.call0.v12 main_call3.v2 Host.negf,
    unary main_v27 main_v28 (Host.negf : (⟨S4, .f32⟩ : BufTy).Contents (Elt F) → (⟨S4, .f32⟩ : BufTy).Contents (Elt F)),
    nullary main_cst_4 (constant S_ .f32 0x3F800000#32),
    unary main_cst_4 main_v29 (broadcastInDim S4 ![] bcast_S_S4 : (⟨S_, .f32⟩ : BufTy).Contents (Elt F) → (⟨S4, .f32⟩ : BufTy).Contents (Elt F)),
    binary main_v28 main_v29 main_v30 (mulf : (⟨S4, .f32⟩ : BufTy).Contents (Elt F) → (⟨S4, .f32⟩ : BufTy).Contents (Elt F) → (⟨S4, .f32⟩ : BufTy).Contents (Elt F)),
    unary main_v26 main_v31 (Host.negf : (⟨S4, .f32⟩ : BufTy).Contents (Elt F) → (⟨S4, .f32⟩ : BufTy).Contents (Elt F)),
    TRef.unary (.of main_v31 : TRef sig ⟨S4, .f32⟩) main_call4.v0 Host.negf,
    TRef.nullary main_call4.call0.cst (constant S_ .f32 0x00000000#32),
    TRef.unary main_call4.call0.cst main_call4.call0.v0 (broadcastInDim S4 ![] bcast_S_S4),
    TRef.binary main_call4.v0 main_call4.call0.v0 main_call4.call0.v1 maximumf,
    TRef.unary main_call4.call0.cst main_call4.call0.v2 (broadcastInDim S4 ![] bcast_S_S4),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S4 ![] bcast_S_S4),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_5 (constant S_ .f32 0x00000000#32),
    unary main_cst_5 main_v33 (broadcastInDim S4 ![] bcast_S_S4 : (⟨S_, .f32⟩ : BufTy).Contents (Elt F) → (⟨S4, .f32⟩ : BufTy).Contents (Elt F)),
    binary main_v32 main_v33 main_v34 (mulf : (⟨S4, .f32⟩ : BufTy).Contents (Elt F) → (⟨S4, .f32⟩ : BufTy).Contents (Elt F) → (⟨S4, .f32⟩ : BufTy).Contents (Elt F)),
    binary main_v30 main_v34 main_v35 (subf : (⟨S4, .f32⟩ : BufTy).Contents (Elt F) → (⟨S4, .f32⟩ : BufTy).Contents (Elt F) → (⟨S4, .f32⟩ : BufTy).Contents (Elt F)),
    nullary main_cst_6 (constant S_ .f32 0x00000000#32),
    binary main_v35 main_cst_6 main_v36 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_7 (constant S_ .f32 0x40800000#32),
    binary main_v36 main_cst_7 main_v37 (Host.divf : (⟨S_, .f32⟩ : BufTy).Contents (Elt F) → (⟨S_, .f32⟩ : BufTy).Contents (Elt F) → (⟨S_, .f32⟩ : BufTy).Contents (Elt F)),
    nullary main_cst_8 (constant S_ .f32 0x3F800000#32),
    binary main_cst_8 main_v23 main_v38 (mulf : (⟨S_, .f32⟩ : BufTy).Contents (Elt F) → (⟨S_, .f32⟩ : BufTy).Contents (Elt F) → (⟨S_, .f32⟩ : BufTy).Contents (Elt F)),
    binary main_v38 main_v37 main_v39 (addf : (⟨S_, .f32⟩ : BufTy).Contents (Elt F) → (⟨S_, .f32⟩ : BufTy).Contents (Elt F) → (⟨S_, .f32⟩ : BufTy).Contents (Elt F)) ]

/-- Contents after two lines run one after the other. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The whole line is the five stretches in order. -/
theorem ops_split : (ops : List (HloOp τ sig (Elt F))) = opsA ++ (opsB ++ (opsC ++ (opsD ++ opsT))) := rfl

section Stretches

variable (V : Valuation τ sig (Elt F))

-- the folds over an array's elements stay closed: no equation below looks inside one
attribute [local irreducible] Host.reduce Host.reduceAdd Host.gather

/-! Each stretch, from any contents V: what it leaves in the buffers read later is the named function of what it
    read, and it leaves alone the buffers a later stretch still reads.  A value a called function's operation
    writes and another of its operations reads is carried to the buffer and back, which cancels; what is left of
    the carrying at a stretch's ends is the identity at these literal references, so each equation then holds by
    computation. -/

theorem A_v3 : after opsA V (main_v3 : DevRef τ sig) = RefTerm.logits (V (main_arg0 : DevRef τ sig)) (V (main_arg1 : DevRef τ sig)) (V (main_arg3 : DevRef τ sig)) := by
  after_results_simp; rfl
theorem A_arg2 : after opsA V (main_arg2 : DevRef τ sig) = V (main_arg2 : DevRef τ sig) := by after_results_simp

theorem B_v4 : after opsB V (main_v4 : DevRef τ sig) = RefTerm.logSoftmax (V (main_v3 : DevRef τ sig)) := by
  after_results_simp
  simp only [TRef.ofBuf_toBuf, TRef.toBuf_ofBuf]
  rfl
theorem B_arg2 : after opsB V (main_arg2 : DevRef τ sig) = V (main_arg2 : DevRef τ sig) := by after_results_simp

theorem C_v6 : after opsC V (main_v6 : DevRef τ sig) = Cert.Shared.keep RefTerm.tailFacts (V (main_arg2 : DevRef τ sig)) := by
  after_results_simp; rfl
theorem C_v8 : after opsC V (main_v8 : DevRef τ sig) = RefTerm.labels (V (main_arg2 : DevRef τ sig)) := by
  after_results_simp
  simp only [TRef.ofBuf_toBuf, TRef.toBuf_ofBuf]
  rfl
theorem C_v4 : after opsC V (main_v4 : DevRef τ sig) = V (main_v4 : DevRef τ sig) := by after_results_simp
theorem C_arg2 : after opsC V (main_arg2 : DevRef τ sig) = V (main_arg2 : DevRef τ sig) := by after_results_simp

theorem D_v9 : after opsD V (main_v9 : DevRef τ sig) = RefTerm.takeAlong (V (main_v4 : DevRef τ sig)) (V (main_v8 : DevRef τ sig)) := by
  after_results_simp
  simp only [TRef.ofBuf_toBuf, TRef.toBuf_ofBuf]
  rfl
theorem D_v6 : after opsD V (main_v6 : DevRef τ sig) = V (main_v6 : DevRef τ sig) := by after_results_simp
theorem D_arg2 : after opsD V (main_arg2 : DevRef τ sig) = V (main_arg2 : DevRef τ sig) := by after_results_simp

/-- The last stretch, from contents whose ignore-index test is the one the loss makes of the labels: the result
    buffer ends at the loss of the per-token column (read as 8 × 1024 and zeroed at the ignored tokens) and of
    the labels.  The 69 operations are the loss's own, in its order, the two calls of log σ written out. -/
theorem T_v39 (h6 : V (main_v6 : DevRef τ sig) = Cert.Shared.keep RefTerm.tailFacts (V (main_arg2 : DevRef τ sig))) :
    after opsT V (main_v39 : DevRef τ sig)
      = Cert.Shared.lossOf RefTerm.tailFacts
          (Cert.Shared.masked RefTerm.tailFacts (shapeCast S8x1024 (V (main_v9 : DevRef τ sig)) shapeCasts_S8x1024x1_S8x1024) (V (main_arg2 : DevRef τ sig)))
          (V (main_arg2 : DevRef τ sig)) := by
  after_results_simp
  simp only [TRef.ofBuf_toBuf, TRef.toBuf_ofBuf]
  rw [h6]
  unfold Cert.Shared.lossOf Cert.Shared.masked Cert.Shared.logSigmoid Cert.Shared.softplus
  rfl

end Stretches

/-! ## The result and the arguments after the whole line -/

/-- The result buffer after the whole line: the stretches chained. -/
theorem out_eq (V : Valuation τ sig (Elt F)) :
    after ops V (main_v39 : DevRef τ sig)
      = Cert.Shared.lossOf RefTerm.tailFacts
          (Cert.Shared.masked RefTerm.tailFacts
            (RefTerm.perTok (V (main_arg0 : DevRef τ sig)) (V (main_arg1 : DevRef τ sig)) (V (main_arg2 : DevRef τ sig)) (V (main_arg3 : DevRef τ sig)))
            (V (main_arg2 : DevRef τ sig)))
          (V (main_arg2 : DevRef τ sig)) := by
  have h6 : after opsD (after opsC (after opsB (after opsA V))) (main_v6 : DevRef τ sig)
      = Cert.Shared.keep RefTerm.tailFacts (after opsD (after opsC (after opsB (after opsA V))) (main_arg2 : DevRef τ sig)) := by
    rw [D_v6, C_v6, D_arg2, C_arg2]
  rw [ops_split, after_append, after_append, after_append, after_append, T_v39 _ h6, D_v9, C_v4, C_v8, B_v4, A_v3,
    D_arg2, C_arg2, B_arg2, A_arg2]
  rfl

set_option maxRecDepth 8192 in
theorem arg0_eq (V : Valuation τ sig (Elt F)) : after ops V (main_arg0 : DevRef τ sig) = V (main_arg0 : DevRef τ sig) := by after_results_simp
set_option maxRecDepth 8192 in
theorem arg1_eq (V : Valuation τ sig (Elt F)) : after ops V (main_arg1 : DevRef τ sig) = V (main_arg1 : DevRef τ sig) := by after_results_simp
set_option maxRecDepth 8192 in
theorem arg2_eq (V : Valuation τ sig (Elt F)) : after ops V (main_arg2 : DevRef τ sig) = V (main_arg2 : DevRef τ sig) := by after_results_simp
set_option maxRecDepth 8192 in
theorem arg3_eq (V : Valuation τ sig (Elt F)) : after ops V (main_arg3 : DevRef τ sig) = V (main_arg3 : DevRef τ sig) := by after_results_simp

/-- On every device, for any float values, from any memory with zero counters: every weakly fair execution of
    @main terminates with the result buffer at the loss of the masked per-token log-probabilities of the
    arguments' launch contents, and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v39)
          = Cert.Shared.lossOf RefTerm.tailFacts
              (Cert.Shared.masked RefTerm.tailFacts
                (RefTerm.perTok (m ((c.tc : Thread nD τ).loc main_arg0)) (m ((c.tc : Thread nD τ).loc main_arg1)) (m ((c.tc : Thread nD τ).loc main_arg2)) (m ((c.tc : Thread nD τ).loc main_arg3)))
                (m ((c.tc : Thread nD τ).loc main_arg2)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v39).trans (out_eq (launchContents m c)),
        (h c main_arg0).trans (arg0_eq (launchContents m c)),
        (h c main_arg1).trans (arg1_eq (launchContents m c)),
        (h c main_arg2).trans (arg2_eq (launchContents m c)),
        (h c main_arg3).trans (arg3_eq (launchContents m c))⟩)
    (run_seq scopedRefs_eq scopedSems_eq defs main (fun _ => ops) main_eq (fun _ => ops_sub) m ρ)

end Cert.ReferenceIdeal.RefRun

end
-- ==== Proof.RefValue.lean ====
/-
  The VALUE of the reference's per-token term at an index, at the ideal values (a float an extended real, every
  operation exact).

  For a token (b, t) with label L = tgt[b,t]:
    * the logits are logit b t v = (∑ h, x[b,t,h] · w[v,h]) + bias[v]: the product contracts the hidden axis, the bias
      is spread over sequences and positions;
    * the row maximum is max (−∞, max over v) = the supremum of the row, the fold of max from −∞ being the supremum;
    * log-softmax at (b, t, v) is (logit v − M) − log (0 + ∑ v', exp (logit v' − M));
    * the labels' column holds L, or 0 for the ignore index −100; a label below 32000 is not negative as a signed
      word (nothing is added to it), lies in the row (0 ≤ L ≤ 31999), and, read signed and clamped, is L itself, so
      the batched read returns log-softmax at (b, t, L) and the in-row test selects it;
    * the mask multiplies by the keep bit read as a number: 1 for a kept token, 0 for an ignored one, and
      y · 0 = 0 for every extended real y, so an ignored token needs nothing about the term.
  For a kept token the regrouping (a − M) − log S = a − (M + log S) for real a, M and S > 0 gives the specification's
  value: the logit at the label less the row's log-sum-exp.

  Every operation that is not pointwise is read once, at an index built from explicit coordinates (b : Fin 8),
  (t : Fin 1024), (v : Fin 32000), in a lemma of its own; the term's definitions stay folded in every statement.
-/
import proofs.«403262_j18391049961623_3_alg».proof.ReferenceIdeal
import proofs.«403262_j18391049961623_3_alg».proof.Proof.Gen.ReferenceIdeal
import proofs.«403262_j18391049961623_3_alg».proof.Proof.Shared
import proofs.«403262_j18391049961623_3_alg».proof.Proof.RefTerm
import proofs.«403262_j18391049961623_3_alg».proof.Proof.Math
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate
import Idealize.ShloMosaic.PureOps.Ideal.Laws

noncomputable section

namespace Cert.ReferenceIdeal.RefValue

open Idealize.ShloMosaic Idealize.ShloMosaic.ValueIdx Idealize.ShloMosaic.StableHlo.Predicate Cert.ReferenceIdeal Cert.Shared

/-! ## The logits: the product contracted over the hidden axis, plus the bias -/

/-- The first left-operand axis (the sequences) reads the output's first coordinate. -/
theorem dot_lhs_0 (j : S8x1024x32000.Idx) (k : dot_S8x1024x4096_S32000x4096_S8x1024x32000_2_1_01_0_n_n.contr.Idx) :
    (dot_S8x1024x4096_S32000x4096_S8x1024x32000_2_1_01_0_n_n.lhsIdx j k 0).val = (j 0).val := by
  simp [DotDims.lhsIdx, dot_S8x1024x4096_S32000x4096_S8x1024x32000_2_1_01_0_n_n]
  rfl

/-- The second left-operand axis (the positions) reads the output's second coordinate. -/
theorem dot_lhs_1 (j : S8x1024x32000.Idx) (k : dot_S8x1024x4096_S32000x4096_S8x1024x32000_2_1_01_0_n_n.contr.Idx) :
    (dot_S8x1024x4096_S32000x4096_S8x1024x32000_2_1_01_0_n_n.lhsIdx j k 1).val = (j 1).val := by
  simp [DotDims.lhsIdx, dot_S8x1024x4096_S32000x4096_S8x1024x32000_2_1_01_0_n_n]
  rfl

/-- The third left-operand axis (the hidden one) is the contracted axis: it reads the contraction index. -/
theorem dot_lhs_2 (j : S8x1024x32000.Idx) (k : dot_S8x1024x4096_S32000x4096_S8x1024x32000_2_1_01_0_n_n.contr.Idx) :
    (dot_S8x1024x4096_S32000x4096_S8x1024x32000_2_1_01_0_n_n.lhsIdx j k 2).val = (k ⟨0, by decide⟩).val :=
  DotDims.lhsIdx_val_of_single _ (cl := 2) rfl j k

/-- The first right-operand axis (the vocabulary) reads the output's third coordinate. -/
theorem dot_rhs_0 (j : S8x1024x32000.Idx) (k : dot_S8x1024x4096_S32000x4096_S8x1024x32000_2_1_01_0_n_n.contr.Idx) :
    (dot_S8x1024x4096_S32000x4096_S8x1024x32000_2_1_01_0_n_n.rhsIdx j k 0).val = (j 2).val := by
  simp [DotDims.rhsIdx, dot_S8x1024x4096_S32000x4096_S8x1024x32000_2_1_01_0_n_n]
  rfl

/-- The second right-operand axis (the hidden one) is the contracted axis: it reads the contraction index. -/
theorem dot_rhs_1 (j : S8x1024x32000.Idx) (k : dot_S8x1024x4096_S32000x4096_S8x1024x32000_2_1_01_0_n_n.contr.Idx) :
    (dot_S8x1024x4096_S32000x4096_S8x1024x32000_2_1_01_0_n_n.rhsIdx j k 1).val = (k ⟨0, by decide⟩).val :=
  DotDims.rhsIdx_val_of_single _ (cr := 1) rfl j k

/-- The product read at (b, t, v): the sum over the hidden axis of x[b,t,h] · w[v,h]. -/
theorem dot_apply (w : FVec Ideal S32000x4096 .f32) (x : FVec Ideal S8x1024x4096 .f32) (b : Fin 8) (t : Fin 1024) (v : Fin 32000) :
    Host.dotGeneral (F := Ideal) dot_S8x1024x4096_S32000x4096_S8x1024x32000_2_1_01_0_n_n none x w (ix3 b t v)
      = ∑ h : Fin 4096, x (ix3 b t h) * w (ix2 v h) := by
  show FloatOps.dotGeneral _ none _ x w (ix3 b t v) = _
  rw [Ideal.dotGeneral_apply,
    ← Equiv.sum_comp (contrEquiv1 dot_S8x1024x4096_S32000x4096_S8x1024x32000_2_1_01_0_n_n 4096 rfl rfl).symm]
  refine Finset.sum_congr rfl fun h _ => ?_
  have c := contrEquiv1_symm_val dot_S8x1024x4096_S32000x4096_S8x1024x32000_2_1_01_0_n_n 4096 rfl rfl h
  have l : dot_S8x1024x4096_S32000x4096_S8x1024x32000_2_1_01_0_n_n.lhsIdx (ix3 b t v)
      ((contrEquiv1 _ 4096 rfl rfl).symm h) = ix3 b t h := by
    funext ax; apply Fin.ext
    match ax with
    | ⟨0, _⟩ => exact dot_lhs_0 _ _
    | ⟨1, _⟩ => exact dot_lhs_1 _ _
    | ⟨2, _⟩ => exact (dot_lhs_2 _ _).trans c
  have r : dot_S8x1024x4096_S32000x4096_S8x1024x32000_2_1_01_0_n_n.rhsIdx (ix3 b t v)
      ((contrEquiv1 _ 4096 rfl rfl).symm h) = ix2 v h := by
    funext ax; apply Fin.ext
    match ax with
    | ⟨0, _⟩ => exact dot_rhs_0 _ _
    | ⟨1, _⟩ => exact (dot_rhs_1 _ _).trans c
  rw [l, r]

/-- The bias spread over sequences and positions reads bias[v] at (b, t, v). -/
theorem biasBcast_apply (bias : FVec Ideal S32000 .f32) (b : Fin 8) (t : Fin 1024) (v : Fin 32000) :
    broadcastInDim S8x1024x32000 ![0, 1, 2] Facts₀.bcast_S1x1x32000_S8x1024x32000_0_1_2
      (broadcastInDim S1x1x32000 ![2] Facts₀.bcast_S32000_S1x1x32000_2 bias) (ix3 b t v) = bias (ix1 v) := by
  refine (broadcastInDim_apply _ _ _ (ix3 b t v) (ix3 (0 : Fin 1) (0 : Fin 1) v)
    (fun a => match a with | ⟨0, _⟩ => rfl | ⟨1, _⟩ => rfl | ⟨2, _⟩ => rfl)).trans ?_
  exact broadcastInDim_apply _ _ _ (ix3 (0 : Fin 1) (0 : Fin 1) v) (ix1 v) (fun a => match a with | ⟨0, _⟩ => rfl)

/-- The reference's logits at (b, t, v) are the specification's logit. -/
theorem logits_apply (w : FVec Ideal S32000x4096 .f32) (x : FVec Ideal S8x1024x4096 .f32) (bias : FVec Ideal S32000 .f32)
    (b : Fin 8) (t : Fin 1024) (v : Fin 32000) :
    RefTerm.logits (F := Ideal) w x bias (ix3 b t v) = logit w x bias b t v := by
  unfold RefTerm.logits logit
  rw [addf_apply, dot_apply, biasBcast_apply]

/-! ## The row maximum, the shifted row, the sum of exponentials, log-softmax -/

/-- The bit pattern of −∞ is the bottom extended real. -/
theorem ofBits_negInf : Ideal.ofBits .f32 0xFF800000#32 = (⊥ : EReal) := by simp [Ideal.ofBits, Ideal.ieee]

/-- The fold of max from −∞ over a finite set is the supremum over it. -/
theorem fold_max_bot_eq_sup {ι : Type} (s : Finset ι) (g : ι → EReal) : s.fold max ⊥ g = s.sup g := by
  classical
  induction s using Finset.induction_on with
  | empty => simp
  | insert a s ha ih => rw [Finset.fold_insert ha, Finset.sup_insert, ih]

/-- The token array is the logits' array with the vocabulary axis dropped. -/
theorem red2 : S8x1024x32000.Reduces [2] S8x1024 := by decide

/-- Token (b, t) with vocabulary entry k inserted is the index (b, t, k). -/
theorem lift2 (b : Fin 8) (t : Fin 1024) (k : Fin 32000) : red2.lift (ix2 b t) k = ix3 b t k := by
  funext c; apply Fin.ext
  match c with
  | ⟨0, _⟩ => rfl
  | ⟨1, _⟩ => rfl
  | ⟨2, _⟩ => rfl

/-- The reference's row maximum at token (b, t) is the supremum of the row. -/
theorem rowMaxOf_apply (z : FVec Ideal S8x1024x32000 .f32) (b : Fin 8) (t : Fin 1024) :
    RefTerm.rowMaxOf (F := Ideal) z (ix2 b t) = rowMax (fun v => z (ix3 b t v)) := by
  unfold RefTerm.rowMaxOf rowMax
  rw [maximumf_apply, broadcastInDim_scalar_apply, constant_apply, ofBits_negInf]
  have e := Host.reduce_eq_fold_single (FloatOps.maximumf (F := Ideal) (φ := .f32)) z
    (constant (F := Ideal) S_ .f32 0xFF800000#32) Facts₀.reducesTo_S8x1024x32000_S8x1024_d2 red2 Facts₀.h_S_ (ix2 b t)
  have hf : (z ∘ red2.lift (ix2 b t)) = fun v : Fin 32000 => z (ix3 b t v) := funext fun v => congrArg z (lift2 b t v)
  have hinit : constant (F := Ideal) S_ .f32 0xFF800000#32 (Shape.Idx.first Facts₀.h_S_) = (⊥ : EReal) := ofBits_negInf
  rw [e, hinit, hf, max_bot_left]
  exact fold_max_bot_eq_sup _ _

/-- The host's exponential at an index is the extended-real exponential of the element. -/
theorem hostExp_apply {s : Shape} (a : FVec Ideal s .f32) (i : s.Idx) : Host.exp a i = Ideal.exp (a i) := rfl

/-- The host's logarithm at an index is the extended-real logarithm of the element. -/
theorem hostLog_apply {s : Shape} (a : FVec Ideal s .f32) (i : s.Idx) : Host.log a i = Ideal.log (a i) := rfl

/-- The logits less the row maximum, at (b, t, v). -/
theorem shifted_apply (z : FVec Ideal S8x1024x32000 .f32) (b : Fin 8) (t : Fin 1024) (v : Fin 32000) :
    RefTerm.shifted (F := Ideal) z (ix3 b t v) = z (ix3 b t v) - rowMax (fun v' => z (ix3 b t v')) := by
  unfold RefTerm.shifted
  rw [subf_apply]
  refine congrArg (z (ix3 b t v) - ·) ?_
  refine (broadcastInDim_apply _ _ _ (ix3 b t v) (ix3 b t (0 : Fin 1))
    (fun a => match a with | ⟨0, _⟩ => rfl | ⟨1, _⟩ => rfl | ⟨2, _⟩ => rfl)).trans ?_
  refine (broadcastInDim_apply _ _ _ (ix3 b t (0 : Fin 1)) (ix2 b t)
    (fun a => match a with | ⟨0, _⟩ => rfl | ⟨1, _⟩ => rfl)).trans ?_
  exact rowMaxOf_apply z b t

/-- The sum over the vocabulary of the exponentials of the shifted row, at token (b, t): 0 + ∑ v, exp (z v − M). -/
theorem sumExp_apply (z : FVec Ideal S8x1024x32000 .f32) (b : Fin 8) (t : Fin 1024) :
    Host.reduceAdd (F := Ideal) (Host.exp (RefTerm.shifted (F := Ideal) z)) (constant (F := Ideal) S_ .f32 0x00000000#32)
        Facts₀.reducesTo_S8x1024x32000_S8x1024_d2 Facts₀.h_S_ (ix2 b t)
      = rowSum (fun v => z (ix3 b t v)) := by
  rw [hostReduceAdd_apply, Ideal.hostReduceAdd_single _ red2, constant_apply, Ideal.ofBits_zero_f32, zero_add]
  unfold rowSum
  refine Finset.sum_congr rfl fun v _ => ?_
  refine (congrArg (Host.exp (RefTerm.shifted (F := Ideal) z)) (lift2 b t v)).trans ?_
  refine (hostExp_apply _ _).trans ?_
  exact congrArg Ideal.exp (shifted_apply z b t v)

/-- log-softmax at (b, t, v): (z v − M) − log ∑ v', exp (z v' − M). -/
theorem logSoftmax_apply (z : FVec Ideal S8x1024x32000 .f32) (b : Fin 8) (t : Fin 1024) (v : Fin 32000) :
    RefTerm.logSoftmax (F := Ideal) z (ix3 b t v)
      = (z (ix3 b t v) - rowMax (fun v' => z (ix3 b t v'))) - Ideal.log (rowSum (fun v' => z (ix3 b t v'))) := by
  unfold RefTerm.logSoftmax
  rw [subf_apply, shifted_apply]
  refine congrArg ((z (ix3 b t v) - rowMax (fun v' => z (ix3 b t v'))) - ·) ?_
  refine (broadcastInDim_apply _ _ _ (ix3 b t v) (ix3 b t (0 : Fin 1))
    (fun a => match a with | ⟨0, _⟩ => rfl | ⟨1, _⟩ => rfl | ⟨2, _⟩ => rfl)).trans ?_
  refine (hostLog_apply _ _).trans ?_
  refine congrArg Ideal.log ?_
  refine (broadcastInDim_apply _ _ _ (ix3 b t (0 : Fin 1)) (ix2 b t)
    (fun a => match a with | ⟨0, _⟩ => rfl | ⟨1, _⟩ => rfl)).trans ?_
  exact sumExp_apply z b t

/-! ## The labels, the index read, the in-row test -/

/-- The labels' column at token (b, t): the label, or 0 for the ignore index. -/
theorem labels_apply (tgt : IVec S8x1024 32) (b : Fin 8) (t : Fin 1024) :
    RefTerm.labels tgt (ix3 b t (0 : Fin 1))
      = Scalar.select (IntOp.cmpi .ne (tgt (ix2 b t)) 4294967196#32) (tgt (ix2 b t)) 0#32 := by
  unfold RefTerm.labels
  refine (broadcastInDim_apply _ _ _ (ix3 b t (0 : Fin 1)) (ix2 b t)
    (fun a => match a with | ⟨0, _⟩ => rfl | ⟨1, _⟩ => rfl)).trans ?_
  rfl

/-- The index read at token (b, t): the label, with 32000 added when it is negative as a signed word. -/
theorem wrapped_apply (i : IVec S8x1024x1 32) (b : Fin 8) (t : Fin 1024) :
    RefTerm.wrapped i (ix4 b t (0 : Fin 1) (0 : Fin 1))
      = Scalar.select (IntOp.cmpi .slt (i (ix3 b t (0 : Fin 1))) 0#32)
          (IntOp.addi (i (ix3 b t (0 : Fin 1))) 32000#32) (i (ix3 b t (0 : Fin 1))) := by
  unfold RefTerm.wrapped
  refine (shapeCast_apply _ _ (ix4 b t (0 : Fin 1) (0 : Fin 1)) (ix3 b t (0 : Fin 1)) (by
    rw [Shape.rowMajor_val_three, Shape.rowMajor_val_four]
    show (b.val * 1024 + t.val) * 1 + 0 = ((b.val * 1024 + t.val) * 1 + 0) * 1 + 0
    omega)).trans ?_
  rfl

/-- A fold over the one-element index set is one application of the operation. -/
theorem fold_fin1 {α : Type} (op : α → α → α) [Std.Commutative op] [Std.Associative op] (init : α) (f : Fin 1 → α) :
    (Finset.univ : Finset (Fin 1)).fold op init f = op (f 0) init := by
  rw [Finset.univ_unique, Finset.fold_singleton]; rfl

/-- The column of read indices is the array of read indices with its unit last axis dropped. -/
theorem red3 : S8x1024x1x1.Reduces [3] S8x1024x1 := by decide

/-- The token (b, t) of the column, with the unit coordinate inserted on the dropped axis, is (b, t, 0, 0). -/
theorem lift3 (b : Fin 8) (t : Fin 1024) : red3.lift (ix3 b t (0 : Fin 1)) (0 : Fin 1) = ix4 b t (0 : Fin 1) (0 : Fin 1) := by
  funext c; apply Fin.ext
  match c with
  | ⟨0, _⟩ => rfl
  | ⟨1, _⟩ => rfl
  | ⟨2, _⟩ => rfl
  | ⟨3, _⟩ => rfl

/-- The conjunction over the unit last axis, from the word 1, at token (b, t): the one word there, and 1. -/
theorem reduceAnd_apply (p : IVec S8x1024x1x1 1) (b : Fin 8) (t : Fin 1024) :
    Host.reduce IntOp.andi p (constantI S_ 1 1#1) Facts₀.reducesTo_S8x1024x1x1_S8x1024x1_d3 Facts₀.h_S_ (ix3 b t (0 : Fin 1))
      = IntOp.andi (p (ix4 b t (0 : Fin 1) (0 : Fin 1))) 1#1 := by
  refine (Host.reduce_eq_fold_single IntOp.andi _ _ _ red3 _ (ix3 b t (0 : Fin 1))).trans ?_
  refine (fold_fin1 IntOp.andi _ _).trans ?_
  exact congrArg (fun i => IntOp.andi (p i) 1#1) (lift3 b t)

/-- Whether the index read at token (b, t) lies in the row. -/
theorem inRow_apply (j : IVec S8x1024x1x1 32) (b : Fin 8) (t : Fin 1024) :
    RefTerm.inRow j (ix3 b t (0 : Fin 1))
      = IntOp.andi (IntOp.andi (IntOp.cmpi .sge (j (ix4 b t (0 : Fin 1) (0 : Fin 1))) 0#32)
          (IntOp.cmpi .sle (j (ix4 b t (0 : Fin 1) (0 : Fin 1))) 31999#32)) 1#1 := by
  unfold RefTerm.inRow
  refine (reduceAnd_apply _ b t).trans ?_
  rfl

/-! ## The batched read of each token's row at its index -/

/-- The batched read's operand index at token (b, t), first axis: the sequence b (a batching axis). -/
theorem gather_axis_0 (idx : IVec S8x1024x1x1 32) (b : Fin 8) (t : Fin 1024) :
    (gather_S8x1024x32000_S8x1024x1x1_S8x1024x1_n_2_01_01_2_3_111.operandIdx (ix3 b t (0 : Fin 1)) idx 0).val = b.val := by
  show gather_S8x1024x32000_S8x1024x1x1_S8x1024x1_n_2_01_01_2_3_111.start (ix3 b t (0 : Fin 1)) idx 0 + gather_S8x1024x32000_S8x1024x1x1_S8x1024x1_n_2_01_01_2_3_111.batchCoord (ix3 b t (0 : Fin 1)) 0
    + gather_S8x1024x32000_S8x1024x1x1_S8x1024x1_n_2_01_01_2_3_111.offCoord (ix3 b t (0 : Fin 1)) 0 = b.val
  rw [GatherDims.offCoord_eq_zero _ _ _ (by decide), Nat.add_zero]
  unfold GatherDims.start GatherDims.batchCoord
  rw [dif_neg (by decide), dif_pos (by decide), Nat.zero_add]
  unfold GatherDims.siCoord
  simp only [Fin.val_cast]
  exact congrArg (fun y => (ix3 b t (0 : Fin 1) y).val) (by decide : _ = (0 : Fin 3))

/-- Second axis: the position t (a batching axis). -/
theorem gather_axis_1 (idx : IVec S8x1024x1x1 32) (b : Fin 8) (t : Fin 1024) :
    (gather_S8x1024x32000_S8x1024x1x1_S8x1024x1_n_2_01_01_2_3_111.operandIdx (ix3 b t (0 : Fin 1)) idx 1).val = t.val := by
  show gather_S8x1024x32000_S8x1024x1x1_S8x1024x1_n_2_01_01_2_3_111.start (ix3 b t (0 : Fin 1)) idx 1 + gather_S8x1024x32000_S8x1024x1x1_S8x1024x1_n_2_01_01_2_3_111.batchCoord (ix3 b t (0 : Fin 1)) 1
    + gather_S8x1024x32000_S8x1024x1x1_S8x1024x1_n_2_01_01_2_3_111.offCoord (ix3 b t (0 : Fin 1)) 1 = t.val
  rw [GatherDims.offCoord_eq_zero _ _ _ (by decide), Nat.add_zero]
  unfold GatherDims.start GatherDims.batchCoord
  rw [dif_neg (by decide), dif_pos (by decide), Nat.zero_add]
  unfold GatherDims.siCoord
  simp only [Fin.val_cast]
  exact congrArg (fun y => (ix3 b t (0 : Fin 1) y).val) (by decide : _ = (1 : Fin 3))

/-- The start-indices index token (b, t) reads its start-index component at, axis by axis: b, … -/
theorem gather_siIdx_0 (b : Fin 8) (t : Fin 1024) : ((gather_S8x1024x32000_S8x1024x1x1_S8x1024x1_n_2_01_01_2_3_111.siIdx (ix3 b t (0 : Fin 1)) ⟨List.idxOf 2 gather_S8x1024x32000_S8x1024x1x1_S8x1024x1_n_2_01_01_2_3_111.startIndexMap, by decide⟩) 0).val = b.val := by
  unfold GatherDims.siIdx
  rw [dif_neg (by decide)]
  unfold GatherDims.siCoord
  simp only [Fin.val_cast]
  exact congrArg (fun y => (ix3 b t (0 : Fin 1) y).val) (by decide : _ = (0 : Fin 3))

/-- … t, … -/
theorem gather_siIdx_1 (b : Fin 8) (t : Fin 1024) : ((gather_S8x1024x32000_S8x1024x1x1_S8x1024x1_n_2_01_01_2_3_111.siIdx (ix3 b t (0 : Fin 1)) ⟨List.idxOf 2 gather_S8x1024x32000_S8x1024x1x1_S8x1024x1_n_2_01_01_2_3_111.startIndexMap, by decide⟩) 1).val = t.val := by
  unfold GatherDims.siIdx
  rw [dif_neg (by decide)]
  unfold GatherDims.siCoord
  simp only [Fin.val_cast]
  exact congrArg (fun y => (ix3 b t (0 : Fin 1) y).val) (by decide : _ = (1 : Fin 3))

/-- … 0 on the unit axis, … -/
theorem gather_siIdx_2 (b : Fin 8) (t : Fin 1024) : ((gather_S8x1024x32000_S8x1024x1x1_S8x1024x1_n_2_01_01_2_3_111.siIdx (ix3 b t (0 : Fin 1)) ⟨List.idxOf 2 gather_S8x1024x32000_S8x1024x1x1_S8x1024x1_n_2_01_01_2_3_111.startIndexMap, by decide⟩) 2).val = 0 := by
  unfold GatherDims.siIdx
  rw [dif_neg (by decide)]
  unfold GatherDims.siCoord
  simp only [Fin.val_cast]
  exact congrArg (fun y => (ix3 b t (0 : Fin 1) y).val) (by decide : _ = (2 : Fin 3))

/-- … and the component's number, 0, on the index vector's axis. -/
theorem gather_siIdx_3 (b : Fin 8) (t : Fin 1024) : ((gather_S8x1024x32000_S8x1024x1x1_S8x1024x1_n_2_01_01_2_3_111.siIdx (ix3 b t (0 : Fin 1)) ⟨List.idxOf 2 gather_S8x1024x32000_S8x1024x1x1_S8x1024x1_n_2_01_01_2_3_111.startIndexMap, by decide⟩) 3).val = 0 := by
  unfold GatherDims.siIdx
  rw [dif_pos (by decide)]
  show List.idxOf 2 gather_S8x1024x32000_S8x1024x1x1_S8x1024x1_n_2_01_01_2_3_111.startIndexMap = 0
  decide

/-- So that index is (b, t, 0, 0). -/
theorem gather_siIdx (b : Fin 8) (t : Fin 1024) :
    gather_S8x1024x32000_S8x1024x1x1_S8x1024x1_n_2_01_01_2_3_111.siIdx (ix3 b t (0 : Fin 1)) ⟨List.idxOf 2 gather_S8x1024x32000_S8x1024x1x1_S8x1024x1_n_2_01_01_2_3_111.startIndexMap, by decide⟩ = ix4 b t (0 : Fin 1) (0 : Fin 1) := by
  funext c; apply Fin.ext
  match c with
  | ⟨0, _⟩ => exact gather_siIdx_0 b t
  | ⟨1, _⟩ => exact gather_siIdx_1 b t
  | ⟨2, _⟩ => exact gather_siIdx_2 b t
  | ⟨3, _⟩ => exact gather_siIdx_3 b t

/-- Third axis: the start index, read signed and clamped into the row (the collapsed axis). -/
theorem gather_axis_2 (idx : IVec S8x1024x1x1 32) (b : Fin 8) (t : Fin 1024) :
    (gather_S8x1024x32000_S8x1024x1x1_S8x1024x1_n_2_01_01_2_3_111.operandIdx (ix3 b t (0 : Fin 1)) idx 2).val = min (idx (ix4 b t (0 : Fin 1) (0 : Fin 1))).toInt.toNat 31999 := by
  show gather_S8x1024x32000_S8x1024x1x1_S8x1024x1_n_2_01_01_2_3_111.start (ix3 b t (0 : Fin 1)) idx 2 + gather_S8x1024x32000_S8x1024x1x1_S8x1024x1_n_2_01_01_2_3_111.batchCoord (ix3 b t (0 : Fin 1)) 2
    + gather_S8x1024x32000_S8x1024x1x1_S8x1024x1_n_2_01_01_2_3_111.offCoord (ix3 b t (0 : Fin 1)) 2 = _
  rw [GatherDims.batchCoord_eq_zero _ _ _ (by decide), GatherDims.offCoord_eq_zero _ _ _ (by decide)]
  unfold GatherDims.start
  rw [dif_pos (by decide), gather_siIdx b t]
  rfl

/-- The batched read of each token's row at its index, at token (b, t): the row's entry at the start index read signed
    and clamped into the row. -/
theorem gather_apply (a : FVec Ideal S8x1024x32000 .f32) (idx : IVec S8x1024x1x1 32) (b : Fin 8) (t : Fin 1024) :
    Host.gather gather_S8x1024x32000_S8x1024x1x1_S8x1024x1_n_2_01_01_2_3_111 a idx (ix3 b t (0 : Fin 1))
      = a (ix3 b t ⟨min (idx (ix4 b t (0 : Fin 1) (0 : Fin 1))).toInt.toNat 31999, by omega⟩) := by
  unfold Host.gather
  refine congrArg a ?_
  funext ax; apply Fin.ext
  match ax with
  | ⟨0, _⟩ => exact gather_axis_0 idx b t
  | ⟨1, _⟩ => exact gather_axis_1 idx b t
  | ⟨2, _⟩ => exact gather_axis_2 idx b t

/-! ## Words: a label in the vocabulary's range, read as a signed word -/

/-- A label that is not the ignore index passes the keep test … -/
theorem keep_one {L : BitVec 32} (h : L ≠ 4294967196#32) : IntOp.cmpi .ne L 4294967196#32 = 1#1 := by
  show BitVec.ofBool (L != 4294967196#32) = 1#1
  exact (ofBool_eq_one_iff _).mpr (bne_iff_ne.mpr h)

/-- … and the ignore index fails it. -/
theorem keep_zero : IntOp.cmpi .ne (4294967196#32 : BitVec 32) 4294967196#32 = 0#1 := by decide

/-- A word below 32000 is not negative as a signed word … -/
theorem slt_zero_word {L : BitVec 32} (hL : L.toNat < 32000) : IntOp.cmpi .slt L 0#32 = 0#1 :=
  eq_zero_of_ne_one fun h => by
    have := (slt_iff_toNat (a := L) (b := 0#32) (by omega) (by decide)).mp h
    simp at this

/-- … it is at least 0 … -/
theorem sge_zero_word {L : BitVec 32} (hL : L.toNat < 32000) : IntOp.cmpi .sge L 0#32 = 1#1 :=
  (sge_iff_toNat (a := L) (b := 0#32) (by omega) (by decide)).mpr (by simp)

/-- … and at most 31999. -/
theorem sle_top_word {L : BitVec 32} (hL : L.toNat < 32000) : IntOp.cmpi .sle L 31999#32 = 1#1 :=
  (sle_iff_toNat (a := L) (b := 31999#32) (by omega) (by decide)).mpr (by
    show L.toNat ≤ 31999
    omega)

/-- Read signed and clamped into the row, such a word is its own value. -/
theorem clamp_word {L : BitVec 32} (hL : L.toNat < 32000) : min L.toInt.toNat 31999 = L.toNat := by
  rw [toInt_eq_toNat_of_lt (by omega), Int.toNat_natCast]; omega

/-! ## The read of each token's row at its label -/

/-- For a label in the vocabulary's range the row is read at the label itself. -/
theorem takeAlong_apply (a : FVec Ideal S8x1024x32000 .f32) (i : IVec S8x1024x1 32) (b : Fin 8) (t : Fin 1024)
    (hL : (i (ix3 b t (0 : Fin 1))).toNat < 32000) :
    RefTerm.takeAlong (F := Ideal) a i (ix3 b t (0 : Fin 1)) = a (ix3 b t ⟨(i (ix3 b t (0 : Fin 1))).toNat, hL⟩) := by
  have hw : RefTerm.wrapped i (ix4 b t (0 : Fin 1) (0 : Fin 1)) = i (ix3 b t (0 : Fin 1)) := by
    rw [wrapped_apply, slt_zero_word hL, select_zero]
  unfold RefTerm.takeAlong
  rw [select_apply, inRow_apply, hw, sge_zero_word hL, sle_top_word hL,
    show IntOp.andi (IntOp.andi 1#1 1#1) 1#1 = (1#1 : BitVec 1) by decide, select_one]
  refine (gather_apply a _ b t).trans ?_
  refine congrArg a (congrArg (ix3 b t) (Fin.ext ?_))
  show min (RefTerm.wrapped i (ix4 b t (0 : Fin 1) (0 : Fin 1))).toInt.toNat 31999 = _
  rw [hw, clamp_word hL]

/-- The row of the reference's logits at token (b, t) is the specification's row. -/
theorem logits_row (w : FVec Ideal S32000x4096 .f32) (x : FVec Ideal S8x1024x4096 .f32) (bias : FVec Ideal S32000 .f32)
    (b : Fin 8) (t : Fin 1024) :
    (fun v : Fin 32000 => RefTerm.logits (F := Ideal) w x bias (ix3 b t v)) = logit w x bias b t :=
  funext fun v => logits_apply w x bias b t v

/-- The reference's per-token term at a kept token whose label is a vocabulary entry: the logit at the label less the
    row's log-sum-exp. -/
theorem perTok_apply (w : FVec Ideal S32000x4096 .f32) (x : FVec Ideal S8x1024x4096 .f32) (tgt : IVec S8x1024 32)
    (bias : FVec Ideal S32000 .f32) (hw : AllReal w) (hx : AllReal x) (hb : AllReal bias) (b : Fin 8) (t : Fin 1024)
    (hne : tgt (ix2 b t) ≠ 4294967196#32) (hL : (tgt (ix2 b t)).toNat < 32000) :
    RefTerm.perTok (F := Ideal) w x tgt bias (ix2 b t)
      = logit w x bias b t ⟨(tgt (ix2 b t)).toNat, hL⟩ - rowLse (logit w x bias b t) := by
  have hlab : RefTerm.labels tgt (ix3 b t (0 : Fin 1)) = tgt (ix2 b t) := by
    rw [labels_apply, keep_one hne, select_one]
  have hL' : (RefTerm.labels tgt (ix3 b t (0 : Fin 1))).toNat < 32000 := by rw [hlab]; exact hL
  unfold RefTerm.perTok
  refine (shapeCast_apply _ _ (ix2 b t) (ix3 b t (0 : Fin 1)) (by
    rw [Shape.rowMajor_val_three, Shape.rowMajor_val_two]
    show (b.val * 1024 + t.val) * 1 + 0 = b.val * 1024 + t.val
    omega)).trans ?_
  refine (takeAlong_apply _ _ b t hL').trans ?_
  refine (congrArg (RefTerm.logSoftmax (F := Ideal) (RefTerm.logits (F := Ideal) w x bias))
    (congrArg (ix3 b t) (Fin.ext (congrArg BitVec.toNat hlab) :
      (⟨(RefTerm.labels tgt (ix3 b t (0 : Fin 1))).toNat, hL'⟩ : Fin 32000) = ⟨(tgt (ix2 b t)).toNat, hL⟩))).trans ?_
  rw [logSoftmax_apply, logits_row, logits_apply]
  exact sub_sub_lse _ (logit_real w x bias hw hx hb b t) _ (logit_real w x bias hw hx hb b t _)

/-! ## The ignored tokens zeroed -/

/-- The masked array at token (b, t): the entry times the keep bit read as a number. -/
theorem masked_apply (p : FVec Ideal S8x1024 .f32) (tgt : IVec S8x1024 32) (b : Fin 8) (t : Fin 1024) :
    masked RefTerm.tailFacts p tgt (ix2 b t)
      = p (ix2 b t) * (((IntOp.cmpi .ne (tgt (ix2 b t)) 4294967196#32).toNat : ℝ) : EReal) := by
  unfold masked keep
  rw [mulf_apply]
  rfl

/-- The reference's masked per-token term is the specification's, token by token. -/
theorem perTok_masked (w : FVec Ideal S32000x4096 .f32) (x : FVec Ideal S8x1024x4096 .f32) (tgt : IVec S8x1024 32)
    (bias : FVec Ideal S32000 .f32) (hw : AllReal w) (hx : AllReal x) (hb : AllReal bias) (ht : LabelsOk tgt)
    (b : Fin 8) (t : Fin 1024) :
    masked RefTerm.tailFacts (RefTerm.perTok (F := Ideal) w x tgt bias) tgt (ix2 b t) = tokSpecAt w x bias tgt b t := by
  unfold tokSpecAt
  rw [masked_apply]
  by_cases h : tgt (ix2 b t) = 4294967196#32
  · rw [if_pos h, h, keep_zero]
    simp
  · have hL : (tgt (ix2 b t)).toNat < 32000 := (ht (ix2 b t)).resolve_left h
    rw [if_neg h, dif_pos hL, keep_one h, perTok_apply w x tgt bias hw hx hb b t h hL]
    simp

/-- The same as an equation of arrays. -/
theorem masked_perTok_eq (w : FVec Ideal S32000x4096 .f32) (x : FVec Ideal S8x1024x4096 .f32) (tgt : IVec S8x1024 32)
    (bias : FVec Ideal S32000 .f32) (hw : AllReal w) (hx : AllReal x) (hb : AllReal bias) (ht : LabelsOk tgt) :
    masked RefTerm.tailFacts (RefTerm.perTok (F := Ideal) w x tgt bias) tgt = tokSpec w x bias tgt := by
  funext i
  rw [eq_ix2 i]
  exact perTok_masked w x tgt bias hw hx hb ht (i 0) (i 1)

end Cert.ReferenceIdeal.RefValue

end
-- ==== Proof.PreDecode.lean ====
/-
  The printed precondition, read back as plain facts about the four input arrays.

  The precondition is the conjunction of four statements, each an "all" over an array:
  |w[v,h]| < +∞ for every entry of the weights, |x[b,t,h]| < +∞ for every entry of the activations,
  |bias[v]| < +∞ for every entry of the bias, and for every label either label = −100 (the word 4294967196)
  or 0 ≤ label < 32000 read signed.  An "all" that holds gives its statement at every index; an extended real whose
  absolute value is below +∞ is neither infinity, hence a real number; and a 32-bit word that is ≥ 0 and < 32000 read
  signed has an unsigned value below 32000.
-/
import proofs.«403262_j18391049961623_3_alg».proof.Pre_finite_inputs
import proofs.«403262_j18391049961623_3_alg».proof.Proof.Gen.Pre_finite_inputs
import proofs.«403262_j18391049961623_3_alg».proof.Proof.Shared
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic

/-- The scalar shape has exactly one index. -/
instance : Subsingleton Cert.Pre_finite_inputs.S_.Idx := ⟨fun a b => funext fun d => d.elim0⟩

/-- The f32 pattern 0x7F800000 denotes +∞. -/
theorem inf_pattern : Ideal.ofBits .f32 0x7F800000#32 = ⊤ := by simp [Ideal.ofBits, Ideal.ieee]

/-- An extended real x with max x (−x) < +∞ is a real number: x = +∞ is excluded by the first operand of the maximum,
    x = −∞ by the second (−(−∞) = +∞). -/
theorem real_of_abs_lt_inf (x : EReal)
    (h : Ideal.cmp .olt (max x (-x)) (Ideal.ofBits .f32 0x7F800000#32) = 1#1) : ∃ r : ℝ, x = (r : EReal) := by
  rw [inf_pattern] at h
  unfold Ideal.cmp at h
  rw [StableHlo.Predicate.ofBool_eq_one_iff, decide_eq_true_eq, max_lt_iff] at h
  induction x using EReal.rec with
  | bot => exact absurd h.2 (by simp)
  | top => exact absurd h.1 (by simp)
  | coe r => exact ⟨r, rfl⟩

/-- A label word that equals −100, or is ≥ 0 and < 32000 read signed, equals −100 or has unsigned value below 32000:
    a word that is nonnegative read signed reads the same unsigned. -/
theorem label_ok (w : BitVec 32)
    (h : IntOp.ori (IntOp.cmpi .eq w 4294967196#32) (IntOp.andi (IntOp.cmpi .sge w 0#32) (IntOp.cmpi .slt w 32000#32)) = 1#1) :
    w = 4294967196#32 ∨ w.toNat < 32000 := by
  rcases IntOp.ori_eq_one.1 h with h | h
  · exact Or.inl (IntOp.cmpi_eq.1 h)
  · obtain ⟨h0, h1⟩ := IntOp.andi_eq_one.1 h
    rw [IntOp.cmpi_sge] at h0
    rw [IntOp.cmpi_slt] at h1
    have e0 : (0#32 : BitVec 32).toInt = 0 := by decide
    have e1 : (32000#32 : BitVec 32).toInt = 32000 := by decide
    rw [e0] at h0
    rw [e1] at h1
    have hn : 2 * w.toNat < 2 ^ 32 := BitVec.toInt_pos_iff.1 h0
    rw [BitVec.toInt_eq_toNat_of_lt hn] at h1
    exact Or.inr (by omega)

/-- The printed precondition, all ones, gives: every weight, activation and bias entry is a real number, and every label
    is −100 or below 32000.  The value at the one index of the scalar result is a conjunction of four "all"s; each gives
    its element statement at every index, which the two scalar lemmas above turn into the plain fact. -/
theorem decode (a0 : FVec Ideal Cert.Pre_finite_inputs.S32000x4096 .f32) (a1 : FVec Ideal Cert.Pre_finite_inputs.S8x1024x4096 .f32)
    (a2 : IVec Cert.Pre_finite_inputs.S8x1024 32) (a3 : FVec Ideal Cert.Pre_finite_inputs.S32000 .f32)
    (h : Cert.Pre_finite_inputs.fn (F := Ideal) a0 a1 a2 a3 = fun _ => 1#1) :
    Cert.Shared.AllReal a0 ∧ Cert.Shared.AllReal a1 ∧ Cert.Shared.AllReal a3 ∧ Cert.Shared.LabelsOk a2 := by
  have h0 := congrFun h ValueIdx.ix0
  dsimp only [Cert.Pre_finite_inputs.fn, Cert.Pre_finite_inputs.fn_part1] at h0
  obtain ⟨h013, hL⟩ := IntOp.andi_eq_one.1 (show IntOp.andi _ _ = 1#1 from h0)
  obtain ⟨h01, hB⟩ := IntOp.andi_eq_one.1 (show IntOp.andi _ _ = 1#1 from h013)
  obtain ⟨hW, hX⟩ := IntOp.andi_eq_one.1 (show IntOp.andi _ _ = 1#1 from h01)
  refine ⟨fun i => ?_, fun i => ?_, fun i => ?_, fun i => ?_⟩
  · exact real_of_abs_lt_inf (a0 i) (Host.reduce_andi_all _ _ _ _ ValueIdx.ix0 hW i)
  · exact real_of_abs_lt_inf (a1 i) (Host.reduce_andi_all _ _ _ _ ValueIdx.ix0 hX i)
  · exact real_of_abs_lt_inf (a3 i) (Host.reduce_andi_all _ _ _ _ ValueIdx.ix0 hB i)
  · exact label_ok (a2 i) (Host.reduce_andi_all _ _ _ _ ValueIdx.ix0 hL i)

end Cert.PreDecode

end
-- ==== Proof.lean ====
/-
  A fused linear head with a contrastive-preference loss, against its plain reference, over the extended reals.

  Both programs form, for each of the 8 × 1024 tokens, the log-probability of the token's label under the softmax of
  its row of 32000 logits  logit v = (∑ h, x[h] · w[v,h]) + bias[v],  zeroed where the label is the ignore index −100,
  and then the same loss of that array: per-sequence sums, chosen against rejected halves through log σ, and the
  chosen half's mean.  The reference computes log-softmax in two passes (row maximum M, then ∑ exp (· − M)) and reads
  it at the label.  The kernel sweeps each row in 25 tiles of 1280 columns, carrying a running maximum, a sum of
  exponentials rescaled to the current maximum and the logit at the label, and stores label − (M + log ∑) after the
  last tile.  For rows of real logits (the precondition makes every input entry finite) the two agree:
  exp (m − m') · ∑ exp (ℓ − m) = ∑ exp (ℓ − m'), and (a − M) − L = a − (M + L) in ℝ.  The labels are assumed in their
  range (−100 or a vocabulary entry): outside it the reference reads out of its row.
-/
import proofs.«403262_j18391049961623_3_alg».proof.Defs
import proofs.«403262_j18391049961623_3_alg».proof.Proof.Gen.Kernel
import proofs.«403262_j18391049961623_3_alg».proof.Proof.Gen.KernelIdeal
import proofs.«403262_j18391049961623_3_alg».proof.Proof.Gen.ReferenceIdeal
import proofs.«403262_j18391049961623_3_alg».proof.Proof.Gen.Pre_finite_inputs
import proofs.«403262_j18391049961623_3_alg».proof.Proof.HandKernel.ReadOut
import proofs.«403262_j18391049961623_3_alg».proof.Proof.HandKernelIdeal.ReadOut
import proofs.«403262_j18391049961623_3_alg».proof.Proof.HandKernelIdeal.Induct
import proofs.«403262_j18391049961623_3_alg».proof.Proof.RefRun
import proofs.«403262_j18391049961623_3_alg».proof.Proof.RefValue
import proofs.«403262_j18391049961623_3_alg».proof.Proof.PreDecode
import proofs.«403262_j18391049961623_3_alg».proof.Proof.RefTerm
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Over the extended reals both programs end at the loss of one array: the masked per-token log-probabilities
    logit(label) − (max + log ∑ exp (· − max)), 0 at the ignored tokens.  The kernel reaches it by its sweep over the
    vocabulary tiles, the reference by log-softmax and a read at the label; the loss's operations are the same in both. -/
theorem algebraic : Cert.algebraic_KernelIdeal_ReferenceIdeal := by
  intro m ρ m' ρ' hpre hagree
  have hdec := fun c => Cert.PreDecode.decode _ _ _ _ (hpre c)
  refine ⟨fun c => Cert.Shared.lossOf Cert.KernelIdeal.Hand.tailFacts
      (Cert.Shared.tokSpec (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg2)), ?_, ?_⟩
  · refine (θ_run (Cert.KernelIdeal.defs (F := Ideal)) _ _).mono (fun _ h c => ⟨?_, (h c).2⟩)
      (Cert.KernelIdeal.Hand.run_value (F := Ideal) m ρ)
    rw [(h c).1, Cert.KernelIdeal.Hand.kout_masked m c (hdec c).1 (hdec c).2.1 (hdec c).2.2.1 (hdec c).2.2.2]
  · refine (θ_run (Cert.ReferenceIdeal.defs (F := Ideal)) _ _).mono (fun _ h c => ⟨?_, (h c).2⟩)
      (Cert.ReferenceIdeal.RefRun.run (F := Ideal) m' ρ')
    rw [(h c).1, (hagree c).1, (hagree c).2.1, (hagree c).2.2.1, (hagree c).2.2.2,
      Cert.ReferenceIdeal.RefValue.masked_perTok_eq _ _ _ _ (hdec c).1 (hdec c).2.1 (hdec c).2.2.1 (hdec c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
